-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg2 : IVec S800000 32) (main_arg9 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_c_14 : IVec S_ 32 := constantI S_ 32 4294917296#32
  let main_v39 : IVec S800000 32 := broadcastInDim S800000 ![] bcast_S_S800000 main_c_14
  let main_v40 : IVec S800000 1 := cmpi .sge main_arg2 main_v39
  let main_c_15 : IVec S_ 32 := constantI S_ 32 50000#32
  let main_v41 : IVec S800000 32 := broadcastInDim S800000 ![] bcast_S_S800000 main_c_15
  let main_v42 : IVec S800000 1 := cmpi .slt main_arg2 main_v41
  let main_v43 : IVec S800000 1 := andi main_v40 main_v42
  let main_c_16 : IVec S_ 1 := constantI S_ 1 1#1
  let main_v44 : IVec S_ 1 := (fun x v => Host.reduce IntOp.andi x v reducesTo_S800000_S_d0 h_S_) main_v43 main_c_16
  let main_v45 : IVec S_ 1 := andi main_v38 main_v44
  main_v45

def fn_part1 {F : FTy → Type} [FloatOps F] (main_arg2 : IVec S800000 32) (main_arg6 : FVec F S128x128 .f32) (main_arg7 : FVec F S128 .f32) (main_arg8 : FVec F S128x128 .f32) (main_arg9 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg9 main_v33

def fn {F : FTy → Type} [FloatOps F] (main_arg0 : FVec F S50000x128 .f32) (main_arg1 : FVec F S50000x128 .f32) (main_arg2 : IVec S800000 32) (main_arg3 : IVec S800000 32) (main_arg4 : FVec F S128x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg6 main_arg7 main_arg8 main_arg9 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S128x8 : Shape := ⟨2, ![128, 8]⟩
abbrev S128x256 : Shape := ⟨2, ![128, 256]⟩
abbrev S256 : Shape := ⟨1, ![256]⟩
abbrev S1x128 : Shape := ⟨2, ![1, 128]⟩
abbrev S5000x128 : Shape := ⟨2, ![5000, 128]⟩
abbrev S1x256 : Shape := ⟨2, ![1, 256]⟩
abbrev S50000x256 : Shape := ⟨2, ![50000, 256]⟩
abbrev S5000x256 : Shape := ⟨2, ![5000, 256]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S800000x8 : Shape := ⟨2, ![800000, 8]⟩
abbrev S8000x128 : Shape := ⟨2, ![8000, 128]⟩
abbrev S8000x8 : Shape := ⟨2, ![8000, 8]⟩
abbrev S8x128 : Shape := ⟨2, ![8, 128]⟩
abbrev S50000x8 : Shape := ⟨2, ![50000, 8]⟩
abbrev S50000x8x16 : Shape := ⟨3, ![50000, 8, 16]⟩
abbrev S50000x8x1 : Shape := ⟨3, ![50000, 8, 1]⟩

abbrev nBuf : Space → Nat
  | .hbm => 102
  | .vmem => 23
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x8, .f32⟩
  | .hbm, ⟨11, _⟩ => ⟨S128x256, .f32⟩
  | .hbm, ⟨12, _⟩ => ⟨S256, .f32⟩
  | .hbm, ⟨13, _⟩ => ⟨S1x128, .f32⟩
  | .hbm, ⟨14, _⟩ => ⟨S50000x128, .f32⟩
  | .hbm, ⟨15, _⟩ => ⟨S1x256, .f32⟩
  | .hbm, ⟨16, _⟩ => ⟨S50000x256, .f32⟩
  | .hbm, ⟨17, _⟩ => ⟨S50000x128, .f32⟩
  | .hbm, ⟨18, _⟩ => ⟨S50000x128, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S1, .i32⟩
  | .hbm, ⟨28, _⟩ => ⟨S_, .i32⟩
  | .hbm, ⟨29, _⟩ => ⟨S800000x1, .i32⟩
  | .hbm, ⟨30, _⟩ => ⟨S800000x1, .i1⟩
  | .hbm, ⟨31, _⟩ => ⟨S1x1, .i32⟩
  | .hbm, ⟨32, _⟩ => ⟨S800000x1, .i32⟩
  | .hbm, ⟨33, _⟩ => ⟨S800000x1, .i1⟩
  | .hbm, ⟨34, _⟩ => ⟨S800000x1, .i1⟩
  | .hbm, ⟨35, _⟩ => ⟨S_, .i1⟩
  | .hbm, ⟨36, _⟩ => ⟨S800000, .i1⟩
  | .hbm, ⟨37, _⟩ => ⟨S800000x128, .f32⟩
  | .hbm, ⟨38, _⟩ => ⟨S800000x128, .i1⟩
  | .hbm, ⟨39, _⟩ => ⟨S_, .f32⟩
  | .hbm, ⟨40, _⟩ => ⟨S800000x128, .f32⟩
  | .hbm, ⟨41, _⟩ => ⟨S800000x128, .f32⟩
  | .hbm, ⟨42, _⟩ => ⟨S_, .i32⟩
  | .hbm, ⟨43, _⟩ => ⟨S800000, .i32⟩
  | .hbm, ⟨44, _⟩ => ⟨S800000, .i1⟩
  | .hbm, ⟨45, _⟩ => ⟨S_, .i32⟩
  | .hbm, ⟨46, _⟩ => ⟨S800000, .i32⟩
  | .hbm, ⟨47, _⟩ => ⟨S800000, .i32⟩
  | .hbm, ⟨48, _⟩ => ⟨S800000, .i32⟩
  | .hbm, ⟨49, _⟩ => ⟨S800000x1, .i32⟩
  | .hbm, ⟨50, _⟩ => ⟨S1, .i32⟩
  | .hbm, ⟨51, _⟩ => ⟨S_, .i32⟩
  | .hbm, ⟨52, _⟩ => ⟨S800000x1, .i32⟩
  | .hbm, ⟨53, _⟩ => ⟨S800000x1, .i1⟩
  | .hbm, ⟨54, _⟩ => ⟨S1x1, .i32⟩
  | .hbm, ⟨55, _⟩ => ⟨S800000x1, .i32⟩
  | .hbm, ⟨56, _⟩ => ⟨S800000x1, .i1⟩
  | .hbm, ⟨57, _⟩ => ⟨S800000x1, .i1⟩
  | .hbm, ⟨58, _⟩ => ⟨S_, .i1⟩
  | .hbm, ⟨59, _⟩ => ⟨S800000, .i1⟩
  | .hbm, ⟨60, _⟩ => ⟨S800000x128, .f32⟩
  | .hbm, ⟨61, _⟩ => ⟨S800000x128, .i1⟩
  | .hbm, ⟨62, _⟩ => ⟨S_, .f32⟩
  | .hbm, ⟨63, _⟩ => ⟨S800000x128, .f32⟩
  | .hbm, ⟨64, _⟩ => ⟨S800000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S1, .i32⟩
  | .hbm, ⟨74, _⟩ => ⟨S_, .i32⟩
  | .hbm, ⟨75, _⟩ => ⟨S800000x1, .i32⟩
  | .hbm, ⟨76, _⟩ => ⟨S800000x1, .i1⟩
  | .hbm, ⟨77, _⟩ => ⟨S1x1, .i32⟩
  | .hbm, ⟨78, _⟩ => ⟨S800000x1, .i32⟩
  | .hbm, ⟨79, _⟩ => ⟨S800000x1, .i1⟩
  | .hbm, ⟨80, _⟩ => ⟨S800000x1, .i1⟩
  | .hbm, ⟨81, _⟩ => ⟨S_, .i1⟩
  | .hbm, ⟨82, _⟩ => ⟨S800000, .i1⟩
  | .hbm, ⟨83, _⟩ => ⟨S800000x128, .f32⟩
  | .hbm, ⟨84, _⟩ => ⟨S800000x128, .i1⟩
  | .hbm, ⟨85, _⟩ => ⟨S_, .f32⟩
  | .hbm, ⟨86, _⟩ => ⟨S800000x128, .f32⟩
  | .hbm, ⟨87, _⟩ => ⟨S800000x128, .f32⟩
  | .hbm, ⟨88, _⟩ => ⟨S800000x128, .f32⟩
  | .hbm, ⟨89, _⟩ => ⟨S800000x8, .f32⟩
  | .hbm, ⟨90, _⟩ => ⟨S_, .f32⟩
  | .hbm, ⟨91, _⟩ => ⟨S50000x128, .f32⟩
  | .hbm, ⟨92, _⟩ => ⟨S800000x1, .i32⟩
  | .hbm, ⟨93, _⟩ => ⟨S50000x128, .f32⟩
  | .hbm, ⟨94, _⟩ => ⟨S_, .f32⟩
  | .hbm, ⟨95, _⟩ => ⟨S50000x8, .f32⟩
  | .hbm, ⟨96, _⟩ => ⟨S800000x1, .i32⟩
  | .hbm, ⟨97, _⟩ => ⟨S50000x8, .f32⟩
  | .hbm, ⟨98, _⟩ => ⟨S50000x8x16, .f32⟩
  | .hbm, ⟨99, _⟩ => ⟨S50000x8x1, .f32⟩
  | .hbm, ⟨100, _⟩ => ⟨S50000x8x16, .f32⟩
  | .hbm, ⟨101, _⟩ => ⟨S50000x8x16, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x256, .f32⟩
  | .local _ .vmem, ⟨9, _⟩ => ⟨S1x256, .f32⟩
  | .local _ .vmem, ⟨10, _⟩ => ⟨S5000x256, .f32⟩
  | .local _ .vmem, ⟨11, _⟩ => ⟨S5000x256, .f32⟩
  | .local _ .vmem, ⟨12, _⟩ => ⟨S8000x128, .f32⟩
  | .local _ .vmem, ⟨13, _⟩ => ⟨S8000x128, .f32⟩
  | .local _ .vmem, ⟨14, _⟩ => ⟨S8000x128, .f32⟩
  | .local _ .vmem, ⟨15, _⟩ => ⟨S8000x128, .f32⟩
  | .local _ .vmem, ⟨16, _⟩ => ⟨S8000x128, .f32⟩
  | .local _ .vmem, ⟨17, _⟩ => ⟨S8000x128, .f32⟩
  | .local _ .vmem, ⟨18, _⟩ => ⟨S128x8, .f32⟩
  | .local _ .vmem, ⟨19, _⟩ => ⟨S8000x128, .f32⟩
  | .local _ .vmem, ⟨20, _⟩ => ⟨S8000x128, .f32⟩
  | .local _ .vmem, ⟨21, _⟩ => ⟨S8000x8, .f32⟩
  | .local _ .vmem, ⟨22, _⟩ => ⟨S8000x8, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v8 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v9 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_cst : Ref sig .tc := ⟨.hbm, 85, rfl⟩
abbrev main_call2_v15 : Ref sig .tc := ⟨.hbm, 86, rfl⟩
abbrev main_v10 : Ref sig .tc := ⟨.hbm, 87, rfl⟩
abbrev main_v11_0 : Ref sig .tc := ⟨.hbm, 88, rfl⟩
abbrev main_v11_1 : Ref sig .tc := ⟨.hbm, 89, rfl⟩
abbrev main_cst_0 : Ref sig .tc := ⟨.hbm, 90, rfl⟩
abbrev main_v12 : Ref sig .tc := ⟨.hbm, 91, rfl⟩
abbrev main_v13 : Ref sig .tc := ⟨.hbm, 92, rfl⟩
abbrev main_v14 : Ref sig .tc := ⟨.hbm, 93, rfl⟩
abbrev main_cst_1 : Ref sig .tc := ⟨.hbm, 94, rfl⟩
abbrev main_v15 : Ref sig .tc := ⟨.hbm, 95, rfl⟩
abbrev main_v16 : Ref sig .tc := ⟨.hbm, 96, rfl⟩
abbrev main_v17 : Ref sig .tc := ⟨.hbm, 97, rfl⟩
abbrev main_v18 : Ref sig .tc := ⟨.hbm, 98, rfl⟩
abbrev main_v19 : Ref sig .tc := ⟨.hbm, 99, rfl⟩
abbrev main_v20 : Ref sig .tc := ⟨.hbm, 100, rfl⟩
abbrev main_v21 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem4_0 : DmaSem sig := 19
abbrev cc2_sem4_1 : DmaSem sig := 20
abbrev cc2_sem5_0 : DmaSem sig := 21
abbrev cc2_sem5_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S8000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x8 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S8000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S8000x8 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  concatenates_S128x128_S128x128_S128x256_d1 : Shape.Concatenates [S128x128, S128x128] S128x256 1
  concatenates_S128_S128_S256_d0 : Shape.Concatenates [S128, S128] S256 0
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S256_S1x256 : S256.ShapeCasts S1x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  slices_S50000x256_S50000x128_0_0 : S50000x256.Slices ![0, 0] S50000x128
  slices_S50000x256_S50000x128_0_128 : S50000x256.Slices ![0, 128] S50000x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S128x8_S128x8_0_0 : ∀ a, (![0, 0] : Fin 2 → Nat) a + S128x8.size a ≤ S128x8.size a
  h_S128x8 : 0 < S128x8.numel
  transposes_S128x8_p1_0_S8x128 : S128x8.Transposes [1, 0] S8x128
  inb_S8000x8_S8000x8_0_0 : ∀ a, (![0, 0] : Fin 2 → Nat) a + S8000x8.size a ≤ S8000x8.size a
  h_S8000x8 : 0 < S8000x8.numel
  bcast_S_S50000x128 : S_.BroadcastsInDim S50000x128 (![] : Fin 0 → Fin S50000x128.rank)
  bcast_S_S50000x8 : S_.BroadcastsInDim S50000x8 (![] : Fin 0 → Fin S50000x8.rank)
  shapeCasts_S50000x128_S50000x8x16 : S50000x128.ShapeCasts S50000x8x16
  shapeCasts_S50000x8_S50000x8x1 : S50000x8.ShapeCasts S50000x8x1
  bcast_S50000x8x1_S50000x8x16_0_1_2 : S50000x8x1.BroadcastsInDim S50000x8x16 (![0, 1, 2] : Fin 3 → Fin S50000x8x16.rank)
  dot_S5000x128_S128x128_S5000x128_1_0_0_1_n_n_wf : DotDims.WF S5000x128 S128x128 S5000x128 [1] [0] [0] [1] [] []
  dot_S5000x128_S128x256_S5000x256_1_0_0_1_n_n_wf : DotDims.WF S5000x128 S128x256 S5000x256 [1] [0] [0] [1] [] []
  gather_S50000x128_S800000x1_S800000x128_1_0_n_n_0_1_1128_wf : GatherDims.WF S50000x128 S800000x1 S800000x128 [1] [0] [] [0] [] 1 ![1, 128]
  dot_S8000x128_S128x8_S8000x8_1_0_0_1_n_n_wf : DotDims.WF S8000x128 S128x8 S8000x8 [1] [0] [0] [1] [] []
  dot_S8000x8_S8x128_S8000x128_1_0_0_1_n_n_wf : DotDims.WF S8000x8 S8x128 S8000x128 [1] [0] [0] [1] [] []
  scatter_S50000x128_S800000x1_S800000x128_1_0_0_1_wf : ScatterDims.WF S50000x128 S800000x1 S800000x128 [1] [0] [0] 1
  scatter_S50000x8_S800000x1_S800000x8_1_0_0_1_wf : ScatterDims.WF S50000x8 S800000x1 S800000x8 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x256.size a ≤ S50000x256.size a
  hwx1_3 : ∀ i : grid1.Coords, EltTy.bits .f32 = 32 ∨ (Rect.block (s := S50000x256) S5000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8000x128.size a ≤ S800000x128.size a
  hwx2_0 : ∀ i : grid2.Coords, EltTy.bits .f32 = 32 ∨ (Rect.block (s := S800000x128) S8000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S8000x128.size a ≤ S800000x128.size a
  hwx2_1 : ∀ i : grid2.Coords, EltTy.bits .f32 = 32 ∨ (Rect.block (s := S800000x128) S8000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S8000x128.size a ≤ S800000x128.size a
  hwx2_2 : ∀ i : grid2.Coords, EltTy.bits .f32 = 32 ∨ (Rect.block (s := S800000x128) S8000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x8.size a ≤ S128x8.size a
  hwx2_3 : ∀ i : grid2.Coords, EltTy.bits .f32 = 32 ∨ (Rect.block (s := S128x8) S128x8.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S8000x128.size a ≤ S800000x128.size a
  hwx2_4 : ∀ i : grid2.Coords, EltTy.bits .f32 = 32 ∨ (Rect.block (s := S800000x128) S8000x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S8000x8.size a ≤ S800000x8.size a
  hwx2_5 : ∀ i : grid2.Coords, EltTy.bits .f32 = 32 ∨ (Rect.block (s := S800000x8) S8000x8.size (cc2_transform_5 i) (hinb2_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x256_S5000x256_1_0_0_1_n_n : DotDims S5000x128 S128x256 S5000x256 where
  lhsContracting := [1]
  rhsContracting := [0]
  lhsNonContracting := [0]
  rhsNonContracting := [1]
  lhsBatch := []
  rhsBatch := []
  wf := dot_S5000x128_S128x256_S5000x256_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S8000x128_S128x8_S8000x8_1_0_0_1_n_n : DotDims S8000x128 S128x8 S8000x8 where
  lhsContracting := [1]
  rhsContracting := [0]
  lhsNonContracting := [0]
  rhsNonContracting := [1]
  lhsBatch := []
  rhsBatch := []
  wf := dot_S8000x128_S128x8_S8000x8_1_0_0_1_n_n_wf
def dot_S8000x8_S8x128_S8000x128_1_0_0_1_n_n : DotDims S8000x8 S8x128 S8000x128 where
  lhsContracting := [1]
  rhsContracting := [0]
  lhsNonContracting := [0]
  rhsNonContracting := [1]
  lhsBatch := []
  rhsBatch := []
  wf := dot_S8000x8_S8x128_S8000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000x8_S800000x1_S800000x8_1_0_0_1 : ScatterDims S50000x8 S800000x1 S800000x8 where
  updateWindowDims := [1]
  insertedWindowDims := [0]
  scatterDimsToOperandDims := [0]
  indexVectorDim := 1
  wf := scatter_S50000x8_S800000x1_S800000x8_1_0_0_1_wf

abbrev win0_0 : Pipeline.Window sig grid0 :=
  Pipeline.Window.ofSpec (Memref.whole main_arg1) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S5000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v8) S8000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S8000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v10) S8000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_cst) S128x8.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11_0) S8000x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v11_1) S8000x8.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S1x128 : Shape := ⟨2, ![1, 128]⟩
abbrev S50000x8x16 : Shape := ⟨3, ![50000, 8, 16]⟩
abbrev S_ : Shape := ⟨0, ![]⟩
abbrev S800000x1 : Shape := ⟨2, ![800000, 1]⟩
abbrev S800000x8x16 : Shape := ⟨3, ![800000, 8, 16]⟩
abbrev S800000x8 : Shape := ⟨2, ![800000, 8]⟩
abbrev S800000x8x1 : Shape := ⟨3, ![800000, 8, 1]⟩
abbrev S50000x8x1 : Shape := ⟨3, ![50000, 8, 1]⟩

abbrev nBuf : Space → Nat
  | .hbm => 80
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S800000, .i32⟩
  | .hbm, ⟨3, _⟩ => ⟨S800000, .i32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S50000x128, .f32⟩
  | .hbm, ⟨11, _⟩ => ⟨S1x128, .f32⟩
  | .hbm, ⟨12, _⟩ => ⟨S50000x128, .f32⟩
  | .hbm, ⟨13, _⟩ => ⟨S50000x128, .f32⟩
  | .hbm, ⟨14, _⟩ => ⟨S50000x8x16, .f32⟩
  | .hbm, ⟨15, _⟩ => ⟨S50000x128, .f32⟩
  | .hbm, ⟨16, _⟩ => ⟨S1x128, .f32⟩
  | .hbm, ⟨17, _⟩ => ⟨S50000x128, .f32⟩
  | .hbm, ⟨18, _⟩ => ⟨S50000x128, .f32⟩
  | .hbm, ⟨19, _⟩ => ⟨S50000x8x16, .f32⟩
  | .hbm, ⟨20, _⟩ => ⟨S50000x128, .f32⟩
  | .hbm, ⟨21, _⟩ => ⟨S1x128, .f32⟩
  | .hbm, ⟨22, _⟩ => ⟨S50000x128, .f32⟩
  | .hbm, ⟨23, _⟩ => ⟨S50000x128, .f32⟩
  | .hbm, ⟨24, _⟩ => ⟨S50000x8x16, .f32⟩
  | .hbm, ⟨25, _⟩ => ⟨S_, .i32⟩
  | .hbm, ⟨26, _⟩ => ⟨S800000, .i32⟩
  | .hbm, ⟨27, _⟩ => ⟨S800000, .i1⟩
  | .hbm, ⟨28, _⟩ => ⟨S_, .i32⟩
  | .hbm, ⟨29, _⟩ => ⟨S800000, .i32⟩
  | .hbm, ⟨30, _⟩ => ⟨S800000, .i32⟩
  | .hbm, ⟨31, _⟩ => ⟨S800000, .i32⟩
  | .hbm, ⟨32, _⟩ => ⟨S800000x1, .i32⟩
  | .hbm, ⟨33, _⟩ => ⟨S800000x8x16, .f32⟩
  | .hbm, ⟨34, _⟩ => ⟨S_, .i32⟩
  | .hbm, ⟨35, _⟩ => ⟨S800000, .i32⟩
  | .hbm, ⟨36, _⟩ => ⟨S800000, .i1⟩
  | .hbm, ⟨37, _⟩ => ⟨S_, .i32⟩
  | .hbm, ⟨38, _⟩ => ⟨S800000, .i32⟩
  | .hbm, ⟨39, _⟩ => ⟨S800000, .i32⟩
  | .hbm, ⟨40, _⟩ => ⟨S800000, .i32⟩
  | .hbm, ⟨41, _⟩ => ⟨S800000x1, .i32⟩
  | .hbm, ⟨42, _⟩ => ⟨S800000x8x16, .f32⟩
  | .hbm, ⟨43, _⟩ => ⟨S800000x8x16, .f32⟩
  | .hbm, ⟨44, _⟩ => ⟨S_, .f32⟩
  | .hbm, ⟨45, _⟩ => ⟨S800000x8, .f32⟩
  | .hbm, ⟨46, _⟩ => ⟨S800000x8x1, .f32⟩
  | .hbm, ⟨47, _⟩ => ⟨S_, .f32⟩
  | .hbm, ⟨48, _⟩ => ⟨S800000x8x1, .f32⟩
  | .hbm, ⟨49, _⟩ => ⟨S800000x8x1, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S800000x8x1, .f32⟩
  | .hbm, ⟨54, _⟩ => ⟨S800000x8x1, .f32⟩
  | .hbm, ⟨55, _⟩ => ⟨S_, .f32⟩
  | .hbm, ⟨56, _⟩ => ⟨S800000x8x1, .f32⟩
  | .hbm, ⟨57, _⟩ => ⟨S800000x8x1, .f32⟩
  | .hbm, ⟨58, _⟩ => ⟨S800000x8x1, .f32⟩
  | .hbm, ⟨59, _⟩ => ⟨S_, .i32⟩
  | .hbm, ⟨60, _⟩ => ⟨S800000, .i32⟩
  | .hbm, ⟨61, _⟩ => ⟨S800000, .i1⟩
  | .hbm, ⟨62, _⟩ => ⟨S_, .i32⟩
  | .hbm, ⟨63, _⟩ => ⟨S800000, .i32⟩
  | .hbm, ⟨64, _⟩ => ⟨S800000, .i32⟩
  | .hbm, ⟨65, _⟩ => ⟨S800000, .i32⟩
  | .hbm, ⟨66, _⟩ => ⟨S800000x1, .i32⟩
  | .hbm, ⟨67, _⟩ => ⟨S800000x8x16, .f32⟩
  | .hbm, ⟨68, _⟩ => ⟨S800000x8x16, .f32⟩
  | .hbm, ⟨69, _⟩ => ⟨S800000x8x16, .f32⟩
  | .hbm, ⟨70, _⟩ => ⟨S_, .f32⟩
  | .hbm, ⟨71, _⟩ => ⟨S50000x8x16, .f32⟩
  | .hbm, ⟨72, _⟩ => ⟨S800000x1, .i32⟩
  | .hbm, ⟨73, _⟩ => ⟨S50000x8x16, .f32⟩
  | .hbm, ⟨74, _⟩ => ⟨S_, .f32⟩
  | .hbm, ⟨75, _⟩ => ⟨S50000x8x1, .f32⟩
  | .hbm, ⟨76, _⟩ => ⟨S800000x1, .i32⟩
  | .hbm, ⟨77, _⟩ => ⟨S50000x8x1, .f32⟩
  | .hbm, ⟨78, _⟩ => ⟨S50000x8x16, .f32⟩
  | .hbm, ⟨79, _⟩ => ⟨S50000x8x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_1 : Ref sig .tc := ⟨.hbm, 34, rfl⟩
abbrev main_v22 : Ref sig .tc := ⟨.hbm, 35, rfl⟩
abbrev main_v23 : Ref sig .tc := ⟨.hbm, 36, rfl⟩
abbrev main_c_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_cst_5 : Ref sig .tc := ⟨.hbm, 51, rfl⟩
abbrev main_call0_v0 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_v34 : Ref sig .tc := ⟨.hbm, 57, rfl⟩
abbrev main_v35 : Ref sig .tc := ⟨.hbm, 58, rfl⟩
abbrev main_c_6 : Ref sig .tc := ⟨.hbm, 59, rfl⟩
abbrev main_v36 : Ref sig .tc := ⟨.hbm, 60, rfl⟩
abbrev main_v37 : Ref sig .tc := ⟨.hbm, 61, rfl⟩
abbrev main_c_7 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_8 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_9 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  shapeCasts_S50000x128_S50000x8x16 : S50000x128.ShapeCasts S50000x8x16
  bcast_S_S800000 : S_.BroadcastsInDim S800000 (![] : Fin 0 → Fin S800000.rank)
  bcast_S800000_S800000x1_0 : S800000.BroadcastsInDim S800000x1 (![0] : Fin 1 → Fin S800000x1.rank)
  reducesTo_S800000x8x16_S800000x8_d2 : S800000x8x16.ReducesTo [2] S800000x8
  h_S_ : 0 < S_.numel
  bcast_S800000x8_S800000x8x1_0_1 : S800000x8.BroadcastsInDim S800000x8x1 (![0, 1] : Fin 2 → Fin S800000x8x1.rank)
  bcast_S_S800000x8x1 : S_.BroadcastsInDim S800000x8x1 (![] : Fin 0 → Fin S800000x8x1.rank)
  bcast_S800000x8x1_S800000x8x16_0_1_2 : S800000x8x1.BroadcastsInDim S800000x8x16 (![0, 1, 2] : Fin 3 → Fin S800000x8x16.rank)
  bcast_S_S50000x8x16 : S_.BroadcastsInDim S50000x8x16 (![] : Fin 0 → Fin S50000x8x16.rank)
  bcast_S_S50000x8x1 : S_.BroadcastsInDim S50000x8x1 (![] : Fin 0 → Fin S50000x8x1.rank)
  bcast_S50000x8x1_S50000x8x16_0_1_2 : S50000x8x1.BroadcastsInDim S50000x8x16 (![0, 1, 2] : Fin 3 → Fin S50000x8x16.rank)
  dot_S50000x128_S128x128_S50000x128_1_0_0_1_n_n_wf : DotDims.WF S50000x128 S128x128 S50000x128 [1] [0] [0] [1] [] []
  gather_S50000x8x16_S800000x1_S800000x8x16_12_0_n_n_0_1_1816_wf : GatherDims.WF S50000x8x16 S800000x1 S800000x8x16 [1, 2] [0] [] [0] [] 1 ![1, 8, 16]
  scatter_S50000x8x16_S800000x1_S800000x8x16_12_0_0_1_wf : ScatterDims.WF S50000x8x16 S800000x1 S800000x8x16 [1, 2] [0] [0] 1
  scatter_S50000x8x1_S800000x1_S800000x8x1_12_0_0_1_wf : ScatterDims.WF S50000x8x1 S800000x1 S800000x8x1 [1, 2] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x8x16_S800000x1_S800000x8x16_12_0_n_n_0_1_1816 : GatherDims S50000x8x16 S800000x1 S800000x8x16 where
  offsetDims := [1, 2]
  collapsedSliceDims := [0]
  operandBatchingDims := []
  startIndicesBatchingDims := []
  startIndexMap := [0]
  indexVectorDim := 1
  sliceSizes := ![1, 8, 16]
  wf := gather_S50000x8x16_S800000x1_S800000x8x16_12_0_n_n_0_1_1816_wf
def scatter_S50000x8x16_S800000x1_S800000x8x16_12_0_0_1 : ScatterDims S50000x8x16 S800000x1 S800000x8x16 where
  updateWindowDims := [1, 2]
  insertedWindowDims := [0]
  scatterDimsToOperandDims := [0]
  indexVectorDim := 1
  wf := scatter_S50000x8x16_S800000x1_S800000x8x16_12_0_0_1_wf
def scatter_S50000x8x1_S800000x1_S800000x8x1_12_0_0_1 : ScatterDims S50000x8x1 S800000x1 S800000x8x1 where
  updateWindowDims := [1, 2]
  insertedWindowDims := [0]
  scatterDimsToOperandDims := [0]
  indexVectorDim := 1
  wf := scatter_S50000x8x1_S800000x1_S800000x8x1_12_0_0_1_wf

class Facts : Prop extends Facts₀ where

variable [Facts]
-- ==== Proof.Spec.lean ====
/-
  The attention aggregation both programs compute, stated once over plain coordinates.

  Nodes n < 50000 carry 128 features, read as 8 heads of 16 lanes (lane 16·h + d). Edges e < 800000 carry a
  source word src e and a destination word dst e. With K, Q, V the projected node features (lin), an edge's
  score at head h is exp of the clipped, quartered dot product over the head's 16 lanes of K at the source row
  and Q at the destination row (score); a node's output at (h, d) is the score-weighted sum of V's source rows
  over the edges whose destination word is n, divided by the sum of those scores (out).

  The tiled program computes the same numbers another way: rows taken with a fill value outside the range
  (take), the head sums and the broadcast back done as products with the 0/1 grouping matrix Gm, the quotient
  by 4 as a product with 1/4 (ksc, kwv, kout).
-/
import Idealize.ShloMosaic.PureOps.Ideal
import Idealize.ShloMosaic.Lib.ValueIdx

noncomputable section

open scoped BigOperators

namespace Cert.Spec

open Idealize.ShloMosaic

/-- A node's projected features: h · W + b at (n, j). -/
def lin (h : Fin 50000 → Fin 128 → EReal) (W : Fin 128 → Fin 128 → EReal) (b : Fin 128 → EReal)
    (n : Fin 50000) (j : Fin 128) : EReal :=
  (∑ k : Fin 128, h n k * W k j) + b j

/-- An index word normalised the way array indexing does it: a negative word has the extent added. -/
def wrap (i : BitVec 32) : BitVec 32 := Scalar.select (IntOp.cmpi .slt i 0#32) (IntOp.addi i 50000#32) i

/-- The normalised word names a row. -/
def inRange (i : BitVec 32) : Prop := 0 ≤ (wrap i).toInt ∧ (wrap i).toInt ≤ 49999

instance (i : BitVec 32) : Decidable (inRange i) := by unfold inRange; infer_instance

/-- The row a gather reads for the word: normalised, read signed, clamped into the table. -/
def row (i : BitVec 32) : Fin 50000 := ⟨min (wrap i).toInt.toNat 49999, by omega⟩

/-- Lane d of head h among the 128 features. -/
def lane (h : Fin 8) (d : Fin 16) : Fin 128 := ⟨16 * h.val + d.val, by omega⟩

/-- Clipping into [-5, 5]. -/
def clip (x : EReal) : EReal :=
  min (Ideal.ofBits .f32 0x40A00000#32) (max (Ideal.ofBits .f32 0xC0A00000#32) x)

/-- An edge's score at head h, from the source word s and the destination word t. -/
def score (K Q : Fin 50000 → Fin 128 → EReal) (s t : BitVec 32) (h : Fin 8) : EReal :=
  Ideal.exp (clip (Ideal.div (0 + ∑ d : Fin 16, K (row s) (lane h d) * Q (row t) (lane h d))
    (Ideal.ofBits .f32 0x40800000#32)))

/-- The aggregated output at node n, head h, lane d. -/
def out (K Q V : Fin 50000 → Fin 128 → EReal) (src dst : Fin 800000 → BitVec 32)
    (n : Fin 50000) (h : Fin 8) (d : Fin 16) : EReal :=
  Ideal.div
    (0 + ∑ e : Fin 800000, if (dst e).toInt = (n.val : Int) then score K Q (src e) (dst e) h * V (row (src e)) (lane h d) else 0)
    (0 + ∑ e : Fin 800000, if (dst e).toInt = (n.val : Int) then score K Q (src e) (dst e) h else 0)

/-! ## The tiled program's arrangement -/

/-- The grouping matrix: feature j belongs to head j / 16. -/
def Gm (j : Fin 128) (h : Fin 8) : EReal := if j.val / 16 = h.val then 1 else 0

/-- A row taken with a fill: the table's row where the word is a valid index, the bottom element elsewhere. -/
def take (X : Fin 50000 → Fin 128 → EReal) (i : BitVec 32) (j : Fin 128) : EReal :=
  if inRange i then X (row i) j else ⊥

/-- The tiled score: the 128 products summed against the grouping matrix, times 1/4, clipped, exponentiated. -/
def ksc (Ke Qe : Fin 800000 → Fin 128 → EReal) (e : Fin 800000) (h : Fin 8) : EReal :=
  Ideal.exp (clip ((∑ j : Fin 128, (Ke e j * Qe e j) * Gm j h) * Ideal.ofBits .f32 0x3E800000#32))

/-- The tiled weighted value: the scores spread back over the lanes by the transposed grouping matrix. -/
def kwv (Ke Qe Ve : Fin 800000 → Fin 128 → EReal) (e : Fin 800000) (j : Fin 128) : EReal :=
  (∑ h : Fin 8, ksc Ke Qe e h * Gm j h) * Ve e j

/-- The tiled output: both scatter sums over flat rows, then the quotient. -/
def kout (Ke Qe Ve : Fin 800000 → Fin 128 → EReal) (dst : Fin 800000 → BitVec 32)
    (n : Fin 50000) (h : Fin 8) (d : Fin 16) : EReal :=
  Ideal.div
    (0 + ∑ e : Fin 800000, if (dst e).toInt = (n.val : Int) then kwv Ke Qe Ve e (lane h d) else 0)
    (0 + ∑ e : Fin 800000, if (dst e).toInt = (n.val : Int) then ksc Ke Qe e h else 0)

end Cert.Spec

end
-- ==== Proof.Reg0.lean ====
/-
  The first projection kernel, read as values: after its ten grid points the output array holds, at row n and
  column j, the sum over k of the row-block's entry (n, k) times the weight's entry (k, j), plus the bias's entry
  (0, j) — whatever the arrays held when the region was entered.
-/
import proofs.«420706_j65360812310777_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg0

open Cert.KernelIdeal Cert.KernelIdeal.Gen
open Idealize.ShloMosaic Idealize.ShloMosaic.TcCoe Idealize.ShloMosaic.ValueIdx
open Idealize.ShloMosaic.Pipeline (Dat Cfg Window)

/-! ## The projection as one function of the three arrays -/

/-- The zero offsets of a whole-buffer access, as the constant function. -/
theorem zero_offsets : (![0, 0] : Fin 2 → Nat) = fun _ => 0 := funext fun a => by fin_cases a <;> rfl

/-- Row n of x against column j of w, plus the bias at column j. -/
def projAt (x : FVec Ideal S50000x128 .f32) (w : FVec Ideal S128x128 .f32) (b : FVec Ideal S1x128 .f32)
    (n : Fin 50000) (j : Fin 128) : Ideal .f32 :=
  (∑ k : Fin 128, x (ix2 n k) * w (ix2 k j)) + b (ix2 0 j)

/-- The whole projected array, index by index. -/
def proj (x : FVec Ideal S50000x128 .f32) (w : FVec Ideal S128x128 .f32) (b : FVec Ideal S1x128 .f32) :
    FVec Ideal S50000x128 .f32 :=
  fun i => projAt x w b ⟨(i 0).val, (i 0).isLt⟩ ⟨(i 1).val, (i 1).isLt⟩

/-! ## One block's arithmetic at an index -/

/-- The contraction's left operand is read at the output's row … -/
theorem lhs_row (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and the contracted column; -/
theorem lhs_col (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contracted row … -/
theorem rhs_row (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and the output's column. -/
theorem rhs_col (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The block product into the zero accumulator, at (p, q): row p of the left block against column q of the right. -/
theorem matmul_block_apply (x0 : FVec Ideal S5000x128 .f32) (x1 : FVec Ideal S128x128 .f32) (p : Fin 5000) (q : Fin 128) :
    matmul dot_S5000x128_S128x128_S5000x128_1_0_0_1_n_n none x0 x1 (constant (F := Ideal) S5000x128 .f32 0x00000000#32) (ix2 p q)
      = ∑ k : Fin 128, x0 (ix2 p k) * x1 (ix2 k q) := by
  show FloatOps.matmul dot_S5000x128_S128x128_S5000x128_1_0_0_1_n_n none x0 x1 (constant (F := Ideal) S5000x128 .f32 0x00000000#32) (ix2 p q) = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The bias row spread over the block's rows, at (p, q), is the bias at column q. -/
theorem bias_block_apply (x2 : FVec Ideal S1x128 .f32) (p : Fin 5000) (q : Fin 128) :
    broadcastTo S5000x128 (shapeCast S1x128 x2 shapeCasts_S1x128_S1x128) broadcasts_S1x128_S5000x128 (ix2 p q) = x2 (ix2 0 q) := by
  rw [shapeCast_self]
  exact broadcastTo_apply x2 broadcasts_S1x128_S5000x128 (ix2 p q) (ix2 0 q) (fun a => match a with
    | ⟨0, _⟩ => by show (0 : Nat) = if (1 : Nat) = 1 then 0 else _; rw [if_pos rfl]
    | ⟨1, _⟩ => by show q.val = if (128 : Nat) = 1 then 0 else q.val; rw [if_neg (by decide)])

/-- What the body stores, at (p, q) of its block. -/
theorem payload_apply (x0 : FVec Ideal S5000x128 .f32) (x1 : FVec Ideal S128x128 .f32) (x2 : FVec Ideal S1x128 .f32)
    (p : Fin 5000) (q : Fin 128) :
    k0_pay1 (F := Ideal) x0 x1 x2 (ix2 p q) = (∑ k : Fin 128, x0 (ix2 p k) * x1 (ix2 k q)) + x2 (ix2 0 q) := by
  unfold k0_pay1
  rw [addf_apply, matmul_block_apply, bias_block_apply]

/-! ## The region's blocks, read off the entry arrays -/

variable (V : (c : Dev nD) → (b : Ref sig .tc) → Buf (Elt Ideal) ((c : Thread nD τ).loc b))

/-- The row array the region is entered with. -/
abbrev xarr (c : Dev nD) : FVec Ideal S50000x128 .f32 := V c main_arg1
/-- The weight. -/
abbrev warr (c : Dev nD) : FVec Ideal S128x128 .f32 := V c main_arg4
/-- The bias, as one row. -/
abbrev barr (c : Dev nD) : FVec Ideal S1x128 .f32 := V c main_v2
/-- The output array after the region. -/
abbrev oarr (c : Dev nD) : FVec Ideal S50000x128 .f32 := (dat0 (F := Ideal) V c).arrAt 3 cfg0.N

/-- The windows' block indices over the grid: the rows' and the output's block is the point's own, in the one
    column of blocks; the weight's and the bias's block is the first at every point. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row block t of the row array, at (p, k), is the array at row 5000 t + p. -/
theorem rows_block_apply (c : Dev nD) (t : Fin cfg0.N) (p : Fin 5000) (k : Fin 128) (n : Fin 50000)
    (hn : n.val = t.val * 5000 + p.val) :
    iblk0 (F := Ideal) V c 0 t (ix2 p k) = xarr V c (ix2 n k) := by
  obtain ⟨e0, e1, -⟩ := block_indices t
  unfold iblk0
  rw [View.read_apply]
  show V c main_arg1 (((cfg0.win 0).blk t).view.emb (ix2 p k)) = V c main_arg1 (ix2 n k)
  have h : ((cfg0.win 0).blk t).view.emb (ix2 p k) = ix2 n k := by
    funext a; apply Fin.ext
    match a with
    | ⟨0, _⟩ => show win0_0.index t (0 : Fin 2) * 5000 + 1 * p.val = n.val; omega
    | ⟨1, _⟩ => show win0_0.index t (1 : Fin 2) * 128 + 1 * k.val = k.val; omega
  rw [h]

/-- The weight's block at every point is the weight. -/
theorem weight_block_apply (c : Dev nD) (t : Fin cfg0.N) (k q j : Fin 128) (hj : j.val = q.val) :
    iblk0 (F := Ideal) V c 1 t (ix2 k q) = warr V c (ix2 k j) := by
  obtain ⟨-, -, e2, e3, -⟩ := block_indices t
  unfold iblk0
  rw [View.read_apply]
  show V c main_arg4 (((cfg0.win 1).blk t).view.emb (ix2 k q)) = V c main_arg4 (ix2 k j)
  have h : ((cfg0.win 1).blk t).view.emb (ix2 k q) = ix2 k j := by
    funext a; apply Fin.ext
    match a with
    | ⟨0, _⟩ => show win0_1.index t (0 : Fin 2) * 128 + 1 * k.val = k.val; omega
    | ⟨1, _⟩ => show win0_1.index t (1 : Fin 2) * 128 + 1 * q.val = j.val; omega
  rw [h]

/-- The bias's block at every point is the bias row. -/
theorem bias_row_apply (c : Dev nD) (t : Fin cfg0.N) (q j : Fin 128) (hj : j.val = q.val) :
    iblk0 (F := Ideal) V c 2 t (ix2 0 q) = barr V c (ix2 0 j) := by
  obtain ⟨-, -, -, -, e4, e5, -⟩ := block_indices t
  unfold iblk0
  rw [View.read_apply]
  show V c main_v2 (((cfg0.win 2).blk t).view.emb (ix2 0 q)) = V c main_v2 (ix2 0 j)
  have h : ((cfg0.win 2).blk t).view.emb (ix2 (0 : Fin 1) q) = ix2 (0 : Fin 1) j := by
    funext a; apply Fin.ext
    match a with
    | ⟨0, _⟩ => show win0_2.index t (0 : Fin 2) * 1 + 1 * 0 = 0; omega
    | ⟨1, _⟩ => show win0_2.index t (1 : Fin 2) * 128 + 1 * q.val = j.val; omega
  rw [h]

/-! ## What each point writes back, and the array after the region -/

/-- Point t writes back block t of the projection of the entry arrays. -/
theorem flushed_eq (c : Dev nD) (t : Fin cfg0.N) :
    (dat0 (F := Ideal) V c).flushed 3 t
      = ((cfg0.win 3).blk t).view.read (Elt Ideal) (proj (xarr V c) (warr V c) (barr V c)) := by
  show (cfg0.win 3).cut (grid0.coords t) ((dat0 (F := Ideal) V c).after 3 t) = _
  rw [after0_3]
  unfold out0_3
  rw [View.canon_unit_zero zero_offsets]
  simp only [View.ld_unit_zero (S := S5000x128) zero_offsets, View.ld_unit_zero (S := S128x128) zero_offsets,
    View.ld_unit_zero (S := S1x128) zero_offsets]
  obtain ⟨-, -, -, -, -, -, e6, e7⟩ := block_indices t
  funext y
  have hp : (y 0).val < 5000 := (y 0).isLt
  have hq : (y 1).val < 128 := (y 1).isLt
  have hy : (cfg0.win 3).xinj (grid0.coords t) y = ix2 (⟨(y 0).val, hp⟩ : Fin 5000) (⟨(y 1).val, hq⟩ : Fin 128) :=
    funext fun a => match a with | ⟨0, _⟩ => rfl | ⟨1, _⟩ => rfl
  show k0_pay1 (F := Ideal) (iblk0 V c 0 t) (iblk0 V c 1 t) (iblk0 V c 2 t) ((cfg0.win 3).xinj (grid0.coords t) y)
    = proj (xarr V c) (warr V c) (barr V c) (((cfg0.win 3).blk t).view.emb y)
  rw [hy]
  refine (payload_apply (iblk0 V c 0 t) (iblk0 V c 1 t) (iblk0 V c 2 t) ⟨(y 0).val, hp⟩ ⟨(y 1).val, hq⟩).trans ?_
  have hn : ((((cfg0.win 3).blk t).view.emb y) 0).val = t.val * 5000 + (y 0).val := by
    show win0_3.index t (0 : Fin 2) * 5000 + 1 * (y 0).val = _; omega
  have hj : ((((cfg0.win 3).blk t).view.emb y) 1).val = (y 1).val := by
    show win0_3.index t (1 : Fin 2) * 128 + 1 * (y 1).val = _; omega
  unfold proj projAt
  exact congrArg₂ (· + ·)
    (Finset.sum_congr rfl fun k _ => congrArg₂ (· * ·) (rows_block_apply V c t _ k _ hn) (weight_block_apply V c t k _ _ hj))
    (bias_row_apply V c t _ _ hj)

/-- An index of the output array is in point t's block iff each coordinate is in the block's range on its axis. -/
theorem mem_out_block (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v3).slice (win0_3.rect t)).set ↔ _
  rw [View.set_slice_whole, Rect.mem_set_unit]
  exact Iff.rfl

/-- Row r of the output is in the block of point r / 5000, and every point writes back. -/
theorem covered (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : grid0.N = 10 := N_0
  obtain ⟨t, ht⟩ : ∃ t : Fin cfg0.N, t.val = (i 0).val / 5000 :=
    ⟨⟨(i 0).val / 5000, by show _ < grid0.N; rw [hN]; omega⟩, rfl⟩
  obtain ⟨-, -, -, -, -, -, e6, e7⟩ := block_indices t
  refine ⟨t, flush0_3 t, ?_⟩
  rw [mem_out_block]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The output array after the region is the projection of the entry arrays. -/
theorem oarr_eq (c : Dev nD) : oarr V c = proj (xarr V c) (warr V c) (barr V c) :=
  (dat0 (F := Ideal) V c).arrAt_eq_of_cover 3 (proj (xarr V c) (warr V c) (barr V c)) (fun t _ => flushed_eq V c t) covered

/-- The output array of the first projection after the region, at (n, j). -/
theorem final (c : Dev nD) (n : Fin 50000) (j : Fin 128) :
    oarr V c (ix2 n j) = (∑ k : Fin 128, xarr V c (ix2 n k) * warr V c (ix2 k j)) + barr V c (ix2 0 j) := by
  rw [oarr_eq]
  rfl

end Cert.KernelIdeal.Reg0

end
-- ==== Proof.Reg1.lean ====
/-
  The second projection kernel (keys and values side by side, 256 columns), read as values: after its ten grid
  points the output array holds, at row n and column j, the sum over k of the row-block's entry (n, k) times the
  joined weight's entry (k, j), plus the joined bias's entry (0, j).
-/
import proofs.«420706_j65360812310777_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg1

open Cert.KernelIdeal Cert.KernelIdeal.Gen
open Idealize.ShloMosaic Idealize.ShloMosaic.TcCoe Idealize.ShloMosaic.ValueIdx
open Idealize.ShloMosaic.Pipeline (Dat Cfg Window)

variable (V : (c : Dev nD) → (b : Ref sig .tc) → Buf (Elt Ideal) ((c : Thread nD τ).loc b))

/-- The row array the region is entered with. -/
abbrev xarr (c : Dev nD) : FVec Ideal S50000x128 .f32 := V c main_arg0
/-- The joined weight. -/
abbrev warr (c : Dev nD) : FVec Ideal S128x256 .f32 := V c main_v0
/-- The joined bias, as one row. -/
abbrev barr (c : Dev nD) : FVec Ideal S1x256 .f32 := V c main_v4
/-- The output array after the region. -/
abbrev oarr (c : Dev nD) : FVec Ideal S50000x256 .f32 := (dat1 (F := Ideal) V c).arrAt 3 cfg1.N

/-- Both offsets of a whole-block access are zero. -/
theorem offsets_zero : (![0, 0] : Fin 2 → Nat) = fun _ => 0 := funext fun a => by fin_cases a <;> rfl

/-- The projection of row `n` onto column `j`: the row of `x` against the column of `w`, plus `b`'s entry of that column. -/
def projAt (x : FVec Ideal S50000x128 .f32) (w : FVec Ideal S128x256 .f32) (b : FVec Ideal S1x256 .f32)
    (n : Fin 50000) (j : Fin 256) : Ideal .f32 :=
  (∑ k : Fin 128, x (ix2 n k) * w (ix2 k j)) + b (ix2 0 j)

/-- The whole projected array, index by index. -/
def proj (x : FVec Ideal S50000x128 .f32) (w : FVec Ideal S128x256 .f32) (b : FVec Ideal S1x256 .f32) :
    FVec Ideal S50000x256 .f32 :=
  fun i => projAt x w b (i 0) (i 1)

/-! ## The contraction's operand indices, axis by axis -/

theorem lhs_matmul_0 (i : S5000x256.Idx) (q : dot_S5000x128_S128x256_S5000x256_1_0_0_1_n_n.contr.Idx) :
    (dot_S5000x128_S128x256_S5000x256_1_0_0_1_n_n.lhsIdx i q 0).val = (i 0).val := by
  unfold DotDims.lhsIdx
  rw [dif_neg (show ¬(0 : Fin S5000x128.rank) ∈ dot_S5000x128_S128x256_S5000x256_1_0_0_1_n_n.lhsBatch by decide), dif_pos (show (0 : Fin S5000x128.rank) ∈ dot_S5000x128_S128x256_S5000x256_1_0_0_1_n_n.lhsNonContracting by decide)]
  rfl
theorem lhs_matmul_1 (i : S5000x256.Idx) (q : dot_S5000x128_S128x256_S5000x256_1_0_0_1_n_n.contr.Idx) :
    (dot_S5000x128_S128x256_S5000x256_1_0_0_1_n_n.lhsIdx i q 1).val = (q ⟨0, by decide⟩).val :=
  dot_S5000x128_S128x256_S5000x256_1_0_0_1_n_n.lhsIdx_val_of_single rfl i q
theorem rhs_matmul_0 (i : S5000x256.Idx) (q : dot_S5000x128_S128x256_S5000x256_1_0_0_1_n_n.contr.Idx) :
    (dot_S5000x128_S128x256_S5000x256_1_0_0_1_n_n.rhsIdx i q 0).val = (q ⟨0, by decide⟩).val :=
  dot_S5000x128_S128x256_S5000x256_1_0_0_1_n_n.rhsIdx_val_of_single rfl i q
theorem rhs_matmul_1 (i : S5000x256.Idx) (q : dot_S5000x128_S128x256_S5000x256_1_0_0_1_n_n.contr.Idx) :
    (dot_S5000x128_S128x256_S5000x256_1_0_0_1_n_n.rhsIdx i q 1).val = (i 1).val := by
  unfold DotDims.rhsIdx
  rw [dif_neg (show ¬(1 : Fin S128x256.rank) ∈ dot_S5000x128_S128x256_S5000x256_1_0_0_1_n_n.rhsBatch by decide), dif_pos (show (1 : Fin S128x256.rank) ∈ dot_S5000x128_S128x256_S5000x256_1_0_0_1_n_n.rhsNonContracting by decide)]
  rfl

/-- The block product into the zero accumulator, at (p, q): the sum over the 128 contracted positions. -/
theorem matmul_apply (x0 : FVec Ideal S5000x128 .f32) (x1 : FVec Ideal S128x256 .f32) (p : Fin 5000) (q : Fin 256) :
    matmul dot_S5000x128_S128x256_S5000x256_1_0_0_1_n_n none x0 x1 (constant (F := Ideal) S5000x256 .f32 0x00000000#32) (ix2 p q)
      = ∑ k : Fin 128, x0 (ix2 p k) * x1 (ix2 k q) := by
  show FloatOps.matmul dot_S5000x128_S128x256_S5000x256_1_0_0_1_n_n none x0 x1 (constant (F := Ideal) S5000x256 .f32 0x00000000#32) (ix2 p q) = _
  rw [Ideal.matmul_constant_zero_apply, ← Equiv.sum_comp (ValueIdx.contrEquiv1 dot_S5000x128_S128x256_S5000x256_1_0_0_1_n_n 128 rfl rfl).symm]
  refine Finset.sum_congr rfl fun k _ => ?_
  have hk := ValueIdx.contrEquiv1_symm_val dot_S5000x128_S128x256_S5000x256_1_0_0_1_n_n 128 rfl rfl k
  have el : dot_S5000x128_S128x256_S5000x256_1_0_0_1_n_n.lhsIdx (ix2 p q) ((ValueIdx.contrEquiv1 dot_S5000x128_S128x256_S5000x256_1_0_0_1_n_n 128 rfl rfl).symm k) = ix2 p k := funext fun a => Fin.ext (by
    match a with
    | ⟨0, _⟩ => exact lhs_matmul_0 _ _
    | ⟨1, _⟩ => exact (lhs_matmul_1 _ _).trans hk)
  have er : dot_S5000x128_S128x256_S5000x256_1_0_0_1_n_n.rhsIdx (ix2 p q) ((ValueIdx.contrEquiv1 dot_S5000x128_S128x256_S5000x256_1_0_0_1_n_n 128 rfl rfl).symm k) = ix2 k q := funext fun a => Fin.ext (by
    match a with
    | ⟨0, _⟩ => exact (rhs_matmul_0 _ _).trans hk
    | ⟨1, _⟩ => exact rhs_matmul_1 _ _)
  rw [el, er]

/-- The bias row spread over the block's rows, at (p, q): the row's entry of column q. -/
theorem bias_apply (x2 : FVec Ideal S1x256 .f32) (p : Fin 5000) (q : Fin 256) :
    broadcastTo S5000x256 x2 broadcasts_S1x256_S5000x256 (ix2 p q) = x2 (ix2 0 q) := by
  refine broadcastTo_apply x2 broadcasts_S1x256_S5000x256 (ix2 p q) (ix2 0 q) fun a => ?_
  match a with
  | ⟨0, _⟩ => show (0 : Nat) = if (1 : Nat) = 1 then 0 else p.val; rw [if_pos rfl]
  | ⟨1, _⟩ => show q.val = if (256 : Nat) = 1 then 0 else q.val; rw [if_neg (by decide)]

/-- THE PAYLOAD AT AN INDEX: what the body stores at (p, q) of its block is row p of the row block against column q of
    the weight, plus the bias row's entry of column q. -/
theorem payload_apply (x0 : Vec Ideal S5000x128 .f32) (x1 : Vec Ideal S128x256 .f32) (x2 : Vec Ideal S1x256 .f32)
    (p : Fin 5000) (q : Fin 256) :
    k1_pay1 (F := Ideal) x0 x1 x2 (ix2 p q) = (∑ k : Fin 128, x0 (ix2 p k) * x1 (ix2 k q)) + x2 (ix2 0 q) := by
  unfold k1_pay1
  rw [addf_apply, shapeCast_self, shapeCast_self, matmul_apply, bias_apply]

/-- The payload at any index of the block, by its two coordinates. -/
theorem payload_at (x0 : Vec Ideal S5000x128 .f32) (x1 : Vec Ideal S128x256 .f32) (x2 : Vec Ideal S1x256 .f32)
    (y : S5000x256.Idx) :
    k1_pay1 (F := Ideal) x0 x1 x2 y = (∑ k : Fin 128, x0 (ix2 (y 0) k) * x1 (ix2 k (y 1))) + x2 (ix2 0 (y 1)) := by
  obtain ⟨p, q, rfl⟩ : ∃ (p : Fin 5000) (q : Fin 256), y = ix2 p q := ⟨y 0, y 1, eq_ix2 y⟩
  exact payload_apply x0 x1 x2 p q

/-! ## From the blocks to the array -/

/-- The windows' index maps over the grid: the row block moves with the output's block along the rows, the
    weight and the bias stay at their one block, and the output's block along the rows is the grid point itself. -/
theorem index_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK is block `t` of the projection of the arrays as the region finds them. -/
theorem flushed_eq (c : Dev nD) (t : Fin cfg1.N) :
    (dat1 V c).flushed 3 t = ((cfg1.win 3).blk t).view.read (Elt Ideal) (proj (xarr V c) (warr V c) (barr V c)) := by
  show (cfg1.win 3).cut (grid1.coords t) ((dat1 V c).after 3 t) = _
  rw [after1_3]
  unfold out1_3
  rw [View.canon_unit_zero offsets_zero]
  simp only [View.ld_unit_zero (S := S5000x128) offsets_zero, View.ld_unit_zero (S := S128x256) offsets_zero,
    View.ld_unit_zero (S := S1x256) offsets_zero]
  obtain ⟨e0, e1, e2, e3, e4, e5, e6, e7⟩ := index_facts t
  funext y
  refine (payload_at (iblk1 V c 0 t) (iblk1 V c 1 t) (iblk1 V c 2 t) y).trans ?_
  show _ = projAt (xarr V c) (warr V c) (barr V c) (((cfg1.win 3).blk t).view.emb y 0) (((cfg1.win 3).blk t).view.emb y 1)
  unfold projAt
  have hx : ∀ k : Fin 128, (iblk1 V c 0 t : Vec Ideal S5000x128 .f32) (ix2 (y 0) k)
      = xarr V c (ix2 (((cfg1.win 3).blk t).view.emb y 0) k) := fun k => by
    show V c main_arg0 (((cfg1.win 0).blk t).view.emb (ix2 (y 0) k)) = V c main_arg0 _
    refine congrArg (V c main_arg0) (funext fun a => Fin.ext ?_)
    match a with
    | ⟨0, _⟩ => show win1_0.index t (0 : Fin 2) * 5000 + 1 * (y 0).val = win1_3.index t (0 : Fin 2) * 5000 + 1 * (y 0).val; omega
    | ⟨1, _⟩ => show win1_0.index t (1 : Fin 2) * 128 + 1 * k.val = k.val; omega
  have hw : ∀ k : Fin 128, (iblk1 V c 1 t : Vec Ideal S128x256 .f32) (ix2 k (y 1))
      = warr V c (ix2 k (((cfg1.win 3).blk t).view.emb y 1)) := fun k => by
    show V c main_v0 (((cfg1.win 1).blk t).view.emb (ix2 k (y 1))) = V c main_v0 _
    refine congrArg (V c main_v0) (funext fun a => Fin.ext ?_)
    match a with
    | ⟨0, _⟩ => show win1_1.index t (0 : Fin 2) * 128 + 1 * k.val = k.val; omega
    | ⟨1, _⟩ => show win1_1.index t (1 : Fin 2) * 256 + 1 * (y 1).val = win1_3.index t (1 : Fin 2) * 256 + 1 * (y 1).val; omega
  have hb : (iblk1 V c 2 t : Vec Ideal S1x256 .f32) (ix2 0 (y 1))
      = barr V c (ix2 0 (((cfg1.win 3).blk t).view.emb y 1)) := by
    show V c main_v4 (((cfg1.win 2).blk t).view.emb (ix2 0 (y 1))) = V c main_v4 _
    refine congrArg (V c main_v4) (funext fun a => Fin.ext ?_)
    match a with
    | ⟨0, _⟩ => show win1_2.index t (0 : Fin 2) * 1 + 1 * 0 = 0; omega
    | ⟨1, _⟩ => show win1_2.index t (1 : Fin 2) * 256 + 1 * (y 1).val = win1_3.index t (1 : Fin 2) * 256 + 1 * (y 1).val; omega
  rw [hb]
  exact congrArg (· + _) (Finset.sum_congr rfl fun k _ => by rw [hx k, hw k])

/-- An index of the array is in point `t`'s block iff each coordinate is in the block's range on its axis. -/
theorem mem_blk (t : Fin cfg1.N) (i : S50000x256.Idx) :
    i ∈ ((cfg1.win 3).blk t).view.set ↔ ∀ a : Fin 2, win1_3.index t a * S5000x256.size a ≤ (i a).val ∧ (i a).val < win1_3.index t a * S5000x256.size a + S5000x256.size a := by
  show i ∈ ((View.whole main_v5).slice (win1_3.rect t)).set ↔ _
  rw [View.set_slice_whole, Rect.mem_set_unit]
  exact Iff.rfl

/-- Every index of the array is in the block of the point its row falls to: row `r` is in block `r / 5000`. -/
theorem cover (i : S50000x256.Idx) :
    ∃ t : Fin cfg1.N, (cfg1.win 3).flush t = true ∧ i ∈ ((cfg1.win 3).blk t).view.set := by
  have hi0 : (i 0).val < 50000 := (i 0).isLt
  have hi1 : (i 1).val < 256 := (i 1).isLt
  have hN : grid1.N = 10 := N_1
  let t : Fin cfg1.N := ⟨(i 0).val / 5000, by show (i 0).val / 5000 < grid1.N; omega⟩
  obtain ⟨e0, e1, e2, e3, e4, e5, e6, e7⟩ := index_facts t
  have ht : t.val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 256 ≤ (i 1).val ∧ (i 1).val < win1_3.index t (1 : Fin 2) * 256 + 256; omega

/-- THE ARRAY after the region: the projection of the entry arrays. -/
theorem final_array (c : Dev nD) : oarr V c = proj (xarr V c) (warr V c) (barr V c) :=
  (dat1 V c).arrAt_eq_of_cover 3 (proj (xarr V c) (warr V c) (barr V c)) (fun t _ => flushed_eq V c t) cover

/-- The output array of the second projection after the region, at (n, j). -/
theorem final (c : Dev nD) (n : Fin 50000) (j : Fin 256) :
    oarr V c (ix2 n j) = (∑ k : Fin 128, xarr V c (ix2 n k) * warr V c (ix2 k j)) + barr V c (ix2 0 j) := by
  rw [final_array]
  rfl

end Cert.KernelIdeal.Reg1

end
-- ==== Proof.GTab.lean ====
/-
  The grouping matrix the program carries as a dense constant: its 1024 words row-major are the float 1 at
  (j, j / 16) and the float 0 elsewhere, so over the extended reals it is Gm.
-/
import proofs.«420706_j65360812310777_1_alg».proof.KernelIdeal
import proofs.«420706_j65360812310777_1_alg».proof.Proof.Spec
import Idealize.ShloMosaic.Lib.ValueIdx
import Idealize.ShloMosaic.Lib.IdealHost
import Idealize.ShloMosaic.PureOps.Ideal.Laws

set_option maxRecDepth 16384

noncomputable section

open scoped BigOperators

namespace Cert.KernelIdeal.GTab

open Cert.KernelIdeal
open Idealize.ShloMosaic Idealize.ShloMosaic.ValueIdx

/-- The 1024 words of the table: entry i sits at row i / 8 and column i % 8, and holds the pattern of the float 1
exactly when the row's group (i / 8) / 16 is the column, the pattern of zero otherwise. A finite check over the
1024 entries. -/
theorem lit0_word : ∀ i : Fin 1024,
    lit0 i = if (i.val / 8) / 16 = i.val % 8 then 0x3F800000#32 else 0x00000000#32 := by
  decide +kernel

/-- The constant table read at (j, h) over the extended reals. -/
theorem table_apply (j : Fin 128) (h : Fin 8) :
    (FloatOps.ofBits (F := Ideal) .f32 (lit0 (S128x8.rowMajor (ix2 j h))) : EReal) = Spec.Gm j h := by
  -- the row-major position of (j, h) in a 128 × 8 array is 8 · j + h
  have hi : S128x8.rowMajor (ix2 j h) = (⟨8 * j.val + h.val, by omega⟩ : Fin 1024) := by
    apply Fin.ext
    rw [Shape.rowMajor_val_two]
    show j.val * 8 + h.val = 8 * j.val + h.val
    omega
  -- its row is j and its column is h
  have h1 : (8 * j.val + h.val) / 8 / 16 = j.val / 16 := by omega
  have h2 : (8 * j.val + h.val) % 8 = h.val := by omega
  rw [Ideal.ofBits_def, hi, lit0_word]
  simp only [h1, h2]
  unfold Spec.Gm
  -- the two patterns are the extended reals 1 and 0
  split_ifs
  · exact Ideal.ofBits_one_f32
  · exact Ideal.ofBits_zero_f32

end Cert.KernelIdeal.GTab

end
-- ==== Proof.KHostA.lean ====
/-
  The host side of the tiled program up to the three projections. Between the regions the host joins the key and
  value weights side by side (and their biases end to end), reshapes the biases to one row, and afterwards slices the
  joined projection back into keys (columns 0–127) and values (columns 128–255). Read through the two projection
  regions, the three arrays the gathers read hold, at (n, j), the projections lin of the argument arrays: queries
  from h_dst, Qw, Qb; keys from h_src, Kw, Kb; values from h_src, Vw, Vb. The grouping matrix is the constant Gm, and
  the index arguments are untouched.
-/
import proofs.«420706_j65360812310777_1_alg».proof.Proof.Gen.KernelIdeal.Frame
import proofs.«420706_j65360812310777_1_alg».proof.Proof.Spec
import proofs.«420706_j65360812310777_1_alg».proof.Proof.Reg0
import proofs.«420706_j65360812310777_1_alg».proof.Proof.Reg1
import proofs.«420706_j65360812310777_1_alg».proof.Proof.GTab
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.KHost

open Cert.KernelIdeal Cert.KernelIdeal.Gen
open Idealize.ShloMosaic Idealize.ShloMosaic.TcCoe Idealize.ShloMosaic.ValueIdx Idealize.ShloMosaic.StableHlo

variable (m : (ℓ : Loc nD τ sig) → Buf (Elt Ideal) ℓ) (ρ : Dev nD → PrngReg)

/-! ## The argument arrays, at their literal types -/

abbrev a0 (c : Dev nD) : FVec Ideal S50000x128 .f32 := m ((c : Thread nD τ).loc main_arg0)
abbrev a1 (c : Dev nD) : FVec Ideal S50000x128 .f32 := m ((c : Thread nD τ).loc main_arg1)
abbrev a2 (c : Dev nD) : IVec S800000 32 := m ((c : Thread nD τ).loc main_arg2)
abbrev a3 (c : Dev nD) : IVec S800000 32 := m ((c : Thread nD τ).loc main_arg3)
abbrev a4 (c : Dev nD) : FVec Ideal S128x128 .f32 := m ((c : Thread nD τ).loc main_arg4)
abbrev a5 (c : Dev nD) : FVec Ideal S128 .f32 := m ((c : Thread nD τ).loc main_arg5)
abbrev a6 (c : Dev nD) : FVec Ideal S128x128 .f32 := m ((c : Thread nD τ).loc main_arg6)
abbrev a7 (c : Dev nD) : FVec Ideal S128 .f32 := m ((c : Thread nD τ).loc main_arg7)
abbrev a8 (c : Dev nD) : FVec Ideal S128x128 .f32 := m ((c : Thread nD τ).loc main_arg8)
abbrev a9 (c : Dev nD) : FVec Ideal S128 .f32 := m ((c : Thread nD τ).loc main_arg9)

/-- The projected keys, queries and values of the argument arrays. -/
def Kp (c : Dev nD) : Fin 50000 → Fin 128 → EReal :=
  Spec.lin (fun n k => a0 m c (ix2 n k)) (fun k j => a6 m c (ix2 k j)) (fun j => a7 m c (ix1 j))
def Qp (c : Dev nD) : Fin 50000 → Fin 128 → EReal :=
  Spec.lin (fun n k => a1 m c (ix2 n k)) (fun k j => a4 m c (ix2 k j)) (fun j => a5 m c (ix1 j))
def Vp (c : Dev nD) : Fin 50000 → Fin 128 → EReal :=
  Spec.lin (fun n k => a0 m c (ix2 n k)) (fun k j => a8 m c (ix2 k j)) (fun j => a9 m c (ix1 j))

/-! ## Before the first region -/

theorem W1_arg (c : Dev nD) :
    W1 m ρ c (Proc.devRef .tc main_arg0) = a0 m c ∧ W1 m ρ c (Proc.devRef .tc main_arg1) = a1 m c
    ∧ W1 m ρ c (Proc.devRef .tc main_arg2) = a2 m c ∧ W1 m ρ c (Proc.devRef .tc main_arg3) = a3 m c
    ∧ W1 m ρ c (Proc.devRef .tc main_arg4) = a4 m c := by
  refine ⟨?_, ?_, ?_, ?_, ?_⟩ <;> (dsimp only [W1, hostOps0]; after_results)

theorem W1_v2 (c : Dev nD) : W1 m ρ c (Proc.devRef .tc main_v2) = shapeCast S1x128 (a5 m c) shapeCasts_S128_S1x128 := by
  dsimp only [W1, hostOps0]; after_results; all_goals rfl

theorem W1_v0 (c : Dev nD) : W1 m ρ c (Proc.devRef .tc main_v0)
    = concatenate S128x256 1 [⟨S128x128, a6 m c⟩, ⟨S128x128, a8 m c⟩] concatenates_S128x128_S128x128_S128x256_d1 := by
  dsimp only [W1, hostOps0]; after_results; all_goals rfl

theorem W1_v1 (c : Dev nD) : W1 m ρ c (Proc.devRef .tc main_v1)
    = concatenate S256 0 [⟨S128, a7 m c⟩, ⟨S128, a9 m c⟩] concatenates_S128_S128_S256_d0 := by
  dsimp only [W1, hostOps0]; after_results; all_goals rfl

theorem W1_cst (c : Dev nD) : W1 m ρ c (Proc.devRef .tc main_cst)
    = (fun i => (FloatOps.ofBits (F := Ideal) .f32 (lit0 (S128x8.rowMajor i)) : EReal) : S128x8.Idx → EReal) := by
  dsimp only [W1, hostOps0]; after_results; all_goals rfl

/-! ## The first region: the queries -/

/-- The query array after the first region, at its literal type. -/
abbrev qW2 (c : Dev nD) : FVec Ideal S50000x128 .f32 := W2 m ρ c (Proc.devRef .tc main_v3)

theorem one_row_apply (x : FVec Ideal S128 .f32) (j : Fin 128) :
    shapeCast S1x128 x shapeCasts_S128_S1x128 (ix2 (0 : Fin 1) j) = x (ix1 j) :=
  shapeCast_apply x shapeCasts_S128_S1x128 (ix2 (0 : Fin 1) j) (ix1 j) (by
    rw [Shape.rowMajor_val_one, Shape.rowMajor_val_two]; simp)

/-- The queries: the first region's output is the projection of h_dst by Qw and Qb. -/
theorem Q_W2 (c : Dev nD) (n : Fin 50000) (j : Fin 128) : qW2 m ρ c (ix2 n j) = Qp m c n j := by
  refine (congrFun (W2_arr m ρ c 3) (ix2 n j)).trans ?_
  refine (Reg0.final (V1 m ρ) c n j).trans ?_
  unfold Qp Spec.lin
  have e1 : Reg0.xarr (V1 m ρ) c = a1 m c := (W1_arg m ρ c).2.1
  have e4 : Reg0.warr (V1 m ρ) c = a4 m c := (W1_arg m ρ c).2.2.2.2
  have e2 : Reg0.barr (V1 m ρ) c (ix2 0 j) = a5 m c (ix1 j) := by
    show (W1 m ρ c (Proc.devRef .tc main_v2) : FVec Ideal S1x128 .f32) (ix2 0 j) = _
    rw [W1_v2]
    exact one_row_apply (a5 m c) j
  rw [e1, e4, e2]

/-! ## The second region: keys and values side by side -/

theorem W3_arg0 (c : Dev nD) : W3 m ρ c (Proc.devRef .tc main_arg0) = a0 m c := by
  have h : W3 m ρ c (Proc.devRef .tc main_arg0) = W2 m ρ c (Proc.devRef .tc main_arg0) := by
    dsimp only [W3, hostOps1]; after_results
  rw [h, W2_of_ne m ρ c main_arg0 (by decide)]
  exact (W1_arg m ρ c).1

theorem W3_v0 (c : Dev nD) : W3 m ρ c (Proc.devRef .tc main_v0)
    = concatenate S128x256 1 [⟨S128x128, a6 m c⟩, ⟨S128x128, a8 m c⟩] concatenates_S128x128_S128x128_S128x256_d1 := by
  have h : W3 m ρ c (Proc.devRef .tc main_v0) = W2 m ρ c (Proc.devRef .tc main_v0) := by
    dsimp only [W3, hostOps1]; after_results
  rw [h, W2_of_ne m ρ c main_v0 (by decide)]
  exact W1_v0 m ρ c

theorem W3_v4 (c : Dev nD) : W3 m ρ c (Proc.devRef .tc main_v4)
    = shapeCast S1x256 (concatenate S256 0 [⟨S128, a7 m c⟩, ⟨S128, a9 m c⟩] concatenates_S128_S128_S256_d0) shapeCasts_S256_S1x256 := by
  have h : W3 m ρ c (Proc.devRef .tc main_v4) = shapeCast S1x256 (W2 m ρ c (Proc.devRef .tc main_v1)) shapeCasts_S256_S1x256 := by
    dsimp only [W3, hostOps1]; after_results; all_goals rfl
  rw [h, W2_of_ne m ρ c main_v1 (by decide), W1_v1]

/-- The joined projection after the second region, at its literal type. -/
abbrev kvW4 (c : Dev nD) : FVec Ideal S50000x256 .f32 := W4 m ρ c (Proc.devRef .tc main_v5)

/-- The joined weight and the joined bias row. -/
abbrev wkv (c : Dev nD) : FVec Ideal S128x256 .f32 :=
  concatenate S128x256 1 [⟨S128x128, a6 m c⟩, ⟨S128x128, a8 m c⟩] concatenates_S128x128_S128x128_S128x256_d1
abbrev bkv (c : Dev nD) : FVec Ideal S1x256 .f32 :=
  shapeCast S1x256 (concatenate S256 0 [⟨S128, a7 m c⟩, ⟨S128, a9 m c⟩] concatenates_S128_S128_S256_d0) shapeCasts_S256_S1x256

theorem KV_W4 (c : Dev nD) (n : Fin 50000) (j : Fin 256) :
    kvW4 m ρ c (ix2 n j) = (∑ k : Fin 128, a0 m c (ix2 n k) * wkv m c (ix2 k j)) + bkv m c (ix2 0 j) := by
  refine (congrFun (W4_arr m ρ c 3) (ix2 n j)).trans ?_
  refine (Reg1.final (V3 m ρ) c n j).trans ?_
  have e0 : Reg1.xarr (V3 m ρ) c = a0 m c := W3_arg0 m ρ c
  have ew : Reg1.warr (V3 m ρ) c = wkv m c := W3_v0 m ρ c
  have eb : Reg1.barr (V3 m ρ) c = bkv m c := W3_v4 m ρ c
  rw [e0, ew, eb]

/-- The joined weight's left half is the key weight, its right half the value weight; the same for the bias. -/
theorem wkv_left (c : Dev nD) (k : Fin 128) (j : Fin 128) :
    wkv m c (ix2 k ⟨j.val, by omega⟩) = a6 m c (ix2 k j) :=
  concatenate_pair_apply_left (t := S128x256) (1 : Fin 2) (a6 m c) (a8 m c) concatenates_S128x128_S128x128_S128x256_d1
    (ix2 k ⟨j.val, by omega⟩) rfl (ix2 k j) (fun b => by match b with | ⟨0, _⟩ => rfl | ⟨1, _⟩ => rfl)

theorem wkv_right (c : Dev nD) (k : Fin 128) (j : Fin 128) :
    wkv m c (ix2 k ⟨128 + j.val, by omega⟩) = a8 m c (ix2 k j) :=
  concatenate_pair_apply_right (t := S128x256) (1 : Fin 2) (a6 m c) (a8 m c) concatenates_S128x128_S128x128_S128x256_d1
    (ix2 k ⟨128 + j.val, by omega⟩) rfl rfl (ix2 k j)
    (fun b hb => by match b with | ⟨0, _⟩ => rfl | ⟨1, _⟩ => exact absurd rfl hb)
    (by show j.val + 128 = 128 + j.val; omega)

theorem bkv_left (c : Dev nD) (j : Fin 128) : bkv m c (ix2 (0 : Fin 1) ⟨j.val, by omega⟩) = a7 m c (ix1 j) := by
  refine (shapeCast_apply _ shapeCasts_S256_S1x256 (ix2 (0 : Fin 1) ⟨j.val, by omega⟩) (ix1 ⟨j.val, by omega⟩) (by
    rw [Shape.rowMajor_val_one, Shape.rowMajor_val_two]; simp)).trans ?_
  exact concatenate_pair_apply_left (t := S256) (0 : Fin 1) (a7 m c) (a9 m c) concatenates_S128_S128_S256_d0
    (ix1 ⟨j.val, by omega⟩) rfl (ix1 j) (fun b => by match b with | ⟨0, _⟩ => rfl)

theorem bkv_right (c : Dev nD) (j : Fin 128) : bkv m c (ix2 (0 : Fin 1) ⟨128 + j.val, by omega⟩) = a9 m c (ix1 j) := by
  refine (shapeCast_apply _ shapeCasts_S256_S1x256 (ix2 (0 : Fin 1) ⟨128 + j.val, by omega⟩) (ix1 ⟨128 + j.val, by omega⟩) (by
    rw [Shape.rowMajor_val_one, Shape.rowMajor_val_two]; simp)).trans ?_
  exact concatenate_pair_apply_right (t := S256) (0 : Fin 1) (a7 m c) (a9 m c) concatenates_S128_S128_S256_d0
    (ix1 ⟨128 + j.val, by omega⟩) rfl rfl (ix1 j) (fun b hb => by match b with | ⟨0, _⟩ => exact absurd rfl hb)
    (by show j.val + 128 = 128 + j.val; omega)

/-! ## The slices: keys and values -/

theorem W5_v6 (c : Dev nD) : W5 m ρ c (Proc.devRef .tc main_v6)
    = extractStridedSlice S50000x128 ![0, 0] (kvW4 m ρ c) slices_S50000x256_S50000x128_0_0 := by
  dsimp only [W5, hostOps2]; after_results; all_goals rfl

theorem W5_v7 (c : Dev nD) : W5 m ρ c (Proc.devRef .tc main_v7)
    = extractStridedSlice S50000x128 ![0, 128] (kvW4 m ρ c) slices_S50000x256_S50000x128_0_128 := by
  dsimp only [W5, hostOps2]; after_results; all_goals rfl

/-- The key and value arrays after the slices, at their literal types. -/
abbrev kW5 (c : Dev nD) : FVec Ideal S50000x128 .f32 := W5 m ρ c (Proc.devRef .tc main_v6)
abbrev vW5 (c : Dev nD) : FVec Ideal S50000x128 .f32 := W5 m ρ c (Proc.devRef .tc main_v7)

/-- The keys: columns 0–127 of the joined projection are the projection of h_src by Kw and Kb. -/
theorem K_W5 (c : Dev nD) (n : Fin 50000) (j : Fin 128) : kW5 m ρ c (ix2 n j) = Kp m c n j := by
  show (W5 m ρ c (Proc.devRef .tc main_v6) : FVec Ideal S50000x128 .f32) (ix2 n j) = _
  rw [W5_v6]
  refine (extractStridedSlice_apply _ (kvW4 m ρ c) slices_S50000x256_S50000x128_0_0 (ix2 n j) (ix2 n ⟨j.val, by omega⟩) (fun a => by
    match a with
    | ⟨0, _⟩ => show n.val = 0 + n.val; omega
    | ⟨1, _⟩ => show j.val = 0 + j.val; omega)).trans ?_
  rw [KV_W4]
  unfold Kp Spec.lin
  rw [bkv_left]
  congr 1
  exact Finset.sum_congr rfl fun k _ => by rw [wkv_left]

/-- The values: columns 128–255 of the joined projection are the projection of h_src by Vw and Vb. -/
theorem V_W5 (c : Dev nD) (n : Fin 50000) (j : Fin 128) : vW5 m ρ c (ix2 n j) = Vp m c n j := by
  show (W5 m ρ c (Proc.devRef .tc main_v7) : FVec Ideal S50000x128 .f32) (ix2 n j) = _
  rw [W5_v7]
  refine (extractStridedSlice_apply _ (kvW4 m ρ c) slices_S50000x256_S50000x128_0_128 (ix2 n j) (ix2 n ⟨128 + j.val, by omega⟩) (fun a => by
    match a with
    | ⟨0, _⟩ => show n.val = 0 + n.val; omega
    | ⟨1, _⟩ => show 128 + j.val = 128 + j.val; rfl)).trans ?_
  rw [KV_W4]
  unfold Vp Spec.lin
  rw [bkv_right]
  congr 1
  exact Finset.sum_congr rfl fun k _ => by rw [wkv_right]

/-! ## What the later stretches read, carried to the slices' boundary -/

/-- The query array is not written between the first region and the gathers. -/
theorem W5_v3 (c : Dev nD) : W5 m ρ c (Proc.devRef .tc main_v3) = W2 m ρ c (Proc.devRef .tc main_v3) := by
  have h5 : W5 m ρ c (Proc.devRef .tc main_v3) = W4 m ρ c (Proc.devRef .tc main_v3) := by
    dsimp only [W5, hostOps2]; after_results
  have h3 : W3 m ρ c (Proc.devRef .tc main_v3) = W2 m ρ c (Proc.devRef .tc main_v3) := by
    dsimp only [W3, hostOps1]; after_results
  rw [h5, W4_of_ne m ρ c main_v3 (by decide), h3]

theorem W5_cst (c : Dev nD) : W5 m ρ c (Proc.devRef .tc main_cst) = W1 m ρ c (Proc.devRef .tc main_cst) := by
  have h5 : W5 m ρ c (Proc.devRef .tc main_cst) = W4 m ρ c (Proc.devRef .tc main_cst) := by
    dsimp only [W5, hostOps2]; after_results
  have h3 : W3 m ρ c (Proc.devRef .tc main_cst) = W2 m ρ c (Proc.devRef .tc main_cst) := by
    dsimp only [W3, hostOps1]; after_results
  rw [h5, W4_of_ne m ρ c main_cst (by decide), h3, W2_of_ne m ρ c main_cst (by decide)]

theorem W5_arg2 (c : Dev nD) : W5 m ρ c (Proc.devRef .tc main_arg2) = a2 m c := by
  have h5 : W5 m ρ c (Proc.devRef .tc main_arg2) = W4 m ρ c (Proc.devRef .tc main_arg2) := by
    dsimp only [W5, hostOps2]; after_results
  have h3 : W3 m ρ c (Proc.devRef .tc main_arg2) = W2 m ρ c (Proc.devRef .tc main_arg2) := by
    dsimp only [W3, hostOps1]; after_results
  rw [h5, W4_of_ne m ρ c main_arg2 (by decide), h3, W2_of_ne m ρ c main_arg2 (by decide)]
  exact (W1_arg m ρ c).2.2.1

theorem W5_arg3 (c : Dev nD) : W5 m ρ c (Proc.devRef .tc main_arg3) = a3 m c := by
  have h5 : W5 m ρ c (Proc.devRef .tc main_arg3) = W4 m ρ c (Proc.devRef .tc main_arg3) := by
    dsimp only [W5, hostOps2]; after_results
  have h3 : W3 m ρ c (Proc.devRef .tc main_arg3) = W2 m ρ c (Proc.devRef .tc main_arg3) := by
    dsimp only [W3, hostOps1]; after_results
  rw [h5, W4_of_ne m ρ c main_arg3 (by decide), h3, W2_of_ne m ρ c main_arg3 (by decide)]
  exact (W1_arg m ρ c).2.2.2.1

end Cert.KernelIdeal.KHost

end
-- ==== Proof.LibRows.lean ====
/-
  Rows of a matrix taken at an index vector, and rows added into a matrix at an index vector, read at one index.

  Two host operations over an operand of shape [n, c], a column of integer words of shape [e, 1], and an
  array of shape [e, c]:

  • the gather with offset axis 1, collapsed slice axis 0, start index map [0], index vector axis 1 and slice
    sizes [1, c] — what h[src] of a matrix h at an index vector src lowers to. Its element (p, q) is the
    operand's element (k, q), where k is the word idx[p, 0] read as a signed integer and clamped into
    [0, n − 1] (rowGather_apply);

  • the scatter with update window axis 1, inserted window axis 0, scatter-dims-to-operand-dims [0] and index
    vector axis 1, whose body adds — what segment_sum(u, dst, num_segments = n) lowers to (over zeros). The
    update (p, q) lands on the operand's element (r, q) exactly when the word idx[p, 0], read signed and NOT
    clamped, is r (rowScatter_resultIdx); so over the extended reals the result's element (r, q) is the
    operand's plus the sum, over all p, of upd[p, q] where idx[p, 0] = r and of 0 elsewhere
    (rowScatterAdd_apply). An index outside [0, n) names no row: its update is dropped.

  The same scatter for a rank-1 operand [n] and updates [e] (no window axis): segment_sum of a vector
  (rowScatter1_resultIdx, rowScatterAdd1_apply).

  Everything is symbolic in the extents n, e, c and the word width w; no index set is enumerated.
-/
import Idealize.ShloMosaic.PureOps.Ideal
import Idealize.ShloMosaic.Lib.ValueIdx

noncomputable section

open scoped BigOperators

namespace Cert.LibRows

open Idealize.ShloMosaic Idealize.ShloMosaic.ValueIdx

/-! ## Rows taken at an index vector -/

section RowGather
variable {α : Type}

/-- The dimension numbers of "rows of an [n, c] operand at an [e, 1] column of start indices": the result
    [e, c] has one offset axis (1), the operand's axis 0 is collapsed and is the one the start index names,
    the slice is one whole row. Their conditions wf are a parameter, decided on a program's literal shapes. -/
abbrev rowGatherDims (n e c : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

/-- THE ROW GATHER READ AT (p, q): the operand at row idx[p, 0] — read signed and clamped into
    [0, n − 1] — and column q. -/
theorem rowGather_apply {n e c w : Nat} (hn : 0 < n)
    (wf : GatherDims.WF ⟨2, ![n, c]⟩ ⟨2, ![e, 1]⟩ ⟨2, ![e, c]⟩ [1] [0] [] [0] [] 1 ![1, c])
    (x : (⟨2, ![n, c]⟩ : Shape).Idx → α) (idx : IVec ⟨2, ![e, 1]⟩ w) (p : Fin e) (q : Fin c) :
    Host.gather (rowGatherDims n e c wf) x idx (ix2 p q)
      = x (ix2 ⟨min (idx (ix2 p (0 : Fin 1))).toInt.toNat (n - 1), by omega⟩ q) := by
  unfold Host.gather
  congr 1
  funext a
  refine Fin.ext ?_
  match a with
  | ⟨0, _⟩ =>
    -- the row axis: collapsed (no offset), not batching, named by the start index map
    show (rowGatherDims n e c wf).start (ix2 p q) idx 0 + (rowGatherDims n e c wf).batchCoord (ix2 p q) 0
        + (rowGatherDims n e c wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n e c wf).startIndexMap from List.mem_singleton.mpr rfl)]
    have hsi : (rowGatherDims n e c wf).siIdx (ix2 p q) ⟨List.idxOf (0 : Fin 2) (rowGatherDims n e c wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>
    -- the column axis: not named by the start index map (start 0), not batching, the result's offset axis
    show (rowGatherDims n e c wf).start (ix2 p q) idx 1 + (rowGatherDims n e c wf).batchCoord (ix2 p q) 1
        + (rowGatherDims n e c wf).offCoord (ix2 p q) 1 = _
    rw [GatherDims.batchCoord_eq_zero _ _ _ List.not_mem_nil]
    have hst : (rowGatherDims n e c wf).start (ix2 p q) idx 1 = 0 := by
      unfold GatherDims.start
      rw [dif_neg (show (1 : Fin 2) ∉ ([0] : List (Fin 2)) by decide)]
    rw [hst]
    simp only [Nat.add_zero, Nat.zero_add]
    rfl

end RowGather

/-! ## Rows added at an index vector -/

section RowScatter

/-- The dimension numbers of "rows of [e, c] updates added into an [n, c] operand at an [e, 1] column of
    scatter indices": the updates' axis 1 is the window axis (a whole row), the operand's axis 0 is inserted
    and is the one the scatter index names. Their conditions wf are a parameter, decided on a program's
    literal shapes. -/
abbrev rowScatterDims (n e c : Nat)
    (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ where
  updateWindowDims := [1]
  insertedWindowDims := [0]
  scatterDimsToOperandDims := [0]
  indexVectorDim := 1
  wf := wf

/-- An axis is kept by a list of axes exactly when it is not in the list. -/
theorem mem_kept {s : Shape} (axes : List (Fin s.rank)) (a : Fin s.rank) : a ∈ s.kept axes ↔ a ∉ axes := by
  simp [Shape.kept, List.mem_filter, List.mem_finRange]

variable {n e c w : Nat} (wf : ScatterDims.WF ⟨2, ![n, c]⟩ ⟨2, ![e, 1]⟩ ⟨2, ![e, c]⟩ [1] [0] [0] 1)

/-- On the row axis the window of update (p, q) starts at the word idx[p, 0], read signed … -/
theorem rowScatter_start_row (idx : IVec ⟨2, ![e, 1]⟩ w) (p : Fin e) (q : Fin c) :
    (rowScatterDims n e c wf).start (ix2 p q) idx 0 = (idx (ix2 p (0 : Fin 1))).toInt := by
  unfold ScatterDims.start
  rw [dif_pos (show (0 : Fin 2) ∈ ([0] : List (Fin 2)) from List.mem_singleton.mpr rfl)]
  have hsi : (rowScatterDims n e c wf).siIdx (ix2 p q) ⟨List.idxOf (0 : Fin 2) (rowScatterDims n e c wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and on the column axis, which no scatter index names, at 0. -/
theorem rowScatter_start_col (idx : IVec ⟨2, ![e, 1]⟩ w) (p : Fin e) (q : Fin c) :
    (rowScatterDims n e c wf).start (ix2 p q) idx 1 = 0 := by
  unfold ScatterDims.start
  rw [dif_neg (show (1 : Fin 2) ∉ ([0] : List (Fin 2)) by decide)]

/-- The row axis is inserted: no window coordinate. -/
theorem rowScatter_window_row (p : Fin e) (q : Fin c) : (rowScatterDims n e c wf).window (ix2 p q) 0 = 0 := by
  unfold ScatterDims.window
  rw [dif_neg (fun h => (mem_kept (s := ⟨2, ![n, c]⟩) [0] 0).mp h (List.mem_singleton.mpr rfl))]

/-- The column axis carries the update's column. -/
theorem rowScatter_window_col (p : Fin e) (q : Fin c) : (rowScatterDims n e c wf).window (ix2 p q) 1 = q.val := by
  unfold ScatterDims.window
  rw [dif_pos ((mem_kept (s := ⟨2, ![n, c]⟩) [0] 1).mpr (show (1 : Fin 2) ∉ ([0] : List (Fin 2)) by decide))]
  rfl

/-- WHERE UPDATE (p, q) LANDS: on the operand's element (r, q') exactly when the word idx[p, 0], read
    signed, is r, and the columns agree. (An index below 0 or from n on lands nowhere.) -/
theorem rowScatter_resultIdx (idx : IVec ⟨2, ![e, 1]⟩ w) (p : Fin e) (q : Fin c) (r : Fin n) (q' : Fin c) :
    (rowScatterDims n e c wf).resultIdx? (ix2 p q) idx = some (ix2 r q')
      ↔ ((idx (ix2 p (0 : Fin 1))).toInt = (r.val : Int) ∧ q = q') := by
  have h0 := rowScatter_start_row wf idx p q
  have h1 := rowScatter_start_col wf idx p q
  have w0 := rowScatter_window_row wf p q
  have w1 := rowScatter_window_col wf p q
  unfold ScatterDims.resultIdx?
  constructor
  · intro h
    split at h
    · rename_i hb
      have hf := Option.some.inj h
      have e0 := congrArg (fun f => (f 0).val) hf
      have e1 := congrArg (fun f => (f 1).val) hf
      have b0 := (hb 0).1
      simp only [h0, w0, h1, w1] at e0 e1 b0
      change ((idx (ix2 p (0 : Fin 1))).toInt + ((0 : Nat) : Int)).toNat = r.val at e0
      change ((0 : Int) + (q.val : Int)).toNat = q'.val at e1
      refine ⟨by omega, Fin.ext (by omega)⟩
    · exact absurd h (by simp)
  · rintro ⟨hr, rfl⟩
    have hb : ∀ a, 0 ≤ (rowScatterDims n e c wf).start (ix2 p q) idx a + ((rowScatterDims n e c wf).window (ix2 p q) a : Int)
        ∧ (rowScatterDims n e c wf).start (ix2 p q) idx a + ((rowScatterDims n e c wf).window (ix2 p q) a : Int)
          < ((⟨2, ![n, c]⟩ : Shape).size a : Int) := by
      intro a
      match a with
      | ⟨0, _⟩ =>
        show 0 ≤ (rowScatterDims n e c wf).start (ix2 p q) idx 0 + ((rowScatterDims n e c wf).window (ix2 p q) 0 : Int)
          ∧ (rowScatterDims n e c wf).start (ix2 p q) idx 0 + ((rowScatterDims n e c wf).window (ix2 p q) 0 : Int) < (n : Int)
        rw [h0, w0, hr]
        have := r.isLt
        omega
      | ⟨1, _⟩ =>
        show 0 ≤ (rowScatterDims n e c wf).start (ix2 p q) idx 1 + ((rowScatterDims n e c wf).window (ix2 p q) 1 : Int)
          ∧ (rowScatterDims n e c wf).start (ix2 p q) idx 1 + ((rowScatterDims n e c wf).window (ix2 p q) 1 : Int) < (c : Int)
        rw [h1, w1]
        have := q.isLt
        omega
    rw [dif_pos hb]
    congr 1
    funext a
    refine Fin.ext ?_
    match a with
    | ⟨0, _⟩ =>
      show ((rowScatterDims n e c wf).start (ix2 p q) idx 0 + ((rowScatterDims n e c wf).window (ix2 p q) 0 : Int)).toNat = r.val
      rw [h0, w0, hr]; omega
    | ⟨1, _⟩ =>
      show ((rowScatterDims n e c wf).start (ix2 p q) idx 1 + ((rowScatterDims n e c wf).window (ix2 p q) 1 : Int)).toNat = q.val
      rw [h1, w1]; omega

/-- THE ROW SCATTER-ADD READ AT (r, q), over the extended reals: the operand's element plus the sum over all
    update rows p of upd[p, q] where idx[p, 0] = r (read signed), of 0 elsewhere. -/
theorem rowScatterAdd_apply (x : (⟨2, ![n, c]⟩ : Shape).Idx → EReal) (idx : IVec ⟨2, ![e, 1]⟩ w)
    (upd : (⟨2, ![e, c]⟩ : Shape).Idx → EReal) (r : Fin n) (q : Fin c) :
    Host.scatterAdd (F := Ideal) (φ := .f32) (rowScatterDims n e c wf) x idx upd (ix2 r q)
      = x (ix2 r q) + ∑ p : Fin e, if (idx (ix2 p (0 : Fin 1))).toInt = (r.val : Int) then upd (ix2 p q) else 0 := by
  show x (ix2 r q) + ∑ j ∈ Finset.univ.filter (fun j => (rowScatterDims n e c wf).resultIdx? j idx = some (ix2 r q)), upd j = _
  congr 1
  rw [Finset.sum_filter, sum_idx2]
  refine Finset.sum_congr rfl fun p _ => ?_
  simp only [rowScatter_resultIdx]
  by_cases hp : (idx (ix2 p (0 : Fin 1))).toInt = (r.val : Int)
  · simp only [hp, true_and]
    rw [Finset.sum_ite_eq' Finset.univ q (fun b => upd (ix2 p b))]
    simp
  · simp only [hp, false_and, if_false, Finset.sum_const_zero]

end RowScatter

/-! ## Entries added into a vector at an index vector -/

section VecScatter

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of "entries of [e] updates added into an [n] operand at an [e, 1] column of scatter
    indices": the updates have no window axis, the operand's one axis is inserted and is the one the scatter
    index names. Their conditions wf are a parameter, decided on a program's literal shapes. -/
abbrev rowScatterDims1 (n e : Nat)
    (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

variable {n e w : Nat} (wf : ScatterDims.WF ⟨1, ![n]⟩ ⟨2, ![e, 1]⟩ ⟨1, ![e]⟩ [] [0] [0] 1)

/-- The window of update p starts at the word idx[p, 0], read signed … -/
theorem rowScatter1_start (idx : IVec ⟨2, ![e, 1]⟩ w) (p : Fin e) :
    (rowScatterDims1 n e wf).start (ix1 p) idx 0 = (idx (ix2 p (0 : Fin 1))).toInt := by
  unfold ScatterDims.start
  rw [dif_pos (show (0 : Fin 1) ∈ ([0] : List (Fin 1)) from List.mem_singleton.mpr rfl)]
  have hsi : (rowScatterDims1 n e wf).siIdx (ix1 p) ⟨List.idxOf (0 : Fin 1) (rowScatterDims1 n e wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

/-- … and the operand's one axis is inserted: no window coordinate. -/
theorem rowScatter1_window (p : Fin e) : (rowScatterDims1 n e wf).window (ix1 p) 0 = 0 := by
  unfold ScatterDims.window
  rw [dif_neg (fun h => (mem_kept (s := ⟨1, ![n]⟩) [0] 0).mp h (List.mem_singleton.mpr rfl))]

/-- WHERE UPDATE p LANDS: on the operand's element r exactly when the word idx[p, 0], read signed, is r. -/
theorem rowScatter1_resultIdx (idx : IVec ⟨2, ![e, 1]⟩ w) (p : Fin e) (r : Fin n) :
    (rowScatterDims1 n e wf).resultIdx? (ix1 p) idx = some (ix1 r)
      ↔ (idx (ix2 p (0 : Fin 1))).toInt = (r.val : Int) := by
  have h0 := rowScatter1_start wf idx p
  have w0 := rowScatter1_window wf p
  unfold ScatterDims.resultIdx?
  constructor
  · intro h
    split at h
    · rename_i hb
      have hf := Option.some.inj h
      have e0 := congrArg (fun f => (f 0).val) hf
      have b0 := (hb 0).1
      simp only [h0, w0] at e0 b0
      change ((idx (ix2 p (0 : Fin 1))).toInt + ((0 : Nat) : Int)).toNat = r.val at e0
      omega
    · exact absurd h (by simp)
  · intro hr
    have hb : ∀ a, 0 ≤ (rowScatterDims1 n e wf).start (ix1 p) idx a + ((rowScatterDims1 n e wf).window (ix1 p) a : Int)
        ∧ (rowScatterDims1 n e wf).start (ix1 p) idx a + ((rowScatterDims1 n e wf).window (ix1 p) a : Int)
          < ((⟨1, ![n]⟩ : Shape).size a : Int) := by
      intro a
      match a with
      | ⟨0, _⟩ =>
        show 0 ≤ (rowScatterDims1 n e wf).start (ix1 p) idx 0 + ((rowScatterDims1 n e wf).window (ix1 p) 0 : Int)
          ∧ (rowScatterDims1 n e wf).start (ix1 p) idx 0 + ((rowScatterDims1 n e wf).window (ix1 p) 0 : Int) < (n : Int)
        rw [h0, w0, hr]
        have := r.isLt
        omega
    rw [dif_pos hb]
    congr 1
    funext a
    refine Fin.ext ?_
    match a with
    | ⟨0, _⟩ =>
      show ((rowScatterDims1 n e wf).start (ix1 p) idx 0 + ((rowScatterDims1 n e wf).window (ix1 p) 0 : Int)).toNat = r.val
      rw [h0, w0, hr]; omega

/-- THE VECTOR SCATTER-ADD READ AT r, over the extended reals: the operand's element plus the sum over all
    updates p of upd[p] where idx[p, 0] = r (read signed), of 0 elsewhere. -/
theorem rowScatterAdd1_apply (x : (⟨1, ![n]⟩ : Shape).Idx → EReal) (idx : IVec ⟨2, ![e, 1]⟩ w)
    (upd : (⟨1, ![e]⟩ : Shape).Idx → EReal) (r : Fin n) :
    Host.scatterAdd (F := Ideal) (φ := .f32) (rowScatterDims1 n e wf) x idx upd (ix1 r)
      = x (ix1 r) + ∑ p : Fin e, if (idx (ix2 p (0 : Fin 1))).toInt = (r.val : Int) then upd (ix1 p) else 0 := by
  show x (ix1 r) + ∑ j ∈ Finset.univ.filter (fun j => (rowScatterDims1 n e wf).resultIdx? j idx = some (ix1 r)), upd j = _
  congr 1
  rw [Finset.sum_filter, sum_idx1]
  refine Finset.sum_congr rfl fun p _ => ?_
  simp only [rowScatter1_resultIdx]

end VecScatter

end Cert.LibRows

end
-- ==== Proof.Take.lean ====
/-
  Rows taken at an index vector with a fill: the host stretch that normalises the index words (a negative word
  has 50000 added), tests the normalised word against [0, 49999], gathers the rows (the gather clamps) and puts
  the fill word — a pattern that reads as the bottom element over the extended reals — where the test fails.
  takeFn is that stretch as one function of the table and the index vector; take_apply reads it at (e, j).
-/
import proofs.«420706_j65360812310777_1_alg».proof.KernelIdeal
import proofs.«420706_j65360812310777_1_alg».proof.Proof.Gen.KernelIdeal
import proofs.«420706_j65360812310777_1_alg».proof.Proof.Spec
import proofs.«420706_j65360812310777_1_alg».proof.Proof.LibRows
import Idealize.ShloMosaic.Lib.ValueIdx
import Idealize.ShloMosaic.PureOps.Ideal.Laws
import Idealize.ShloMosaic.Lib.Affine

set_option maxRecDepth 16384

noncomputable section

open scoped BigOperators

namespace Cert.KernelIdeal.Take

open Cert.KernelIdeal Cert.KernelIdeal.Facts₀ Cert.KernelIdeal.Facts
open Idealize.ShloMosaic Idealize.ShloMosaic.ValueIdx

/-! ## The stretch's pieces, each read at an index -/

/-- The fill word is a NaN pattern: over the extended reals it reads as the bottom element. -/
private theorem fill_eq_bot : Ideal.ofBits .f32 0x7FC00000#32 = (⊥ : EReal) := by
  show Ideal.ieee 8 23 (0x7FC00000#32 : BitVec 32) = ⊥
  unfold Ideal.ieee
  simp only []
  rw [if_pos (by decide), if_neg (by decide)]

/-- The normalised index vector at e is the normalised word. -/
private theorem wrapVec_apply (idx : IVec S800000 32) (e : Fin 800000) :
    (select (cmpi .slt idx (broadcastInDim S800000 ![] bcast_S_S800000 (constantI S_ 32 0#32)))
      (addi idx (broadcastInDim S800000 ![] bcast_S_S800000 (constantI S_ 32 50000#32))) idx) (ix1 e)
      = Spec.wrap (idx (ix1 e)) := rfl

/-- A vector made a one-column matrix: entry (e, k) is entry e. -/
private theorem bcastCol_apply {α : Type} (v : S800000.Idx → α) (e : Fin 800000) (k : Fin 1) :
    broadcastInDim S800000x1 ![0] bcast_S800000_S800000x1_0 v (ix2 e k) = v (ix1 e) := by
  unfold broadcastInDim
  congr 1
  funext a
  match a with
  | ⟨0, _⟩ => rfl

/-- A vector spread along 128 columns: entry (e, j) is entry e. -/
private theorem bcastRow_apply {α : Type} (v : S800000.Idx → α) (e : Fin 800000) (j : Fin 128) :
    broadcastInDim S800000x128 ![0] bcast_S800000_S800000x128_0 v (ix2 e j) = v (ix1 e) := by
  unfold broadcastInDim
  congr 1
  funext a
  match a with
  | ⟨0, _⟩ => rfl

/-- A conjunction with 1 is the other word. -/
private theorem andi_one_right (c : BitVec 1) : IntOp.andi c 1#1 = c := by revert c; decide

/-- A fold over an index set of one element is one application of the operation. -/
private theorem fold_univ_one {α : Type} {n : Nat} (hn : n = 1) (op : α → α → α) [Std.Commutative op] [Std.Associative op]
    (b : α) (f : Fin n → α) : (Finset.univ : Finset (Fin n)).fold op b f = op (f ⟨0, by omega⟩) b := by
  subst hn
  rw [Finset.univ_unique, Finset.fold_singleton]
  rfl

/-- The conjunction over the one-element column axis, from 1: entry e is the column's entry (e, 0). -/
private theorem reduceCol_apply (p : IVec S800000x1 1) (e : Fin 800000) :
    Host.reduce IntOp.andi p (constantI S_ 1 1#1) reducesTo_S800000x1_S800000_d1 h_S_ (ix1 e) = p (ix2 e (0 : Fin 1)) := by
  have h : S800000x1.Reduces [1] S800000 := by decide
  rw [Host.reduce_eq_fold_single IntOp.andi p _ reducesTo_S800000x1_S800000_d1 h h_S_ (ix1 e),
    fold_univ_one (n := S800000x1.size 1) rfl]
  show IntOp.andi (p (h.lift (ix1 e) (0 : Fin 1))) 1#1 = _
  rw [andi_one_right]
  congr 1
  funext c
  refine Fin.ext ?_
  match c with
  | ⟨0, _⟩ => rfl
  | ⟨1, _⟩ => rfl

/-- The gather at (e, j): the table at the row the word ind[e, 0] names — read signed, clamped into [0, 49999] — and
    column j. -/
private theorem gatherRow_apply {α : Type} (x : S50000x128.Idx → α) (ind : IVec S800000x1 32) (e : Fin 800000) (j : Fin 128)
    (w : BitVec 32) (hw : ind (ix2 e (0 : Fin 1)) = w) :
    Host.gather gather_S50000x128_S800000x1_S800000x128_1_0_n_n_0_1_1128 x ind (ix2 e j)
      = x (ix2 ⟨min w.toInt.toNat 49999, by omega⟩ j) := by
  subst hw
  exact Cert.LibRows.rowGather_apply (n := 50000) (by decide)
    gather_S50000x128_S800000x1_S800000x128_1_0_n_n_0_1_1128_wf x ind e j

/-- The two comparisons' conjunction is 1 exactly when the normalised word names a row. -/
private theorem test_iff (i : BitVec 32) :
    IntOp.andi (IntOp.cmpi .sge (Spec.wrap i) 0#32) (IntOp.cmpi .sle (Spec.wrap i) 49999#32) = 1#1 ↔ Spec.inRange i := by
  rw [IntOp.andi_eq_one, IntOp.cmpi_sge, IntOp.cmpi_sle]
  unfold Spec.inRange
  rw [show (0#32 : BitVec 32).toInt = 0 from by decide, show (49999#32 : BitVec 32).toInt = 49999 from by decide]

/-- The elementwise conjunction and comparison, read at an index. -/
private theorem andi_apply' {s : Shape} {w : Nat} (a b : IVec s w) (i : s.Idx) : andi a b i = IntOp.andi (a i) (b i) := rfl
private theorem cmpi_apply' {s : Shape} {w : Nat} (p : CmpIPredicate) (a b : IVec s w) (i : s.Idx) : cmpi p a b i = IntOp.cmpi p (a i) (b i) := rfl

/-- The constant columns and the constant fill, read at an index. -/
private theorem zeroCol_apply (i : S800000x1.Idx) :
    broadcastInDim S800000x1 ![] bcast_S_S800000x1 (constantI S_ 32 0#32) i = 0#32 := rfl
private theorem maxCol_apply (i : S800000x1.Idx) :
    broadcastInDim S800000x1 ![0, 1] bcast_S1x1_S800000x1_0_1
      (broadcastInDim S1x1 ![1] bcast_S1_S1x1_1 (constantI S1 32 49999#32)) i = 49999#32 := rfl
private theorem fill_apply (i : S800000x128.Idx) :
    broadcastInDim S800000x128 ![] bcast_S_S800000x128 (constant (F := Ideal) S_ .f32 0x7FC00000#32) i
      = Ideal.ofBits .f32 0x7FC00000#32 := rfl

/-! ## The stretch -/

variable {F : FTy → Type} [FloatOps F]

/-- The stretch's operations composed, as one function of the table x and the index vector idx. -/
def takeFn (x : FVec F S50000x128 .f32) (idx : IVec S800000 32) : FVec F S800000x128 .f32 :=
  select
    (broadcastInDim S800000x128 ![0] bcast_S800000_S800000x128_0
      (Host.reduce IntOp.andi
        (andi
          (cmpi .sge
            (broadcastInDim S800000x1 ![0] bcast_S800000_S800000x1_0
              (select (cmpi .slt idx (broadcastInDim S800000 ![] bcast_S_S800000 (constantI S_ 32 0#32)))
                (addi idx (broadcastInDim S800000 ![] bcast_S_S800000 (constantI S_ 32 50000#32))) idx))
            (broadcastInDim S800000x1 ![] bcast_S_S800000x1 (constantI S_ 32 0#32)))
          (cmpi .sle
            (broadcastInDim S800000x1 ![0] bcast_S800000_S800000x1_0
              (select (cmpi .slt idx (broadcastInDim S800000 ![] bcast_S_S800000 (constantI S_ 32 0#32)))
                (addi idx (broadcastInDim S800000 ![] bcast_S_S800000 (constantI S_ 32 50000#32))) idx))
            (broadcastInDim S800000x1 ![0, 1] bcast_S1x1_S800000x1_0_1
              (broadcastInDim S1x1 ![1] bcast_S1_S1x1_1 (constantI S1 32 49999#32)))))
        (constantI S_ 1 1#1) reducesTo_S800000x1_S800000_d1 h_S_))
    (Host.gather gather_S50000x128_S800000x1_S800000x128_1_0_n_n_0_1_1128 x
      (broadcastInDim S800000x1 ![0] bcast_S800000_S800000x1_0
        (select (cmpi .slt idx (broadcastInDim S800000 ![] bcast_S_S800000 (constantI S_ 32 0#32)))
          (addi idx (broadcastInDim S800000 ![] bcast_S_S800000 (constantI S_ 32 50000#32))) idx)))
    (broadcastInDim S800000x128 ![] bcast_S_S800000x128 (constant S_ .f32 0x7FC00000#32))

/-- THE TAKE READ AT (e, j), over the extended reals: the table's row where the word is a valid index, the bottom
    element elsewhere. -/
theorem take_apply (x : FVec Ideal S50000x128 .f32) (idx : IVec S800000 32) (e : Fin 800000) (j : Fin 128) :
    takeFn (F := Ideal) x idx (ix2 e j) = Spec.take (fun n k => x (ix2 n k)) (idx (ix1 e)) j := by
  unfold takeFn
  beta_reduce
  rw [select_apply, bcastRow_apply, reduceCol_apply,
    gatherRow_apply x _ e j (Spec.wrap (idx (ix1 e))) (by rw [bcastCol_apply, wrapVec_apply]),
    fill_apply, fill_eq_bot, andi_apply', cmpi_apply', cmpi_apply', zeroCol_apply, maxCol_apply, bcastCol_apply,
    wrapVec_apply]
  unfold Spec.take
  by_cases hr : Spec.inRange (idx (ix1 e))
  · rw [(test_iff _).mpr hr, select_one, if_pos hr]; rfl
  · rw [eq_zero_of_ne_one (fun h => hr ((test_iff _).mp h)), select_zero, if_neg hr]

end Cert.KernelIdeal.Take

end
-- ==== Proof.LibTypedRef.lean ====
/-
  Typed references: writing a value through a typed reference and reading it back is the identity.

  A typed reference carries the type of the tensor value its buffer holds together with a proof that the buffer's
  declared type is that type; contents are moved between the two types along that proof. Moving there and back
  along one proof is the identity, whatever the reference.
-/
import Idealize.ShloMosaic.Lib.StableHlo

namespace Idealize.ShloMosaic.StableHlo.TRef

variable {sig : RefSig} {Val : EltTy → Type} {T : BufTy}

/-- Contents written through a typed reference and read back through it are unchanged. -/
theorem ofBuf_toBuf (x : TRef sig T) (v : T.Contents Val) : x.ofBuf (x.toBuf v) = v := by
  obtain ⟨r, h, _, _⟩ := x
  subst h
  rfl

end Idealize.ShloMosaic.StableHlo.TRef
-- ==== Proof.KHostB.lean ====
/-
  The three gathers of the tiled program, read as values. Each is the take stretch of Take.lean applied to one of the
  three projected arrays and one of the two index arguments, so at the edge kernel's entry the gathered key and value
  rows are take of the projected keys and values at the edge's source word, the gathered query rows take of the
  projected queries at its destination word; the grouping matrix still holds Gm and the destination words are the
  argument's.
-/
import proofs.«420706_j65360812310777_1_alg».proof.Proof.KHostA
import proofs.«420706_j65360812310777_1_alg».proof.Proof.Take
import proofs.«420706_j65360812310777_1_alg».proof.Proof.LibTypedRef
import Idealize.ShloMosaic.Lib.StableHlo.Run
import Idealize.ShloMosaic.Lib.ValueIdx

set_option maxRecDepth 16384

noncomputable section

open scoped BigOperators

namespace Cert.KernelIdeal.KHost

open Cert.KernelIdeal Cert.KernelIdeal.Gen
open Idealize.ShloMosaic Idealize.ShloMosaic.TcCoe Idealize.ShloMosaic.ValueIdx Idealize.ShloMosaic.StableHlo

variable (m : (ℓ : Loc nD τ sig) → Buf (Elt Ideal) ℓ) (ρ : Dev nD → PrngReg)

/-- A buffer none of a stretch's operations writes keeps its contents. -/
local macro "host_unwritten" : tactic => `(tactic| (
  refine StableHlo.after_of_forall_not_mem _ _ (List.forall_iff_forall_mem.mp (by
    simp only [hostOps2_1, hostOps2_2, hostOps2_3, List.Forall, StableHlo.nullary_writes, StableHlo.unary_writes,
      StableHlo.binary_writes, StableHlo.ternary_writes, StableHlo.quaternary_writes, StableHlo.reshape_writes,
      StableHlo.binaryIndexed_writes, Finset.mem_singleton]
    repeat' apply And.intro
    all_goals exact StableHlo.devRef_ne_of_ne (by decide)))))

/-! ## The three stretches, each as one take -/

/-- Contents read through a typed reference are the contents. -/
theorem lit_ofBuf {T : BufTy} (x : TRef sig T) (v : x.ref.ty.Contents (Elt Ideal)) (v' : T.Contents (Elt Ideal))
    (hv : HEq v v') : x.ofBuf v = v' :=
  eq_of_heq ((cast_heq _ v).trans hv)

set_option maxHeartbeats 4000000 in
/-- The stretch read through the typed references of its first and last operations. -/
theorem W6_v8_typed (c : Dev nD) :
    (TRef.of (T := ⟨S800000x128, .f32⟩) main_v8).ofBuf (W6 m ρ c (Proc.devRef .tc main_v8))
      = Take.takeFn (F := Ideal) ((TRef.of (T := ⟨S50000x128, .f32⟩) main_v6).ofBuf (W5 m ρ c (Proc.devRef .tc main_v6)))
          ((TRef.of (T := ⟨S800000, .i32⟩) main_arg2).ofBuf (W5 m ρ c (Proc.devRef .tc main_arg2))) := by
  show (TRef.of (T := ⟨S800000x128, .f32⟩) main_v8).ofBuf (StableHlo.after hostOps2_1 (W5 m ρ c) (Proc.devRef .tc main_v8)) = _
  generalize W5 m ρ c = W
  dsimp only [hostOps2_1]; after_results_simp
  simp only [TRef.ofBuf_toBuf]
  unfold Take.takeFn
  with_reducible rfl

theorem W6_v8 (c : Dev nD) : W6 m ρ c (Proc.devRef .tc main_v8)
    = Take.takeFn (F := Ideal) (W5 m ρ c (Proc.devRef .tc main_v6)) (W5 m ρ c (Proc.devRef .tc main_arg2)) :=
  (lit_ofBuf (TRef.of (T := ⟨S800000x128, .f32⟩) main_v8) (W6 m ρ c (Proc.devRef .tc main_v8)) _ HEq.rfl).symm.trans
    ((W6_v8_typed m ρ c).trans (congrArg₂ (Take.takeFn (F := Ideal))
      (lit_ofBuf (TRef.of (T := ⟨S50000x128, .f32⟩) main_v6) (W5 m ρ c (Proc.devRef .tc main_v6)) _ HEq.rfl)
      (lit_ofBuf (TRef.of (T := ⟨S800000, .i32⟩) main_arg2) (W5 m ρ c (Proc.devRef .tc main_arg2)) _ HEq.rfl)))

set_option maxHeartbeats 4000000 in
/-- The stretch read through the typed references of its first and last operations. -/
theorem W7_v9_typed (c : Dev nD) :
    (TRef.of (T := ⟨S800000x128, .f32⟩) main_v9).ofBuf (W7 m ρ c (Proc.devRef .tc main_v9))
      = Take.takeFn (F := Ideal) ((TRef.of (T := ⟨S50000x128, .f32⟩) main_v3).ofBuf (W6 m ρ c (Proc.devRef .tc main_v3)))
          ((TRef.of (T := ⟨S800000, .i32⟩) main_arg3).ofBuf (W6 m ρ c (Proc.devRef .tc main_arg3))) := by
  show (TRef.of (T := ⟨S800000x128, .f32⟩) main_v9).ofBuf (StableHlo.after hostOps2_2 (W6 m ρ c) (Proc.devRef .tc main_v9)) = _
  generalize W6 m ρ c = W
  dsimp only [hostOps2_2]; after_results_simp
  simp only [TRef.ofBuf_toBuf]
  unfold Take.takeFn
  with_reducible rfl

theorem W7_v9 (c : Dev nD) : W7 m ρ c (Proc.devRef .tc main_v9)
    = Take.takeFn (F := Ideal) (W6 m ρ c (Proc.devRef .tc main_v3)) (W6 m ρ c (Proc.devRef .tc main_arg3)) :=
  (lit_ofBuf (TRef.of (T := ⟨S800000x128, .f32⟩) main_v9) (W7 m ρ c (Proc.devRef .tc main_v9)) _ HEq.rfl).symm.trans
    ((W7_v9_typed m ρ c).trans (congrArg₂ (Take.takeFn (F := Ideal))
      (lit_ofBuf (TRef.of (T := ⟨S50000x128, .f32⟩) main_v3) (W6 m ρ c (Proc.devRef .tc main_v3)) _ HEq.rfl)
      (lit_ofBuf (TRef.of (T := ⟨S800000, .i32⟩) main_arg3) (W6 m ρ c (Proc.devRef .tc main_arg3)) _ HEq.rfl)))

set_option maxHeartbeats 4000000 in
/-- The stretch read through the typed references of its first and last operations. -/
theorem W8_v10_typed (c : Dev nD) :
    (TRef.of (T := ⟨S800000x128, .f32⟩) main_v10).ofBuf (W8 m ρ c (Proc.devRef .tc main_v10))
      = Take.takeFn (F := Ideal) ((TRef.of (T := ⟨S50000x128, .f32⟩) main_v7).ofBuf (W7 m ρ c (Proc.devRef .tc main_v7)))
          ((TRef.of (T := ⟨S800000, .i32⟩) main_arg2).ofBuf (W7 m ρ c (Proc.devRef .tc main_arg2))) := by
  show (TRef.of (T := ⟨S800000x128, .f32⟩) main_v10).ofBuf (StableHlo.after hostOps2_3 (W7 m ρ c) (Proc.devRef .tc main_v10)) = _
  generalize W7 m ρ c = W
  dsimp only [hostOps2_3]; after_results_simp
  simp only [TRef.ofBuf_toBuf]
  unfold Take.takeFn
  with_reducible rfl

theorem W8_v10 (c : Dev nD) : W8 m ρ c (Proc.devRef .tc main_v10)
    = Take.takeFn (F := Ideal) (W7 m ρ c (Proc.devRef .tc main_v7)) (W7 m ρ c (Proc.devRef .tc main_arg2)) :=
  (lit_ofBuf (TRef.of (T := ⟨S800000x128, .f32⟩) main_v10) (W8 m ρ c (Proc.devRef .tc main_v10)) _ HEq.rfl).symm.trans
    ((W8_v10_typed m ρ c).trans (congrArg₂ (Take.takeFn (F := Ideal))
      (lit_ofBuf (TRef.of (T := ⟨S50000x128, .f32⟩) main_v7) (W7 m ρ c (Proc.devRef .tc main_v7)) _ HEq.rfl)
      (lit_ofBuf (TRef.of (T := ⟨S800000, .i32⟩) main_arg2) (W7 m ρ c (Proc.devRef .tc main_arg2)) _ HEq.rfl)))

/-! ## Buffers a stretch does not write keep their contents -/

theorem W6_v3 (c : Dev nD) : W6 m ρ c (Proc.devRef .tc main_v3) = W5 m ρ c (Proc.devRef .tc main_v3) := by
  host_unwritten
theorem W6_arg3 (c : Dev nD) : W6 m ρ c (Proc.devRef .tc main_arg3) = W5 m ρ c (Proc.devRef .tc main_arg3) := by
  host_unwritten
theorem W6_arg2 (c : Dev nD) : W6 m ρ c (Proc.devRef .tc main_arg2) = W5 m ρ c (Proc.devRef .tc main_arg2) := by
  host_unwritten
theorem W6_v7 (c : Dev nD) : W6 m ρ c (Proc.devRef .tc main_v7) = W5 m ρ c (Proc.devRef .tc main_v7) := by
  host_unwritten
theorem W6_cst (c : Dev nD) : W6 m ρ c (Proc.devRef .tc main_cst) = W5 m ρ c (Proc.devRef .tc main_cst) := by
  host_unwritten

theorem W7_v8 (c : Dev nD) : W7 m ρ c (Proc.devRef .tc main_v8) = W6 m ρ c (Proc.devRef .tc main_v8) := by
  host_unwritten
theorem W7_arg3 (c : Dev nD) : W7 m ρ c (Proc.devRef .tc main_arg3) = W6 m ρ c (Proc.devRef .tc main_arg3) := by
  host_unwritten
theorem W7_arg2 (c : Dev nD) : W7 m ρ c (Proc.devRef .tc main_arg2) = W6 m ρ c (Proc.devRef .tc main_arg2) := by
  host_unwritten
theorem W7_v7 (c : Dev nD) : W7 m ρ c (Proc.devRef .tc main_v7) = W6 m ρ c (Proc.devRef .tc main_v7) := by
  host_unwritten
theorem W7_cst (c : Dev nD) : W7 m ρ c (Proc.devRef .tc main_cst) = W6 m ρ c (Proc.devRef .tc main_cst) := by
  host_unwritten

theorem W8_v8 (c : Dev nD) : W8 m ρ c (Proc.devRef .tc main_v8) = W7 m ρ c (Proc.devRef .tc main_v8) := by
  host_unwritten
theorem W8_v9 (c : Dev nD) : W8 m ρ c (Proc.devRef .tc main_v9) = W7 m ρ c (Proc.devRef .tc main_v9) := by
  host_unwritten
theorem W8_arg3 (c : Dev nD) : W8 m ρ c (Proc.devRef .tc main_arg3) = W7 m ρ c (Proc.devRef .tc main_arg3) := by
  host_unwritten
theorem W8_cst (c : Dev nD) : W8 m ρ c (Proc.devRef .tc main_cst) = W7 m ρ c (Proc.devRef .tc main_cst) := by
  host_unwritten

/-! ## The edge kernel's entry contents -/

/-- The gathered rows and the grouping matrix at the edge kernel's entry, at their literal types. -/
abbrev keW8 (c : Dev nD) : FVec Ideal S800000x128 .f32 := W8 m ρ c (Proc.devRef .tc main_v8)
abbrev qeW8 (c : Dev nD) : FVec Ideal S800000x128 .f32 := W8 m ρ c (Proc.devRef .tc main_v9)
abbrev veW8 (c : Dev nD) : FVec Ideal S800000x128 .f32 := W8 m ρ c (Proc.devRef .tc main_v10)
abbrev gW8 (c : Dev nD) : FVec Ideal S128x8 .f32 := W8 m ρ c (Proc.devRef .tc main_cst)

theorem Kp_fun (c : Dev nD) : (fun n k => kW5 m ρ c (ix2 n k)) = Kp m c := funext fun n => funext fun k => K_W5 m ρ c n k
theorem Vp_fun (c : Dev nD) : (fun n k => vW5 m ρ c (ix2 n k)) = Vp m c := funext fun n => funext fun k => V_W5 m ρ c n k
theorem Qp_fun (c : Dev nD) : (fun n k => qW2 m ρ c (ix2 n k)) = Qp m c := funext fun n => funext fun k => Q_W2 m ρ c n k

/-- The gathered keys: take of the projected keys at the source word. -/
theorem Ke_W8 (c : Dev nD) (e : Fin 800000) (j : Fin 128) :
    keW8 m ρ c (ix2 e j) = Spec.take (Kp m c) (a2 m c (ix1 e)) j := by
  show (W8 m ρ c (Proc.devRef .tc main_v8) : FVec Ideal S800000x128 .f32) (ix2 e j) = _
  rw [W8_v8, W7_v8, W6_v8, W5_arg2]
  refine (Take.take_apply (kW5 m ρ c) (a2 m c) e j).trans ?_
  rw [Kp_fun]

/-- The gathered queries: take of the projected queries at the destination word. -/
theorem Qe_W8 (c : Dev nD) (e : Fin 800000) (j : Fin 128) :
    qeW8 m ρ c (ix2 e j) = Spec.take (Qp m c) (a3 m c (ix1 e)) j := by
  show (W8 m ρ c (Proc.devRef .tc main_v9) : FVec Ideal S800000x128 .f32) (ix2 e j) = _
  rw [W8_v9, W7_v9, W6_v3, W5_v3, W6_arg3, W5_arg3]
  refine (Take.take_apply (qW2 m ρ c) (a3 m c) e j).trans ?_
  rw [Qp_fun]

/-- The gathered values: take of the projected values at the source word. -/
theorem Ve_W8 (c : Dev nD) (e : Fin 800000) (j : Fin 128) :
    veW8 m ρ c (ix2 e j) = Spec.take (Vp m c) (a2 m c (ix1 e)) j := by
  show (W8 m ρ c (Proc.devRef .tc main_v10) : FVec Ideal S800000x128 .f32) (ix2 e j) = _
  rw [W8_v10, W7_v7, W6_v7, W7_arg2, W6_arg2, W5_arg2]
  refine (Take.take_apply (vW5 m ρ c) (a2 m c) e j).trans ?_
  rw [Vp_fun]

/-- The grouping matrix at the edge kernel's entry is Gm. -/
theorem G_W8 (c : Dev nD) (j : Fin 128) (h : Fin 8) : gW8 m ρ c (ix2 j h) = Spec.Gm j h := by
  show (W8 m ρ c (Proc.devRef .tc main_cst) : FVec Ideal S128x8 .f32) (ix2 j h) = _
  rw [W8_cst, W7_cst, W6_cst, W5_cst, W1_cst]
  exact GTab.table_apply j h

/-- The destination words at the edge kernel's entry are the argument's. -/
theorem W8_dst (c : Dev nD) : W8 m ρ c (Proc.devRef .tc main_arg3) = a3 m c := by
  rw [W8_arg3, W7_arg3, W6_arg3, W5_arg3]

end Cert.KernelIdeal.KHost

end
-- ==== Proof.Reg2.lean ====
/-
  The edge kernel, read as values. Entered with the gathered key, query and value rows and a grouping matrix that
  holds Gm, after its hundred grid points the score array holds ksc and the weighted-value array holds kwv of those
  rows (Spec.lean).
-/
import proofs.«420706_j65360812310777_1_alg».proof.Proof.Gen.KernelIdeal.Frame
import proofs.«420706_j65360812310777_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Reg2

open Cert.KernelIdeal Cert.KernelIdeal.Gen
open Idealize.ShloMosaic Idealize.ShloMosaic.TcCoe Idealize.ShloMosaic.ValueIdx
open Idealize.ShloMosaic.Pipeline (Dat Cfg Window)

/-! ## The body's arithmetic at an index -/

theorem zeros2 : (![0, 0] : Fin 2 → Nat) = fun _ => 0 := funext fun a => by fin_cases a <;> rfl

/-! The head sums: the product of an [8000,128] block with the [128,8] grouping matrix. -/

theorem lhs_heads_0 (i : S8000x8.Idx) (q : dot_S8000x128_S128x8_S8000x8_1_0_0_1_n_n.contr.Idx) :
    (dot_S8000x128_S128x8_S8000x8_1_0_0_1_n_n.lhsIdx i q 0).val = (i 0).val := by
  unfold DotDims.lhsIdx
  rw [dif_neg (show ¬(0 : Fin S8000x128.rank) ∈ dot_S8000x128_S128x8_S8000x8_1_0_0_1_n_n.lhsBatch by decide), dif_pos (show (0 : Fin S8000x128.rank) ∈ dot_S8000x128_S128x8_S8000x8_1_0_0_1_n_n.lhsNonContracting by decide)]
  rfl
theorem lhs_heads_1 (i : S8000x8.Idx) (q : dot_S8000x128_S128x8_S8000x8_1_0_0_1_n_n.contr.Idx) :
    (dot_S8000x128_S128x8_S8000x8_1_0_0_1_n_n.lhsIdx i q 1).val = (q ⟨0, by decide⟩).val :=
  dot_S8000x128_S128x8_S8000x8_1_0_0_1_n_n.lhsIdx_val_of_single rfl i q
theorem rhs_heads_0 (i : S8000x8.Idx) (q : dot_S8000x128_S128x8_S8000x8_1_0_0_1_n_n.contr.Idx) :
    (dot_S8000x128_S128x8_S8000x8_1_0_0_1_n_n.rhsIdx i q 0).val = (q ⟨0, by decide⟩).val :=
  dot_S8000x128_S128x8_S8000x8_1_0_0_1_n_n.rhsIdx_val_of_single rfl i q
theorem rhs_heads_1 (i : S8000x8.Idx) (q : dot_S8000x128_S128x8_S8000x8_1_0_0_1_n_n.contr.Idx) :
    (dot_S8000x128_S128x8_S8000x8_1_0_0_1_n_n.rhsIdx i q 1).val = (i 1).val := by
  unfold DotDims.rhsIdx
  rw [dif_neg (show ¬(1 : Fin S128x8.rank) ∈ dot_S8000x128_S128x8_S8000x8_1_0_0_1_n_n.rhsBatch by decide), dif_pos (show (1 : Fin S128x8.rank) ∈ dot_S8000x128_S128x8_S8000x8_1_0_0_1_n_n.rhsNonContracting by decide)]
  rfl

/-- The head sums at (p, h): the sum over the 128 features of the block's row against the matrix's column. -/
theorem heads_apply (a : FVec Ideal S8000x128 .f32) (g : FVec Ideal S128x8 .f32) (p : Fin 8000) (h : Fin 8) :
    matmul dot_S8000x128_S128x8_S8000x8_1_0_0_1_n_n none a g (constant (F := Ideal) S8000x8 .f32 0x00000000#32) (ix2 p h)
      = ∑ j : Fin 128, a (ix2 p j) * g (ix2 j h) := by
  simp only [matmul]
  rw [Ideal.matmul_constant_zero_apply, ← Equiv.sum_comp (ValueIdx.contrEquiv1 dot_S8000x128_S128x8_S8000x8_1_0_0_1_n_n 128 rfl rfl).symm]
  refine Finset.sum_congr rfl fun k _ => ?_
  have hk := ValueIdx.contrEquiv1_symm_val dot_S8000x128_S128x8_S8000x8_1_0_0_1_n_n 128 rfl rfl k
  have el : dot_S8000x128_S128x8_S8000x8_1_0_0_1_n_n.lhsIdx (ix2 p h) ((ValueIdx.contrEquiv1 dot_S8000x128_S128x8_S8000x8_1_0_0_1_n_n 128 rfl rfl).symm k) = ix2 p k := funext fun a => Fin.ext (by
    match a with
    | ⟨0, _⟩ => exact lhs_heads_0 _ _
    | ⟨1, _⟩ => exact (lhs_heads_1 _ _).trans hk)
  have er : dot_S8000x128_S128x8_S8000x8_1_0_0_1_n_n.rhsIdx (ix2 p h) ((ValueIdx.contrEquiv1 dot_S8000x128_S128x8_S8000x8_1_0_0_1_n_n 128 rfl rfl).symm k) = ix2 k h := funext fun a => Fin.ext (by
    match a with
    | ⟨0, _⟩ => exact (rhs_heads_0 _ _).trans hk
    | ⟨1, _⟩ => exact rhs_heads_1 _ _)
  rw [el, er]

/-- The score payload at (p, h). -/
theorem score_pay (x0 x2 : Vec Ideal S8000x128 .f32) (x6 : Vec Ideal S128x8 .f32) (p : Fin 8000) (h : Fin 8) :
    k2_pay1 x0 x2 x6 (ix2 p h) = Ideal.exp (min (Ideal.ofBits .f32 0x40A00000#32) (max (Ideal.ofBits .f32 0xC0A00000#32)
      ((∑ j : Fin 128, (x0 (ix2 p j) * x2 (ix2 p j)) * x6 (ix2 j h)) * Ideal.ofBits .f32 0x3E800000#32))) := by
  unfold k2_pay1
  simp only [shapeCast_self]
  show Ideal.exp (min (Ideal.ofBits .f32 0x40A00000#32) (max (Ideal.ofBits .f32 0xC0A00000#32)
      (matmul dot_S8000x128_S128x8_S8000x8_1_0_0_1_n_n none (mulf x0 x2) x6 (constant (F := Ideal) S8000x8 .f32 0x00000000#32) (ix2 p h) * Ideal.ofBits .f32 0x3E800000#32))) = _
  rw [heads_apply]
  rfl

/-! The spread back over the lanes: the product of an [8000,8] block with the transposed [8,128] grouping matrix. -/

theorem lhs_spread_0 (i : S8000x128.Idx) (q : dot_S8000x8_S8x128_S8000x128_1_0_0_1_n_n.contr.Idx) :
    (dot_S8000x8_S8x128_S8000x128_1_0_0_1_n_n.lhsIdx i q 0).val = (i 0).val := by
  unfold DotDims.lhsIdx
  rw [dif_neg (show ¬(0 : Fin S8000x8.rank) ∈ dot_S8000x8_S8x128_S8000x128_1_0_0_1_n_n.lhsBatch by decide), dif_pos (show (0 : Fin S8000x8.rank) ∈ dot_S8000x8_S8x128_S8000x128_1_0_0_1_n_n.lhsNonContracting by decide)]
  rfl
theorem lhs_spread_1 (i : S8000x128.Idx) (q : dot_S8000x8_S8x128_S8000x128_1_0_0_1_n_n.contr.Idx) :
    (dot_S8000x8_S8x128_S8000x128_1_0_0_1_n_n.lhsIdx i q 1).val = (q ⟨0, by decide⟩).val :=
  dot_S8000x8_S8x128_S8000x128_1_0_0_1_n_n.lhsIdx_val_of_single rfl i q
theorem rhs_spread_0 (i : S8000x128.Idx) (q : dot_S8000x8_S8x128_S8000x128_1_0_0_1_n_n.contr.Idx) :
    (dot_S8000x8_S8x128_S8000x128_1_0_0_1_n_n.rhsIdx i q 0).val = (q ⟨0, by decide⟩).val :=
  dot_S8000x8_S8x128_S8000x128_1_0_0_1_n_n.rhsIdx_val_of_single rfl i q
theorem rhs_spread_1 (i : S8000x128.Idx) (q : dot_S8000x8_S8x128_S8000x128_1_0_0_1_n_n.contr.Idx) :
    (dot_S8000x8_S8x128_S8000x128_1_0_0_1_n_n.rhsIdx i q 1).val = (i 1).val := by
  unfold DotDims.rhsIdx
  rw [dif_neg (show ¬(1 : Fin S8x128.rank) ∈ dot_S8000x8_S8x128_S8000x128_1_0_0_1_n_n.rhsBatch by decide), dif_pos (show (1 : Fin S8x128.rank) ∈ dot_S8000x8_S8x128_S8000x128_1_0_0_1_n_n.rhsNonContracting by decide)]
  rfl

/-- The spread at (p, j): the sum over the 8 heads of the block's row against the matrix's column. -/
theorem spread_apply (s : FVec Ideal S8000x8 .f32) (gt : FVec Ideal S8x128 .f32) (p : Fin 8000) (j : Fin 128) :
    matmul dot_S8000x8_S8x128_S8000x128_1_0_0_1_n_n none s gt (constant (F := Ideal) S8000x128 .f32 0x00000000#32) (ix2 p j)
      = ∑ h : Fin 8, s (ix2 p h) * gt (ix2 h j) := by
  simp only [matmul]
  rw [Ideal.matmul_constant_zero_apply, ← Equiv.sum_comp (ValueIdx.contrEquiv1 dot_S8000x8_S8x128_S8000x128_1_0_0_1_n_n 8 rfl rfl).symm]
  refine Finset.sum_congr rfl fun k _ => ?_
  have hk := ValueIdx.contrEquiv1_symm_val dot_S8000x8_S8x128_S8000x128_1_0_0_1_n_n 8 rfl rfl k
  have el : dot_S8000x8_S8x128_S8000x128_1_0_0_1_n_n.lhsIdx (ix2 p j) ((ValueIdx.contrEquiv1 dot_S8000x8_S8x128_S8000x128_1_0_0_1_n_n 8 rfl rfl).symm k) = ix2 p k := funext fun a => Fin.ext (by
    match a with
    | ⟨0, _⟩ => exact lhs_spread_0 _ _
    | ⟨1, _⟩ => exact (lhs_spread_1 _ _).trans hk)
  have er : dot_S8000x8_S8x128_S8000x128_1_0_0_1_n_n.rhsIdx (ix2 p j) ((ValueIdx.contrEquiv1 dot_S8000x8_S8x128_S8000x128_1_0_0_1_n_n 8 rfl rfl).symm k) = ix2 k j := funext fun a => Fin.ext (by
    match a with
    | ⟨0, _⟩ => exact (rhs_spread_0 _ _).trans hk
    | ⟨1, _⟩ => exact rhs_spread_1 _ _)
  rw [el, er]

/-- The transposed grouping matrix at (h, j) is the matrix at (j, h). -/
theorem groupT_apply (g : FVec Ideal S128x8 .f32) (h : Fin 8) (j : Fin 128) :
    transpose S8x128 [1, 0] g transposes_S128x8_p1_0_S8x128 (ix2 h j) = g (ix2 j h) :=
  transpose_apply [1, 0] g transposes_S128x8_p1_0_S8x128 (ix2 h j) (ix2 j h) (fun b => by
    match b with
    | ⟨0, _⟩ => rfl
    | ⟨1, _⟩ => rfl)

/-- The weighted-value payload at (p, j). -/
theorem wv_pay (x0 x2 x4 : Vec Ideal S8000x128 .f32) (x6 : Vec Ideal S128x8 .f32) (p : Fin 8000) (j : Fin 128) :
    k2_pay2 x0 x2 x4 x6 (ix2 p j) = (∑ h : Fin 8, k2_pay1 x0 x2 x6 (ix2 p h) * x6 (ix2 j h)) * x4 (ix2 p j) := by
  unfold k2_pay2
  simp only [shapeCast_self]
  show matmul dot_S8000x8_S8x128_S8000x128_1_0_0_1_n_n none (k2_pay1 x0 x2 x6) (transpose S8x128 [1, 0] x6 transposes_S128x8_p1_0_S8x128) (constant (F := Ideal) S8000x128 .f32 0x00000000#32) (ix2 p j) * x4 (ix2 p j) = _
  rw [spread_apply]
  exact congrArg (· * x4 (ix2 p j)) (Finset.sum_congr rfl fun h _ => congrArg (k2_pay1 x0 x2 x6 (ix2 p h) * ·) (groupT_apply x6 h j))

/-! ## The two arrays as functions of the entry arrays, index by index -/

/-- The score at edge e and head h. -/
def scoreAt (k q : FVec Ideal S800000x128 .f32) (g : FVec Ideal S128x8 .f32) (e : Fin 800000) (h : Fin 8) : EReal :=
  Ideal.exp (min (Ideal.ofBits .f32 0x40A00000#32) (max (Ideal.ofBits .f32 0xC0A00000#32)
    ((∑ j : Fin 128, (k (ix2 e j) * q (ix2 e j)) * g (ix2 j h)) * Ideal.ofBits .f32 0x3E800000#32)))

/-- The score array. -/
def scoreOf (k q : FVec Ideal S800000x128 .f32) (g : FVec Ideal S128x8 .f32) : FVec Ideal S800000x8 .f32 :=
  fun i => scoreAt k q g (i 0) (i 1)

/-- The weighted value at edge e and feature j. -/
def wvAt (k q v : FVec Ideal S800000x128 .f32) (g : FVec Ideal S128x8 .f32) (e : Fin 800000) (j : Fin 128) : EReal :=
  (∑ h : Fin 8, scoreAt k q g e h * g (ix2 j h)) * v (ix2 e j)

/-- The weighted-value array. -/
def wvOf (k q v : FVec Ideal S800000x128 .f32) (g : FVec Ideal S128x8 .f32) : FVec Ideal S800000x128 .f32 :=
  fun i => wvAt k q v g (i 0) (i 1)

/-- A block's score payload is the score of the rows the block holds. -/
theorem score_pay_rows (x0 x2 : Vec Ideal S8000x128 .f32) (x6 : Vec Ideal S128x8 .f32)
    (k q : FVec Ideal S800000x128 .f32) (g : FVec Ideal S128x8 .f32) (p : Fin 8000) (e : Fin 800000)
    (h0 : ∀ j : Fin 128, x0 (ix2 p j) = k (ix2 e j)) (h2 : ∀ j : Fin 128, x2 (ix2 p j) = q (ix2 e j))
    (h6 : ∀ (j : Fin 128) (h : Fin 8), x6 (ix2 j h) = g (ix2 j h)) (h : Fin 8) :
    k2_pay1 x0 x2 x6 (ix2 p h) = scoreAt k q g e h := by
  rw [score_pay]
  unfold scoreAt
  simp only [h0, h2, h6]

/-- A block's weighted-value payload is the weighted value of the rows the block holds. -/
theorem wv_pay_rows (x0 x2 x4 : Vec Ideal S8000x128 .f32) (x6 : Vec Ideal S128x8 .f32)
    (k q v : FVec Ideal S800000x128 .f32) (g : FVec Ideal S128x8 .f32) (p : Fin 8000) (e : Fin 800000)
    (h0 : ∀ j : Fin 128, x0 (ix2 p j) = k (ix2 e j)) (h2 : ∀ j : Fin 128, x2 (ix2 p j) = q (ix2 e j))
    (h4 : ∀ j : Fin 128, x4 (ix2 p j) = v (ix2 e j))
    (h6 : ∀ (j : Fin 128) (h : Fin 8), x6 (ix2 j h) = g (ix2 j h)) (j : Fin 128) :
    k2_pay2 x0 x2 x4 x6 (ix2 p j) = wvAt k q v g e j := by
  rw [wv_pay]
  unfold wvAt
  simp only [score_pay_rows x0 x2 x6 k q g p e h0 h2 h6, h4, h6]

variable (V : (c : Dev nD) → (b : Ref sig .tc) → Buf (Elt Ideal) ((c : Thread nD τ).loc b))

/-- The gathered key rows the region is entered with. -/
abbrev karr (c : Dev nD) : FVec Ideal S800000x128 .f32 := V c main_v8
/-- The gathered query rows. -/
abbrev qarr (c : Dev nD) : FVec Ideal S800000x128 .f32 := V c main_v9
/-- The gathered value rows. -/
abbrev varr (c : Dev nD) : FVec Ideal S800000x128 .f32 := V c main_v10
/-- The grouping matrix. -/
abbrev garr (c : Dev nD) : FVec Ideal S128x8 .f32 := V c main_cst
/-- The weighted-value array after the region. -/
abbrev wvarr (c : Dev nD) : FVec Ideal S800000x128 .f32 := (dat2 (F := Ideal) V c).arrAt 4 cfg2.N
/-- The score array after the region. -/
abbrev scarr (c : Dev nD) : FVec Ideal S800000x8 .f32 := (dat2 (F := Ideal) V c).arrAt 5 cfg2.N

/-- The three gathered arrays by coordinates. -/
abbrev Ke (c : Dev nD) : Fin 800000 → Fin 128 → EReal := fun e j => karr V c (ix2 e j)
abbrev Qe (c : Dev nD) : Fin 800000 → Fin 128 → EReal := fun e j => qarr V c (ix2 e j)
abbrev Ve (c : Dev nD) : Fin 800000 → Fin 128 → EReal := fun e j => varr V c (ix2 e j)

/-! ## The blocks of the windows -/

/-- The index maps over the grid: each row window sits at block (t, 0), the grouping matrix at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- Key block t holds rows 8000 t, …, 8000 t + 7999 of the key array. -/
theorem kblk_apply (c : Dev nD) (t : Fin cfg2.N) (p : Fin 8000) (j : Fin 128) (e : Fin 800000)
    (he : e.val = t.val * 8000 + p.val) :
    (iblk2 (F := Ideal) V c 0 t : Vec Ideal S8000x128 .f32) (ix2 p j) = karr V c (ix2 e j) := by
  obtain ⟨a0, a1, -⟩ := idx_facts t
  show V c main_v8 (((cfg2.win 0).blk t).view.emb (ix2 p j)) = V c main_v8 (ix2 e j)
  refine congrArg _ (funext fun a => Fin.ext ?_)
  match a with
  | ⟨0, _⟩ => show win2_0.index t (0 : Fin 2) * 8000 + 1 * p.val = e.val; omega
  | ⟨1, _⟩ => show win2_0.index t (1 : Fin 2) * 128 + 1 * j.val = j.val; omega

/-- Query block t holds the same rows of the query array. -/
theorem qblk_apply (c : Dev nD) (t : Fin cfg2.N) (p : Fin 8000) (j : Fin 128) (e : Fin 800000)
    (he : e.val = t.val * 8000 + p.val) :
    (iblk2 (F := Ideal) V c 1 t : Vec Ideal S8000x128 .f32) (ix2 p j) = qarr V c (ix2 e j) := by
  obtain ⟨-, -, a0, a1, -⟩ := idx_facts t
  show V c main_v9 (((cfg2.win 1).blk t).view.emb (ix2 p j)) = V c main_v9 (ix2 e j)
  refine congrArg _ (funext fun a => Fin.ext ?_)
  match a with
  | ⟨0, _⟩ => show win2_1.index t (0 : Fin 2) * 8000 + 1 * p.val = e.val; omega
  | ⟨1, _⟩ => show win2_1.index t (1 : Fin 2) * 128 + 1 * j.val = j.val; omega

/-- Value block t holds the same rows of the value array. -/
theorem vblk_apply (c : Dev nD) (t : Fin cfg2.N) (p : Fin 8000) (j : Fin 128) (e : Fin 800000)
    (he : e.val = t.val * 8000 + p.val) :
    (iblk2 (F := Ideal) V c 2 t : Vec Ideal S8000x128 .f32) (ix2 p j) = varr V c (ix2 e j) := by
  obtain ⟨-, -, -, -, a0, a1, -⟩ := idx_facts t
  show V c main_v10 (((cfg2.win 2).blk t).view.emb (ix2 p j)) = V c main_v10 (ix2 e j)
  refine congrArg _ (funext fun a => Fin.ext ?_)
  match a with
  | ⟨0, _⟩ => show win2_2.index t (0 : Fin 2) * 8000 + 1 * p.val = e.val; omega
  | ⟨1, _⟩ => show win2_2.index t (1 : Fin 2) * 128 + 1 * j.val = j.val; omega

/-- The grouping matrix's block is the whole matrix at every point. -/
theorem gblk_apply (c : Dev nD) (t : Fin cfg2.N) (j : Fin 128) (h : Fin 8) :
    (iblk2 (F := Ideal) V c 3 t : Vec Ideal S128x8 .f32) (ix2 j h) = garr V c (ix2 j h) := by
  obtain ⟨-, -, -, -, -, -, a0, a1, -⟩ := idx_facts t
  show V c main_cst (((cfg2.win 3).blk t).view.emb (ix2 j h)) = V c main_cst (ix2 j h)
  refine congrArg _ (funext fun a => Fin.ext ?_)
  match a with
  | ⟨0, _⟩ => show win2_3.index t (0 : Fin 2) * 128 + 1 * j.val = j.val; omega
  | ⟨1, _⟩ => show win2_3.index t (1 : Fin 2) * 8 + 1 * h.val = h.val; omega

/-! ## The score array -/

/-- The score payload of blocks that hold rows 8000 n, … of the arrays, at a block index, is the score array at
    the index that many rows down. -/
theorem score_block (x0 x2 : Vec Ideal S8000x128 .f32) (x6 : Vec Ideal S128x8 .f32)
    (k q : FVec Ideal S800000x128 .f32) (g : FVec Ideal S128x8 .f32) (n : Nat) (y : S8000x8.Idx) (i : S800000x8.Idx)
    (hi0 : (i 0).val = n * 8000 + (y 0).val) (hi1 : (i 1).val = (y 1).val)
    (h0 : ∀ (p : Fin 8000) (e : Fin 800000), e.val = n * 8000 + p.val → ∀ j : Fin 128, x0 (ix2 p j) = k (ix2 e j))
    (h2 : ∀ (p : Fin 8000) (e : Fin 800000), e.val = n * 8000 + p.val → ∀ j : Fin 128, x2 (ix2 p j) = q (ix2 e j))
    (h6 : ∀ (j : Fin 128) (h : Fin 8), x6 (ix2 j h) = g (ix2 j h)) :
    k2_pay1 x0 x2 x6 y = scoreOf k q g i := by
  have e1 : (y 1 : Fin 8) = i 1 := Fin.ext hi1.symm
  calc k2_pay1 x0 x2 x6 y = k2_pay1 x0 x2 x6 (ix2 (y 0) (y 1)) := congrArg _ (eq_ix2 y)
    _ = scoreAt k q g (i 0) (y 1) := score_pay_rows x0 x2 x6 k q g (y 0) (i 0) (h0 _ _ hi0) (h2 _ _ hi0) h6 (y 1)
    _ = scoreAt k q g (i 0) (i 1) := by rw [e1]

/-- What point t writes back to the score array is block t of the score function of the entry arrays. -/
theorem score_flushed (c : Dev nD) (t : Fin cfg2.N) :
    (dat2 (F := Ideal) V c).flushed 5 t
      = ((cfg2.win 5).blk t).view.read (Elt Ideal) (scoreOf (karr V c) (qarr V c) (garr V c)) := by
  show (cfg2.win 5).cut (grid2.coords t) ((dat2 (F := Ideal) V c).after 5 t) = _
  rw [after2_5]
  unfold out2_5
  rw [View.canon_unit_zero zeros2]
  simp only [View.ld_unit_zero (S := S8000x128) zeros2, View.ld_unit_zero (S := S128x8) zeros2]
  obtain ⟨-, -, -, -, -, -, -, -, -, -, o0, o1⟩ := idx_facts t
  funext y
  exact score_block (iblk2 V c 0 t) (iblk2 V c 1 t) (iblk2 V c 3 t) (karr V c) (qarr V c) (garr V c) t.val y
    (((cfg2.win 5).blk t).view.emb y)
    (by show win2_5.index t (0 : Fin 2) * 8000 + 1 * (y 0).val = _; omega)
    (by show win2_5.index t (1 : Fin 2) * 8 + 1 * (y 1).val = _; omega)
    (fun p e he j => kblk_apply V c t p j e he) (fun p e he j => qblk_apply V c t p j e he)
    (fun j h => gblk_apply V c t j h)

/-- An index of the score array is in point t's block iff each coordinate is in the block's range on its axis. -/
theorem score_mem_blk (t : Fin cfg2.N) (i : S800000x8.Idx) :
    i ∈ ((cfg2.win 5).blk t).view.set ↔ ∀ a : Fin 2, win2_5.index t a * S8000x8.size a ≤ (i a).val ∧ (i a).val < win2_5.index t a * S8000x8.size a + S8000x8.size a := by
  show i ∈ ((View.whole main_v11_1).slice (win2_5.rect t)).set ↔ _
  rw [View.set_slice_whole, Rect.mem_set_unit]
  exact Iff.rfl

/-- Row r of the score array is in the block of point r / 8000, which writes back. -/
theorem score_cover (i : S800000x8.Idx) :
    ∃ t : Fin cfg2.N, (cfg2.win 5).flush t = true ∧ i ∈ ((cfg2.win 5).blk t).view.set := by
  have hN : cfg2.N = 100 := N_2
  have hi0 : (i 0).val < 800000 := (i 0).isLt
  have hi1 : (i 1).val < 8 := (i 1).isLt
  obtain ⟨t, ht⟩ : ∃ t : Fin cfg2.N, t.val = (i 0).val / 8000 := ⟨⟨(i 0).val / 8000, by rw [hN]; omega⟩, rfl⟩
  obtain ⟨-, -, -, -, -, -, -, -, -, -, o0, o1⟩ := idx_facts t
  refine ⟨t, flush2_5 t, ?_⟩
  rw [score_mem_blk]
  intro a
  match a with
  | ⟨0, _⟩ => show win2_5.index t (0 : Fin 2) * 8000 ≤ (i 0).val ∧ (i 0).val < win2_5.index t (0 : Fin 2) * 8000 + 8000; omega
  | ⟨1, _⟩ => show win2_5.index t (1 : Fin 2) * 8 ≤ (i 1).val ∧ (i 1).val < win2_5.index t (1 : Fin 2) * 8 + 8; omega

/-- The score array after the region is the score function of the entry arrays. -/
theorem score_array (c : Dev nD) : scarr V c = scoreOf (karr V c) (qarr V c) (garr V c) :=
  (dat2 (F := Ideal) V c).arrAt_eq_of_cover 5 (scoreOf (karr V c) (qarr V c) (garr V c))
    (fun t _ => score_flushed V c t) score_cover

/-! ## The weighted-value array -/

/-- The weighted-value payload of blocks that hold rows 8000 n, … of the arrays, at a block index, is the
    weighted-value array at the index that many rows down. -/
theorem wv_block (x0 x2 x4 : Vec Ideal S8000x128 .f32) (x6 : Vec Ideal S128x8 .f32)
    (k q v : FVec Ideal S800000x128 .f32) (g : FVec Ideal S128x8 .f32) (n : Nat) (y : S8000x128.Idx) (i : S800000x128.Idx)
    (hi0 : (i 0).val = n * 8000 + (y 0).val) (hi1 : (i 1).val = (y 1).val)
    (h0 : ∀ (p : Fin 8000) (e : Fin 800000), e.val = n * 8000 + p.val → ∀ j : Fin 128, x0 (ix2 p j) = k (ix2 e j))
    (h2 : ∀ (p : Fin 8000) (e : Fin 800000), e.val = n * 8000 + p.val → ∀ j : Fin 128, x2 (ix2 p j) = q (ix2 e j))
    (h4 : ∀ (p : Fin 8000) (e : Fin 800000), e.val = n * 8000 + p.val → ∀ j : Fin 128, x4 (ix2 p j) = v (ix2 e j))
    (h6 : ∀ (j : Fin 128) (h : Fin 8), x6 (ix2 j h) = g (ix2 j h)) :
    k2_pay2 x0 x2 x4 x6 y = wvOf k q v g i := by
  have e1 : (y 1 : Fin 128) = i 1 := Fin.ext hi1.symm
  calc k2_pay2 x0 x2 x4 x6 y = k2_pay2 x0 x2 x4 x6 (ix2 (y 0) (y 1)) := congrArg _ (eq_ix2 y)
    _ = wvAt k q v g (i 0) (y 1) :=
        wv_pay_rows x0 x2 x4 x6 k q v g (y 0) (i 0) (h0 _ _ hi0) (h2 _ _ hi0) (h4 _ _ hi0) h6 (y 1)
    _ = wvAt k q v g (i 0) (i 1) := by rw [e1]

/-- What point t writes back to the weighted-value array is block t of the weighted-value function of the entry arrays. -/
theorem wv_flushed (c : Dev nD) (t : Fin cfg2.N) :
    (dat2 (F := Ideal) V c).flushed 4 t
      = ((cfg2.win 4).blk t).view.read (Elt Ideal) (wvOf (karr V c) (qarr V c) (varr V c) (garr V c)) := by
  show (cfg2.win 4).cut (grid2.coords t) ((dat2 (F := Ideal) V c).after 4 t) = _
  rw [after2_4]
  unfold out2_4
  rw [View.canon_unit_zero zeros2]
  simp only [View.ld_unit_zero (S := S8000x128) zeros2, View.ld_unit_zero (S := S128x8) zeros2]
  obtain ⟨-, -, -, -, -, -, -, -, o0, o1, -⟩ := idx_facts t
  funext y
  exact wv_block (iblk2 V c 0 t) (iblk2 V c 1 t) (iblk2 V c 2 t) (iblk2 V c 3 t) (karr V c) (qarr V c) (varr V c) (garr V c)
    t.val y (((cfg2.win 4).blk t).view.emb y)
    (by show win2_4.index t (0 : Fin 2) * 8000 + 1 * (y 0).val = _; omega)
    (by show win2_4.index t (1 : Fin 2) * 128 + 1 * (y 1).val = _; omega)
    (fun p e he j => kblk_apply V c t p j e he) (fun p e he j => qblk_apply V c t p j e he)
    (fun p e he j => vblk_apply V c t p j e he) (fun j h => gblk_apply V c t j h)

/-- An index of the weighted-value array is in point t's block iff each coordinate is in the block's range on its axis. -/
theorem wv_mem_blk (t : Fin cfg2.N) (i : S800000x128.Idx) :
    i ∈ ((cfg2.win 4).blk t).view.set ↔ ∀ a : Fin 2, win2_4.index t a * S8000x128.size a ≤ (i a).val ∧ (i a).val < win2_4.index t a * S8000x128.size a + S8000x128.size a := by
  show i ∈ ((View.whole main_v11_0).slice (win2_4.rect t)).set ↔ _
  rw [View.set_slice_whole, Rect.mem_set_unit]
  exact Iff.rfl

/-- Row r of the weighted-value array is in the block of point r / 8000, which writes back. -/
theorem wv_cover (i : S800000x128.Idx) :
    ∃ t : Fin cfg2.N, (cfg2.win 4).flush t = true ∧ i ∈ ((cfg2.win 4).blk t).view.set := by
  have hN : cfg2.N = 100 := N_2
  have hi0 : (i 0).val < 800000 := (i 0).isLt
  have hi1 : (i 1).val < 128 := (i 1).isLt
  obtain ⟨t, ht⟩ : ∃ t : Fin cfg2.N, t.val = (i 0).val / 8000 := ⟨⟨(i 0).val / 8000, by rw [hN]; omega⟩, rfl⟩
  obtain ⟨-, -, -, -, -, -, -, -, o0, o1, -⟩ := idx_facts t
  refine ⟨t, flush2_4 t, ?_⟩
  rw [wv_mem_blk]
  intro a
  match a with
  | ⟨0, _⟩ => show win2_4.index t (0 : Fin 2) * 8000 ≤ (i 0).val ∧ (i 0).val < win2_4.index t (0 : Fin 2) * 8000 + 8000; omega
  | ⟨1, _⟩ => show win2_4.index t (1 : Fin 2) * 128 ≤ (i 1).val ∧ (i 1).val < win2_4.index t (1 : Fin 2) * 128 + 128; omega

/-- The weighted-value array after the region is the weighted-value function of the entry arrays. -/
theorem wv_array (c : Dev nD) : wvarr V c = wvOf (karr V c) (qarr V c) (varr V c) (garr V c) :=
  (dat2 (F := Ideal) V c).arrAt_eq_of_cover 4 (wvOf (karr V c) (qarr V c) (varr V c) (garr V c))
    (fun t _ => wv_flushed V c t) wv_cover

/-- The score array after the region, at (e, h). -/
theorem final_score (c : Dev nD) (hG : ∀ (j : Fin 128) (h : Fin 8), garr V c (ix2 j h) = Spec.Gm j h)
    (e : Fin 800000) (h : Fin 8) :
    scarr V c (ix2 e h) = Spec.ksc (Ke V c) (Qe V c) e h := by
  rw [score_array V c]
  show scoreAt (karr V c) (qarr V c) (garr V c) e h = Spec.ksc (Ke V c) (Qe V c) e h
  unfold scoreAt Spec.ksc Spec.clip
  simp only [hG]

/-- The weighted-value array after the region, at (e, j). -/
theorem final_wv (c : Dev nD) (hG : ∀ (j : Fin 128) (h : Fin 8), garr V c (ix2 j h) = Spec.Gm j h)
    (e : Fin 800000) (j : Fin 128) :
    wvarr V c (ix2 e j) = Spec.kwv (Ke V c) (Qe V c) (Ve V c) e j := by
  rw [wv_array V c]
  show wvAt (karr V c) (qarr V c) (varr V c) (garr V c) e j = Spec.kwv (Ke V c) (Qe V c) (Ve V c) e j
  unfold wvAt scoreAt Spec.kwv Spec.ksc Spec.clip
  simp only [hG]

end Cert.KernelIdeal.Reg2

end
-- ==== Proof.SpecLaws.lean ====
/-
  The two arrangements of the attention aggregation agree (Spec.lean: out against kout) when every source word is
  a valid index. An edge whose destination word names no node contributes to neither side; an edge whose
  destination word is a node number has a valid destination index, so its taken query row is the table's row.
  The head sum against the 0/1 grouping matrix is the sum over the head's sixteen lanes, the spread back picks the
  lane's own head, and the product with 1/4 is the quotient by 4.
-/
import proofs.«420706_j65360812310777_1_alg».proof.Proof.Spec

noncomputable section

open scoped BigOperators

namespace Cert.Spec

open Idealize.ShloMosaic

/-! ## The two constants -/

/-- The first word denotes the real 1/4. -/
theorem ofBits_quarter : Ideal.ofBits .f32 0x3E800000#32 = (((1 / 4 : ℝ)) : EReal) := by
  simp [Ideal.ofBits, Ideal.ieee, -EReal.coe_mul]; norm_num

/-- The second word denotes the real 4. -/
theorem ofBits_four : Ideal.ofBits .f32 0x40800000#32 = ((4 : ℝ) : EReal) := by
  simp [Ideal.ofBits, Ideal.ieee, -EReal.coe_mul]; norm_num

/-- The product with 1/4 is the quotient by 4, at the infinities too. -/
theorem quarter_mul (x : EReal) :
    x * Ideal.ofBits .f32 0x3E800000#32 = Ideal.div (0 + x) (Ideal.ofBits .f32 0x40800000#32) := by
  rw [ofBits_quarter, ofBits_four, zero_add, Ideal.div_coe (by norm_num : (4 : ℝ) ≠ 0)]

/-! ## The grouping matrix -/

/-- Lane d of head h belongs to head h. -/
theorem lane_div (h : Fin 8) (d : Fin 16) : (lane h d).val / 16 = h.val := by
  simp only [lane]; omega

/-- The sum against column h of the grouping matrix is the sum over head h's sixteen lanes: the other
    features meet a zero, and a feature of head h is the lane of its remainder by 16. -/
theorem sum_mul_Gm (a : Fin 128 → EReal) (h : Fin 8) :
    ∑ j : Fin 128, a j * Gm j h = ∑ d : Fin 16, a (lane h d) := by
  symm
  apply Finset.sum_of_injOn (lane h)
  · intro d _ d' _ hdd
    have := congrArg Fin.val hdd
    simp only [lane] at this
    exact Fin.ext (by omega)
  · intro d _; exact Finset.mem_coe.2 (Finset.mem_univ _)
  · intro j _ hj
    have hne : j.val / 16 ≠ h.val := by
      intro hjh
      apply hj
      refine ⟨⟨j.val % 16, Nat.mod_lt _ (by norm_num)⟩, Finset.mem_coe.2 (Finset.mem_univ _), ?_⟩
      apply Fin.ext
      simp only [lane]
      omega
    simp [Gm, hne]
  · intro d _
    simp [Gm, lane_div]

/-- The sum against row (lane h d) of the grouping matrix picks head h. -/
theorem sum_Gm_lane (s : Fin 8 → EReal) (h : Fin 8) (d : Fin 16) :
    ∑ h' : Fin 8, s h' * Gm (lane h d) h' = s h := by
  rw [Finset.sum_eq_single h]
  · simp [Gm, lane_div]
  · intro h' _ hne
    have : ¬ (lane h d).val / 16 = h'.val := by
      rw [lane_div]; intro hh; exact hne (Fin.ext hh.symm)
    simp [Gm, this]
  · intro hh; exact absurd (Finset.mem_univ _) hh

/-! ## Valid index words -/

/-- The signed comparison of a word with zero reads the word's signed value. -/
theorem slt_zero (i : BitVec 32) : BitVec.slt i 0#32 = decide (i.toInt < 0) := by
  simp [BitVec.slt]

/-- A word in [-50000, 50000) is a valid index. -/
theorem inRange_of_bounds (i : BitVec 32) (h0 : -50000 ≤ i.toInt) (h1 : i.toInt < 50000) : inRange i := by
  unfold inRange wrap Scalar.select IntOp.cmpi IntOp.addi
  simp only [slt_zero]
  by_cases hneg : i.toInt < 0
  · simp only [hneg, decide_true, BitVec.ofBool_true, if_true]
    rw [BitVec.toInt_add]
    have : (50000#32).toInt = 50000 := by decide
    rw [this, Int.bmod_def]
    omega
  · simp only [hneg, decide_false, BitVec.ofBool_false]
    have : ¬ ((0 : BitVec 1) = 1) := by decide
    rw [if_neg this]
    omega

/-- A word that IS a node number is a valid index. -/
theorem inRange_of_eq (i : BitVec 32) (n : Fin 50000) (h : i.toInt = (n.val : Int)) : inRange i := by
  have hn := n.isLt
  exact inRange_of_bounds i (by omega) (by omega)

/-- A row taken at a valid index is the table's row. -/
theorem take_of_inRange (X : Fin 50000 → Fin 128 → EReal) (i : BitVec 32) (j : Fin 128) (hi : inRange i) :
    take X i j = X (row i) j := by
  simp [take, hi]

/-! ## The scores, then the outputs -/

/-- The tiled score of an edge with valid source and destination words is the edge's score. -/
theorem ksc_eq_score (K Q : Fin 50000 → Fin 128 → EReal) (src dst : Fin 800000 → BitVec 32)
    (e : Fin 800000) (h : Fin 8) (hs : inRange (src e)) (hd : inRange (dst e)) :
    ksc (fun e j => take K (src e) j) (fun e j => take Q (dst e) j) e h = score K Q (src e) (dst e) h := by
  unfold ksc score
  rw [quarter_mul, sum_mul_Gm]
  simp only [take_of_inRange _ _ _ hs, take_of_inRange _ _ _ hd]

/-- THE TWO ARRANGEMENTS AGREE when every source word is a valid index. -/
theorem kout_eq_out (K Q V : Fin 50000 → Fin 128 → EReal) (src dst : Fin 800000 → BitVec 32)
    (hsrc : ∀ e, inRange (src e)) (n : Fin 50000) (h : Fin 8) (d : Fin 16) :
    kout (fun e j => take K (src e) j) (fun e j => take Q (dst e) j) (fun e j => take V (src e) j) dst n h d
      = out K Q V src dst n h d := by
  have hterm : ∀ (e : Fin 800000) (h' : Fin 8), (dst e).toInt = (n.val : Int) →
      ksc (fun e j => take K (src e) j) (fun e j => take Q (dst e) j) e h' = score K Q (src e) (dst e) h' :=
    fun e h' he => ksc_eq_score K Q src dst e h' (hsrc e) (inRange_of_eq (dst e) n he)
  unfold kout out
  refine congrArg₂ Ideal.div (congrArg (fun x => 0 + x) ?_) (congrArg (fun x => 0 + x) ?_)
  · apply Finset.sum_congr rfl
    intro e _
    split_ifs with hc
    · unfold kwv
      rw [sum_Gm_lane, hterm e h hc]
      simp only [take_of_inRange _ _ _ (hsrc e)]
    · rfl
  · apply Finset.sum_congr rfl
    intro e _
    split_ifs with hc
    · exact hterm e h hc
    · rfl

end Cert.Spec

end
-- ==== Proof.KValue.lean ====
/-
  The tiled program's result, read at an index. After the edge kernel the host adds the weighted-value rows and the
  score rows into zero arrays at the destination words, regroups the 128 lanes as 8 heads of 16, and divides. With
  the edge kernel's outputs read as kwv and ksc of the taken rows this is kout of Spec.lean, which is out when every
  source word is a valid index.
-/
import proofs.«420706_j65360812310777_1_alg».proof.Proof.KHostB
import proofs.«420706_j65360812310777_1_alg».proof.Proof.Reg2
import proofs.«420706_j65360812310777_1_alg».proof.Proof.SpecLaws
import proofs.«420706_j65360812310777_1_alg».proof.Proof.LibRows
import Idealize.ShloMosaic.Lib.StableHlo.Run
import Idealize.ShloMosaic.Lib.Pipeline.Value
import Idealize.ShloMosaic.Lib.ValueIdx

set_option maxRecDepth 16384

noncomputable section

open scoped BigOperators

namespace Cert.KernelIdeal.KHost

open Cert.KernelIdeal Cert.KernelIdeal.Gen
open Idealize.ShloMosaic Idealize.ShloMosaic.TcCoe Idealize.ShloMosaic.ValueIdx Idealize.ShloMosaic.StableHlo

variable (m : (ℓ : Loc nD τ sig) → Buf (Elt Ideal) ℓ) (ρ : Dev nD → PrngReg)

theorem W9_arg3 (c : Dev nD) : W9 m ρ c (Proc.devRef .tc main_arg3) = a3 m c := by
  rw [W9_of_ne m ρ c main_arg3 (by decide)]; exact W8_dst m ρ c

/-- The edge kernel's two outputs, at their literal types. -/
abbrev wvW9 (c : Dev nD) : FVec Ideal S800000x128 .f32 := W9 m ρ c (Proc.devRef .tc main_v11_0)
abbrev scW9 (c : Dev nD) : FVec Ideal S800000x8 .f32 := W9 m ρ c (Proc.devRef .tc main_v11_1)

/-- The taken key, query and value rows, by coordinates. -/
def KeS (c : Dev nD) : Fin 800000 → Fin 128 → EReal := fun e j => Spec.take (Kp m c) (a2 m c (ix1 e)) j
def QeS (c : Dev nD) : Fin 800000 → Fin 128 → EReal := fun e j => Spec.take (Qp m c) (a3 m c (ix1 e)) j
def VeS (c : Dev nD) : Fin 800000 → Fin 128 → EReal := fun e j => Spec.take (Vp m c) (a2 m c (ix1 e)) j

theorem Ke_fun (c : Dev nD) : Reg2.Ke (V8 m ρ) c = KeS m c := funext fun e => funext fun j => Ke_W8 m ρ c e j
theorem Qe_fun (c : Dev nD) : Reg2.Qe (V8 m ρ) c = QeS m c := funext fun e => funext fun j => Qe_W8 m ρ c e j
theorem Ve_fun (c : Dev nD) : Reg2.Ve (V8 m ρ) c = VeS m c := funext fun e => funext fun j => Ve_W8 m ρ c e j

/-- The weighted values after the edge kernel. -/
theorem wv_W9 (c : Dev nD) (e : Fin 800000) (j : Fin 128) :
    wvW9 m ρ c (ix2 e j) = Spec.kwv (KeS m c) (QeS m c) (VeS m c) e j := by
  refine (congrFun (W9_arr m ρ c 4) (ix2 e j)).trans ?_
  refine (Reg2.final_wv (V8 m ρ) c (G_W8 m ρ c) e j).trans ?_
  rw [Ke_fun, Qe_fun, Ve_fun]

/-- The scores after the edge kernel. -/
theorem sc_W9 (c : Dev nD) (e : Fin 800000) (h : Fin 8) :
    scW9 m ρ c (ix2 e h) = Spec.ksc (KeS m c) (QeS m c) e h := by
  refine (congrFun (W9_arr m ρ c 5) (ix2 e h)).trans ?_
  refine (Reg2.final_score (V8 m ρ) c (G_W8 m ρ c) e h).trans ?_
  rw [Ke_fun, Qe_fun]

/-! ## The host tail -/

/-- The weighted-value rows added into zeros at the destination words, lanes regrouped as heads. -/
def numer (dst : IVec S800000 32) (wv : FVec Ideal S800000x128 .f32) : FVec Ideal S50000x8x16 .f32 :=
  shapeCast S50000x8x16
    (Host.scatterAdd scatter_S50000x128_S800000x1_S800000x128_1_0_0_1
      (broadcastInDim S50000x128 ![] bcast_S_S50000x128 (constant S_ .f32 0x00000000#32))
      (broadcastInDim S800000x1 ![0] bcast_S800000_S800000x1_0 dst) wv)
    shapeCasts_S50000x128_S50000x8x16

/-- The score rows added into zeros at the destination words, spread over the sixteen lanes. -/
def denom (dst : IVec S800000 32) (sc : FVec Ideal S800000x8 .f32) : FVec Ideal S50000x8x16 .f32 :=
  broadcastInDim S50000x8x16 ![0, 1, 2] bcast_S50000x8x1_S50000x8x16_0_1_2
    (shapeCast S50000x8x1
      (Host.scatterAdd scatter_S50000x8_S800000x1_S800000x8_1_0_0_1
        (broadcastInDim S50000x8 ![] bcast_S_S50000x8 (constant S_ .f32 0x00000000#32))
        (broadcastInDim S800000x1 ![0] bcast_S800000_S800000x1_0 dst) sc)
      shapeCasts_S50000x8_S50000x8x1)

/-- The host operations after the edge kernel as one function of the destination words and the kernel's two
    outputs: the quotient of the two sums. -/
def tailFn (dst : IVec S800000 32) (wv : FVec Ideal S800000x128 .f32) (sc : FVec Ideal S800000x8 .f32) :
    FVec Ideal S50000x8x16 .f32 :=
  Host.divf (numer dst wv) (denom dst sc)

/-- The destination column holds the destination words. -/
theorem dstCol_apply (dst : IVec S800000 32) (p : Fin 800000) :
    broadcastInDim S800000x1 ![0] bcast_S800000_S800000x1_0 dst (ix2 p (0 : Fin 1)) = dst (ix1 p) :=
  broadcastInDim_apply _ bcast_S800000_S800000x1_0 dst (ix2 p (0 : Fin 1)) (ix1 p) (fun a => by
    match a with
    | ⟨0, _⟩ => rfl)

/-- The program's 128-column scatter-add read at (n, j). -/
theorem scatter128_read (x : FVec Ideal S50000x128 .f32) (idx : IVec S800000x1 32) (upd : FVec Ideal S800000x128 .f32)
    (n : Fin 50000) (j : Fin 128) :
    Host.scatterAdd (F := Ideal) (φ := .f32) scatter_S50000x128_S800000x1_S800000x128_1_0_0_1 x idx upd (ix2 n j)
      = x (ix2 n j) + ∑ p : Fin 800000, if (idx (ix2 p (0 : Fin 1))).toInt = (n.val : Int) then upd (ix2 p j) else 0 :=
  Cert.LibRows.rowScatterAdd_apply (n := 50000) (e := 800000) (c := 128) (w := 32)
    Facts₀.scatter_S50000x128_S800000x1_S800000x128_1_0_0_1_wf x idx upd n j

/-- The program's 8-column scatter-add read at (n, h). -/
theorem scatter8_read (x : FVec Ideal S50000x8 .f32) (idx : IVec S800000x1 32) (upd : FVec Ideal S800000x8 .f32)
    (n : Fin 50000) (h : Fin 8) :
    Host.scatterAdd (F := Ideal) (φ := .f32) scatter_S50000x8_S800000x1_S800000x8_1_0_0_1 x idx upd (ix2 n h)
      = x (ix2 n h) + ∑ p : Fin 800000, if (idx (ix2 p (0 : Fin 1))).toInt = (n.val : Int) then upd (ix2 p h) else 0 :=
  Cert.LibRows.rowScatterAdd_apply (n := 50000) (e := 800000) (c := 8) (w := 32)
    Facts₀.scatter_S50000x8_S800000x1_S800000x8_1_0_0_1_wf x idx upd n h

/-- The numerator at (n, h, d): the sum over the edges whose destination word is n of the weighted value at the
    head's lane. -/
theorem numer_apply (dst : IVec S800000 32) (wv : FVec Ideal S800000x128 .f32) (n : Fin 50000) (h : Fin 8) (d : Fin 16) :
    numer dst wv (ix3 n h d)
      = 0 + ∑ e : Fin 800000, if (dst (ix1 e)).toInt = (n.val : Int) then wv (ix2 e (Spec.lane h d)) else 0 := by
  unfold numer
  refine (shapeCast_apply _ shapeCasts_S50000x128_S50000x8x16 (ix3 n h d) (ix2 n (Spec.lane h d)) (by
    rw [Shape.rowMajor_val_two, Shape.rowMajor_val_three]
    show n.val * 128 + (16 * h.val + d.val) = (n.val * 8 + h.val) * 16 + d.val
    omega)).trans ?_
  rw [scatter128_read]
  refine congrArg₂ (fun a b : EReal => a + b) ?_ ?_
  · exact Ideal.ofBits_zero_f32
  · exact Finset.sum_congr rfl fun e _ => by rw [dstCol_apply]

/-- The denominator at (n, h, d): the sum over the edges whose destination word is n of the score at the head. -/
theorem denom_apply (dst : IVec S800000 32) (sc : FVec Ideal S800000x8 .f32) (n : Fin 50000) (h : Fin 8) (d : Fin 16) :
    denom dst sc (ix3 n h d)
      = 0 + ∑ e : Fin 800000, if (dst (ix1 e)).toInt = (n.val : Int) then sc (ix2 e h) else 0 := by
  unfold denom
  refine (broadcastInDim_apply _ bcast_S50000x8x1_S50000x8x16_0_1_2 _ (ix3 n h d) (ix3 n h (0 : Fin 1)) (fun a => by
    match a with
    | ⟨0, _⟩ => rfl
    | ⟨1, _⟩ => rfl
    | ⟨2, _⟩ => rfl)).trans ?_
  refine (shapeCast_apply _ shapeCasts_S50000x8_S50000x8x1 (ix3 n h (0 : Fin 1)) (ix2 n h) (by
    rw [Shape.rowMajor_val_two, Shape.rowMajor_val_three]
    show n.val * 8 + h.val = (n.val * 8 + h.val) * 1 + 0
    omega)).trans ?_
  rw [scatter8_read]
  refine congrArg₂ (fun a b : EReal => a + b) ?_ ?_
  · exact Ideal.ofBits_zero_f32
  · exact Finset.sum_congr rfl fun e _ => by rw [dstCol_apply]

/-- The host's quotient read at an index. -/
theorem hostDivf_read {s : Shape} (a b : FVec Ideal s .f32) (i : s.Idx) : Host.divf a b i = Ideal.div (a i) (b i) := rfl

/-- THE TAIL READ AT (n, h, d): the quotient of the two sums over the edges whose destination word is n. -/
theorem tailFn_apply (dst : IVec S800000 32) (wv : FVec Ideal S800000x128 .f32) (sc : FVec Ideal S800000x8 .f32)
    (n : Fin 50000) (h : Fin 8) (d : Fin 16) :
    tailFn dst wv sc (ix3 n h d)
      = Ideal.div (0 + ∑ e : Fin 800000, if (dst (ix1 e)).toInt = (n.val : Int) then wv (ix2 e (Spec.lane h d)) else 0)
          (0 + ∑ e : Fin 800000, if (dst (ix1 e)).toInt = (n.val : Int) then sc (ix2 e h) else 0) := by
  unfold tailFn
  rw [hostDivf_read, numer_apply, denom_apply]

set_option maxHeartbeats 4000000 in
/-- The result buffer after the tail. -/
theorem W10_v21 (c : Dev nD) :
    W10 m ρ c (Proc.devRef .tc main_v21) = tailFn (a3 m c) (wvW9 m ρ c) (scW9 m ρ c) := by
  have h3 := W9_arg3 m ρ c
  show StableHlo.after hostOps3 (W9 m ρ c) (Proc.devRef .tc main_v21) = _
  unfold wvW9 scW9
  rw [← h3]
  generalize W9 m ρ c = W
  dsimp only [hostOps3]; after_results_simp
  unfold tailFn numer denom
  rfl

/-- The result array, at its literal type. -/
abbrev resW10 (c : Dev nD) : FVec Ideal S50000x8x16 .f32 := W10 m ρ c (Proc.devRef .tc main_v21)

/-- THE TILED PROGRAM'S RESULT at (n, h, d) is out of the projections, when every source word is a valid index. -/
theorem value (c : Dev nD) (hsrc : ∀ e : Fin 800000, Spec.inRange (a2 m c (ix1 e))) (n : Fin 50000) (h : Fin 8) (d : Fin 16) :
    resW10 m ρ c (ix3 n h d)
      = Spec.out (Kp m c) (Qp m c) (Vp m c) (fun e => a2 m c (ix1 e)) (fun e => a3 m c (ix1 e)) n h d := by
  show (W10 m ρ c (Proc.devRef .tc main_v21) : FVec Ideal S50000x8x16 .f32) (ix3 n h d) = _
  rw [W10_v21, tailFn_apply]
  refine Eq.trans ?_ (Spec.kout_eq_out (Kp m c) (Qp m c) (Vp m c) (fun e => a2 m c (ix1 e)) (fun e => a3 m c (ix1 e)) hsrc n h d)
  unfold Spec.kout
  refine congrArg₂ Ideal.div ?_ ?_
  · refine congrArg (fun b : EReal => 0 + b) ?_
    exact Finset.sum_congr rfl fun e _ => by rw [wv_W9]; rfl
  · refine congrArg (fun b : EReal => 0 + b) ?_
    exact Finset.sum_congr rfl fun e _ => by rw [sc_W9]; rfl

end Cert.KernelIdeal.KHost

end
-- ==== Proof.LibRows3.lean ====
/-
  Rows of a rank-3 array taken at an index vector, and rows added into a rank-3 array at an index vector, read at
  one index.

  Two host operations over an operand of shape [n, a, b], a column of integer words of shape [e, 1], and an array
  of shape [e, a, b]:

  • the gather with offset axes [1, 2], collapsed slice axis 0, start index map [0], index vector axis 1 and slice
    sizes [1, a, b] — what x[src] of a rank-3 x at an index vector src lowers to. Its element (p, q, r) is the
    operand's element (k, q, r), where k is the word idx[p, 0] read as a signed integer and clamped into
    [0, n − 1] (rowGather3_apply);

  • the scatter with update window axes [1, 2], inserted window axis 0, scatter-dims-to-operand-dims [0] and index
    vector axis 1, whose body adds — what segment_sum of a rank-3 array lowers to. Over the extended reals the
    result's element (r, q, s) is the operand's plus the sum, over all p, of upd[p, q, s] where idx[p, 0] = r
    (read signed, not clamped) and of 0 elsewhere (rowScatterAdd3_apply).

  Everything is symbolic in the extents and the word width; no index set is enumerated.
-/
import Idealize.ShloMosaic.PureOps.Ideal
import Idealize.ShloMosaic.Lib.ValueIdx

noncomputable section

open scoped BigOperators

namespace Cert.LibRows3

open Idealize.ShloMosaic Idealize.ShloMosaic.ValueIdx

section RowGather3
variable {α : Type}

/-- The dimension numbers of "rows of an [n, a, b] operand at an [e, 1] column of start indices". -/
abbrev rowGatherDims3 (n e a b : Nat)
    (wf : GatherDims.WF ⟨3, ![n, a, b]⟩ ⟨2, ![e, 1]⟩ ⟨3, ![e, a, b]⟩ [1, 2] [0] [] [0] [] 1 ![1, a, b]) :
    GatherDims ⟨3, ![n, a, b]⟩ ⟨2, ![e, 1]⟩ ⟨3, ![e, a, b]⟩ where
  offsetDims := [1, 2]
  collapsedSliceDims := [0]
  operandBatchingDims := []
  startIndicesBatchingDims := []
  startIndexMap := [0]
  indexVectorDim := 1
  sliceSizes := ![1, a, b]
  wf := wf

/-- THE RANK-3 ROW GATHER READ AT (p, q, r): the operand at row idx[p, 0] — read signed and clamped into
    [0, n − 1] — and the same (q, r). -/
theorem rowGather3_apply {n e a b w : Nat} (hn : 0 < n)
    (wf : GatherDims.WF ⟨3, ![n, a, b]⟩ ⟨2, ![e, 1]⟩ ⟨3, ![e, a, b]⟩ [1, 2] [0] [] [0] [] 1 ![1, a, b])
    (x : (⟨3, ![n, a, b]⟩ : Shape).Idx → α) (idx : IVec ⟨2, ![e, 1]⟩ w) (p : Fin e) (q : Fin a) (r : Fin b) :
    Host.gather (rowGatherDims3 n e a b wf) x idx (ix3 p q r)
      = x (ix3 ⟨min (idx (ix2 p (0 : Fin 1))).toInt.toNat (n - 1), by omega⟩ q r) := by
  unfold Host.gather
  congr 1
  funext c
  refine Fin.ext ?_
  match c with
  | ⟨0, _⟩ =>
    -- the row axis: collapsed (no offset), not batching, named by the start index map
    show (rowGatherDims3 n e a b wf).start (ix3 p q r) idx 0 + (rowGatherDims3 n e a b wf).batchCoord (ix3 p q r) 0
        + (rowGatherDims3 n e a b wf).offCoord (ix3 p q r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ (rowGatherDims3 n e a b wf).startIndexMap from List.mem_singleton.mpr rfl)]
    have hsi : (rowGatherDims3 n e a b wf).siIdx (ix3 p q r) ⟨List.idxOf (0 : Fin 3) (rowGatherDims3 n e a b wf).startIndexMap,
        List.idxOf_lt_length_iff.2 (List.mem_singleton.mpr rfl)⟩ = ix2 p (0 : Fin 1) := by
      funext d; refine Fin.ext ?_
      match d with
      | ⟨0, _⟩ => rfl
      | ⟨1, _⟩ => rfl
    rw [hsi]
    rfl
  | ⟨1, _⟩ =>
    -- the first window axis: not named by the start index map (start 0), not batching, the result's first offset axis
    show (rowGatherDims3 n e a b wf).start (ix3 p q r) idx 1 + (rowGatherDims3 n e a b wf).batchCoord (ix3 p q r) 1
        + (rowGatherDims3 n e a b wf).offCoord (ix3 p q r) 1 = _
    rw [GatherDims.batchCoord_eq_zero _ _ _ List.not_mem_nil]
    have hst : (rowGatherDims3 n e a b wf).start (ix3 p q r) idx 1 = 0 := by
      unfold GatherDims.start
      rw [dif_neg (show (1 : Fin 3) ∉ ([0] : List (Fin 3)) by decide)]
    rw [hst]
    simp only [Nat.add_zero, Nat.zero_add]
    rfl
  | ⟨2, _⟩ =>
    -- the second window axis: likewise, the result's second offset axis
    show (rowGatherDims3 n e a b wf).start (ix3 p q r) idx 2 + (rowGatherDims3 n e a b wf).batchCoord (ix3 p q r) 2
        + (rowGatherDims3 n e a b wf).offCoord (ix3 p q r) 2 = _
    rw [GatherDims.batchCoord_eq_zero _ _ _ List.not_mem_nil]
    have hst : (rowGatherDims3 n e a b wf).start (ix3 p q r) idx 2 = 0 := by
      unfold GatherDims.start
      rw [dif_neg (show (2 : Fin 3) ∉ ([0] : List (Fin 3)) by decide)]
    rw [hst]
    simp only [Nat.add_zero, Nat.zero_add]
    rfl

end RowGather3

section RowScatter3

/-- The dimension numbers of "rows of [e, a, b] updates added into an [n, a, b] operand at an [e, 1] column of
    scatter indices". -/
abbrev rowScatterDims3 (n e a b : Nat)
    (wf : ScatterDims.WF ⟨3, ![n, a, b]⟩ ⟨2, ![e, 1]⟩ ⟨3, ![e, a, b]⟩ [1, 2] [0] [0] 1) :
    ScatterDims ⟨3, ![n, a, b]⟩ ⟨2, ![e, 1]⟩ ⟨3, ![e, a, b]⟩ where
  updateWindowDims := [1, 2]
  insertedWindowDims := [0]
  scatterDimsToOperandDims := [0]
  indexVectorDim := 1
  wf := wf

/-- An axis is kept by a list of axes exactly when it is not in the list. -/
theorem mem_kept3 {s : Shape} (axes : List (Fin s.rank)) (c : Fin s.rank) : c ∈ s.kept axes ↔ c ∉ axes := by
  simp [Shape.kept, List.mem_filter, List.mem_finRange]

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : Nat} (f : (⟨3, ![n0, n1, n2]⟩ : Shape).Idx → M) :
    ∑ i, f i = ∑ c0 : Fin n0, ∑ c1 : Fin n1, ∑ c2 : Fin n2, f (ix3 c0 c1 c2) := by
  rw [← Equiv.sum_comp (idxEquiv3 (n0 := n0) (n1 := n1) (n2 := n2)).symm f, Fintype.sum_prod_type]
  refine Finset.sum_congr rfl fun c0 _ => ?_
  rw [Fintype.sum_prod_type]
  rfl

variable {n e a b w : Nat} (wf : ScatterDims.WF ⟨3, ![n, a, b]⟩ ⟨2, ![e, 1]⟩ ⟨3, ![e, a, b]⟩ [1, 2] [0] [0] 1)

/-- On the row axis the window of update (p, q, s) starts at the word idx[p, 0], read signed … -/
theorem rowScatter3_start_row (idx : IVec ⟨2, ![e, 1]⟩ w) (p : Fin e) (q : Fin a) (s : Fin b) :
    (rowScatterDims3 n e a b wf).start (ix3 p q s) idx 0 = (idx (ix2 p (0 : Fin 1))).toInt := by
  unfold ScatterDims.start
  rw [dif_pos (show (0 : Fin 3) ∈ ([0] : List (Fin 3)) from List.mem_singleton.mpr rfl)]
  have hsi : (rowScatterDims3 n e a b wf).siIdx (ix3 p q s) ⟨List.idxOf (0 : Fin 3) (rowScatterDims3 n e a b wf).scatterDimsToOperandDims,
      List.idxOf_lt_length_iff.2 (List.mem_singleton.mpr rfl)⟩ = ix2 p (0 : Fin 1) := by
    funext d; refine Fin.ext ?_
    match d with
    | ⟨0, _⟩ => rfl
    | ⟨1, _⟩ => rfl
  rw [hsi]

/-- … and on the two window axes, which no scatter index names, at 0. -/
theorem rowScatter3_start_one (idx : IVec ⟨2, ![e, 1]⟩ w) (p : Fin e) (q : Fin a) (s : Fin b) :
    (rowScatterDims3 n e a b wf).start (ix3 p q s) idx 1 = 0 := by
  unfold ScatterDims.start
  rw [dif_neg (show (1 : Fin 3) ∉ ([0] : List (Fin 3)) by decide)]

theorem rowScatter3_start_two (idx : IVec ⟨2, ![e, 1]⟩ w) (p : Fin e) (q : Fin a) (s : Fin b) :
    (rowScatterDims3 n e a b wf).start (ix3 p q s) idx 2 = 0 := by
  unfold ScatterDims.start
  rw [dif_neg (show (2 : Fin 3) ∉ ([0] : List (Fin 3)) by decide)]

/-- The row axis is inserted: no window coordinate. -/
theorem rowScatter3_window_row (p : Fin e) (q : Fin a) (s : Fin b) : (rowScatterDims3 n e a b wf).window (ix3 p q s) 0 = 0 := by
  unfold ScatterDims.window
  rw [dif_neg (fun h => (mem_kept3 (s := ⟨3, ![n, a, b]⟩) [0] 0).mp h (List.mem_singleton.mpr rfl))]

/-- The first window axis carries the update's second coordinate … -/
theorem rowScatter3_window_one (p : Fin e) (q : Fin a) (s : Fin b) : (rowScatterDims3 n e a b wf).window (ix3 p q s) 1 = q.val := by
  unfold ScatterDims.window
  rw [dif_pos ((mem_kept3 (s := ⟨3, ![n, a, b]⟩) [0] 1).mpr (show (1 : Fin 3) ∉ ([0] : List (Fin 3)) by decide))]
  rfl

/-- … and the second window axis its third. -/
theorem rowScatter3_window_two (p : Fin e) (q : Fin a) (s : Fin b) : (rowScatterDims3 n e a b wf).window (ix3 p q s) 2 = s.val := by
  unfold ScatterDims.window
  rw [dif_pos ((mem_kept3 (s := ⟨3, ![n, a, b]⟩) [0] 2).mpr (show (2 : Fin 3) ∉ ([0] : List (Fin 3)) by decide))]
  rfl

/-- WHERE UPDATE (p, q, s) LANDS: on the operand's element (r, q', s') exactly when the word idx[p, 0], read
    signed, is r, and the window coordinates agree. (An index below 0 or from n on lands nowhere.) -/
theorem rowScatter3_resultIdx (idx : IVec ⟨2, ![e, 1]⟩ w) (p : Fin e) (q : Fin a) (s : Fin b) (r : Fin n)
    (q' : Fin a) (s' : Fin b) :
    (rowScatterDims3 n e a b wf).resultIdx? (ix3 p q s) idx = some (ix3 r q' s')
      ↔ ((idx (ix2 p (0 : Fin 1))).toInt = (r.val : Int) ∧ q = q' ∧ s = s') := by
  have h0 := rowScatter3_start_row wf idx p q s
  have h1 := rowScatter3_start_one wf idx p q s
  have h2 := rowScatter3_start_two wf idx p q s
  have w0 := rowScatter3_window_row wf p q s
  have w1 := rowScatter3_window_one wf p q s
  have w2 := rowScatter3_window_two wf p q s
  unfold ScatterDims.resultIdx?
  constructor
  · intro h
    split at h
    · rename_i hb
      have hf := Option.some.inj h
      have e0 := congrArg (fun f => (f 0).val) hf
      have e1 := congrArg (fun f => (f 1).val) hf
      have e2 := congrArg (fun f => (f 2).val) hf
      have b0 := (hb 0).1
      simp only [h0, w0, h1, w1, h2, w2] at e0 e1 e2 b0
      change ((idx (ix2 p (0 : Fin 1))).toInt + ((0 : Nat) : Int)).toNat = r.val at e0
      change ((0 : Int) + (q.val : Int)).toNat = q'.val at e1
      change ((0 : Int) + (s.val : Int)).toNat = s'.val at e2
      refine ⟨by omega, Fin.ext (by omega), Fin.ext (by omega)⟩
    · exact absurd h (by simp)
  · rintro ⟨hr, rfl, rfl⟩
    have hb : ∀ c, 0 ≤ (rowScatterDims3 n e a b wf).start (ix3 p q s) idx c + ((rowScatterDims3 n e a b wf).window (ix3 p q s) c : Int)
        ∧ (rowScatterDims3 n e a b wf).start (ix3 p q s) idx c + ((rowScatterDims3 n e a b wf).window (ix3 p q s) c : Int)
          < ((⟨3, ![n, a, b]⟩ : Shape).size c : Int) := by
      intro c
      match c with
      | ⟨0, _⟩ =>
        show 0 ≤ (rowScatterDims3 n e a b wf).start (ix3 p q s) idx 0 + ((rowScatterDims3 n e a b wf).window (ix3 p q s) 0 : Int)
          ∧ (rowScatterDims3 n e a b wf).start (ix3 p q s) idx 0 + ((rowScatterDims3 n e a b wf).window (ix3 p q s) 0 : Int) < (n : Int)
        rw [h0, w0, hr]
        have := r.isLt
        omega
      | ⟨1, _⟩ =>
        show 0 ≤ (rowScatterDims3 n e a b wf).start (ix3 p q s) idx 1 + ((rowScatterDims3 n e a b wf).window (ix3 p q s) 1 : Int)
          ∧ (rowScatterDims3 n e a b wf).start (ix3 p q s) idx 1 + ((rowScatterDims3 n e a b wf).window (ix3 p q s) 1 : Int) < (a : Int)
        rw [h1, w1]
        have := q.isLt
        omega
      | ⟨2, _⟩ =>
        show 0 ≤ (rowScatterDims3 n e a b wf).start (ix3 p q s) idx 2 + ((rowScatterDims3 n e a b wf).window (ix3 p q s) 2 : Int)
          ∧ (rowScatterDims3 n e a b wf).start (ix3 p q s) idx 2 + ((rowScatterDims3 n e a b wf).window (ix3 p q s) 2 : Int) < (b : Int)
        rw [h2, w2]
        have := s.isLt
        omega
    rw [dif_pos hb]
    congr 1
    funext c
    refine Fin.ext ?_
    match c with
    | ⟨0, _⟩ =>
      show ((rowScatterDims3 n e a b wf).start (ix3 p q s) idx 0 + ((rowScatterDims3 n e a b wf).window (ix3 p q s) 0 : Int)).toNat = r.val
      rw [h0, w0, hr]; omega
    | ⟨1, _⟩ =>
      show ((rowScatterDims3 n e a b wf).start (ix3 p q s) idx 1 + ((rowScatterDims3 n e a b wf).window (ix3 p q s) 1 : Int)).toNat = q.val
      rw [h1, w1]; omega
    | ⟨2, _⟩ =>
      show ((rowScatterDims3 n e a b wf).start (ix3 p q s) idx 2 + ((rowScatterDims3 n e a b wf).window (ix3 p q s) 2 : Int)).toNat = s.val
      rw [h2, w2]; omega

/-- THE RANK-3 ROW SCATTER-ADD READ AT (r, q, s), over the extended reals: the operand's element plus the sum over
    all update rows p of upd[p, q, s] where idx[p, 0] = r (read signed), of 0 elsewhere. -/
theorem rowScatterAdd3_apply (x : (⟨3, ![n, a, b]⟩ : Shape).Idx → EReal) (idx : IVec ⟨2, ![e, 1]⟩ w)
    (upd : (⟨3, ![e, a, b]⟩ : Shape).Idx → EReal) (r : Fin n) (q : Fin a) (s : Fin b) :
    Host.scatterAdd (F := Ideal) (φ := .f32) (rowScatterDims3 n e a b wf) x idx upd (ix3 r q s)
      = x (ix3 r q s) + ∑ p : Fin e, if (idx (ix2 p (0 : Fin 1))).toInt = (r.val : Int) then upd (ix3 p q s) else 0 := by
  show x (ix3 r q s) + ∑ j ∈ Finset.univ.filter (fun j => (rowScatterDims3 n e a b wf).resultIdx? j idx = some (ix3 r q s)), upd j = _
  congr 1
  rw [Finset.sum_filter, sum_idx3]
  refine Finset.sum_congr rfl fun p _ => ?_
  simp only [rowScatter3_resultIdx]
  by_cases hp : (idx (ix2 p (0 : Fin 1))).toInt = (r.val : Int)
  · simp only [hp, true_and, if_true]
    rw [Finset.sum_eq_single q (fun c1 _ hc => ?_) (fun h => absurd (Finset.mem_univ _) h)]
    · rw [Finset.sum_eq_single s (fun c2 _ hc => ?_) (fun h => absurd (Finset.mem_univ _) h)]
      · simp
      · simp [hc]
    · simp [hc]
  · simp only [hp, false_and, if_false, Finset.sum_const_zero]

end RowScatter3

end Cert.LibRows3

end
-- ==== Proof.RefValue.lean ====
/-
  The reference program's result, read at an index: the aggregated attention output of Spec.lean (out) over the
  three projections of the argument arrays.
-/
import proofs.«420706_j65360812310777_1_alg».proof.Proof.Gen.ReferenceIdeal.Run
import proofs.«420706_j65360812310777_1_alg».proof.Proof.Gen.ReferenceIdeal.Read
import proofs.«420706_j65360812310777_1_alg».proof.Proof.Spec
import proofs.«420706_j65360812310777_1_alg».proof.Proof.LibRows3
import Idealize.ShloMosaic.Lib.ValueIdx
import Idealize.ShloMosaic.PureOps.Ideal.Laws

set_option maxRecDepth 16384

noncomputable section

open scoped BigOperators

namespace Cert.ReferenceIdeal.RefValue

open Cert.ReferenceIdeal Cert.ReferenceIdeal.Gen
open Idealize.ShloMosaic Idealize.ShloMosaic.TcCoe Idealize.ShloMosaic.ValueIdx

/-- The flat feature index of (n, h, d) is row n, lane 16·h + d. -/
theorem idx_lane (n : Fin 50000) (h : Fin 8) (d : Fin 16) :
    Read.idx_main_v4 (ix3 n h d) = ix2 n (Spec.lane h d) := by
  funext a; refine Fin.ext ?_
  match a with
  | ⟨0, _⟩ => show ((n.val * 8 + h.val) * 16 + d.val) / 128 = n.val; omega
  | ⟨1, _⟩ => show ((n.val * 8 + h.val) * 16 + d.val) % 128 = 16 * h.val + d.val; omega

theorem lidx_eq (n : Fin 50000) (j k : Fin 128) : Read.lidx_main_v0 (ix2 n j) k = ix2 n k :=
  funext fun a => Fin.ext (by match a with | ⟨0, _⟩ => rfl | ⟨1, _⟩ => rfl)

theorem ridx_eq (n : Fin 50000) (j k : Fin 128) : Read.ridx_main_v0 (ix2 n j) k = ix2 k j :=
  funext fun a => Fin.ext (by match a with | ⟨0, _⟩ => rfl | ⟨1, _⟩ => rfl)

theorem bias_idx_eq (n : Fin 50000) (j : Fin 128) : Read.idx_main_v1 (Read.idx_main_v2 (ix2 n j)) = ix1 j :=
  funext fun a => Fin.ext (by match a with | ⟨0, _⟩ => rfl)

/-- A projected feature array read at (n, h, d). -/
theorem v4_lin (x1 : (⟨S50000x128, .f32⟩ : BufTy).Contents (Elt Ideal)) (x4 : (⟨S128x128, .f32⟩ : BufTy).Contents (Elt Ideal))
    (x5 : (⟨S128, .f32⟩ : BufTy).Contents (Elt Ideal)) (n : Fin 50000) (h : Fin 8) (d : Fin 16) :
    Read.val_main_v4 (F := Ideal) x1 x4 x5 (ix3 n h d)
      = Spec.lin (fun a k => x1 (ix2 a k)) (fun k j => x4 (ix2 k j)) (fun j => x5 (ix1 j)) n (Spec.lane h d) := by
  rw [Read.val_main_v4_apply, idx_lane, Read.val_main_v3_apply, Read.val_main_v0_apply, Read.val_main_v2_apply,
    Read.val_main_v1_apply, bias_idx_eq]
  simp only [lidx_eq, ridx_eq, Ideal.addf_def]
  rfl

theorem v9_eq_v4 (x0 : (⟨S50000x128, .f32⟩ : BufTy).Contents (Elt Ideal)) (x6 : (⟨S128x128, .f32⟩ : BufTy).Contents (Elt Ideal))
    (x7 : (⟨S128, .f32⟩ : BufTy).Contents (Elt Ideal)) :
    Read.val_main_v9 (F := Ideal) x0 x6 x7 = Read.val_main_v4 (F := Ideal) x0 x6 x7 := rfl

theorem v14_eq_v4 (x0 : (⟨S50000x128, .f32⟩ : BufTy).Contents (Elt Ideal)) (x8 : (⟨S128x128, .f32⟩ : BufTy).Contents (Elt Ideal))
    (x9 : (⟨S128, .f32⟩ : BufTy).Contents (Elt Ideal)) :
    Read.val_main_v14 (F := Ideal) x0 x8 x9 = Read.val_main_v4 (F := Ideal) x0 x8 x9 := rfl

theorem col_idx_eq (p : Fin 800000) : Read.idx_main_v20 (ix2 p (0 : Fin 1)) = ix1 p :=
  funext fun a => Fin.ext (by match a with | ⟨0, _⟩ => rfl)

/-- The index column of a gather holds the normalised words. -/
theorem v20_wrap (x2 : (⟨S800000, .i32⟩ : BufTy).Contents (Elt Ideal)) (p : Fin 800000) :
    Read.val_main_v20 (F := Ideal) x2 (ix2 p (0 : Fin 1)) = Spec.wrap (x2 (ix1 p)) := by
  rw [Read.val_main_v20_apply, col_idx_eq, Read.val_main_v19_apply, Read.val_main_v16_apply, Read.val_main_v18_apply,
    Read.val_main_v15_apply, Read.val_main_v17_apply, Read.val_main_c_apply, Read.val_main_c_0_apply]
  rfl

theorem v27_eq_v20 (x3 : (⟨S800000, .i32⟩ : BufTy).Contents (Elt Ideal)) :
    Read.val_main_v27 (F := Ideal) x3 = Read.val_main_v20 (F := Ideal) x3 := rfl

theorem v41_eq_v20 (x2 : (⟨S800000, .i32⟩ : BufTy).Contents (Elt Ideal)) :
    Read.val_main_v41 (F := Ideal) x2 = Read.val_main_v20 (F := Ideal) x2 := rfl

/-- A word read signed and clamped into the table. -/
def clampRow (w : BitVec 32) : Fin 50000 := ⟨min w.toInt.toNat 49999, by omega⟩

theorem row_eq (i : BitVec 32) : Spec.row i = clampRow (Spec.wrap i) := rfl

/-- The row gather of the program read at (p, h, d): the table's row at the clamped signed word. -/
theorem gather_read (x : (⟨S50000x8x16, .f32⟩ : BufTy).Contents (Elt Ideal)) (idx : (⟨S800000x1, .i32⟩ : BufTy).Contents (Elt Ideal))
    (p : Fin 800000) (h : Fin 8) (d : Fin 16) :
    Host.gather gather_S50000x8x16_S800000x1_S800000x8x16_12_0_n_n_0_1_1816 x idx (ix3 p h d)
      = x (ix3 (clampRow (idx (ix2 p (0 : Fin 1)))) h d) :=
  Cert.LibRows3.rowGather3_apply (n := 50000) (e := 800000) (a := 8) (b := 16) (w := 32) (by decide)
    Facts₀.gather_S50000x8x16_S800000x1_S800000x8x16_12_0_n_n_0_1_1816_wf x idx p h d

/-- Keys gathered at the source words. -/
theorem v21_read (x0 : (⟨S50000x128, .f32⟩ : BufTy).Contents (Elt Ideal)) (x2 : (⟨S800000, .i32⟩ : BufTy).Contents (Elt Ideal))
    (x6 : (⟨S128x128, .f32⟩ : BufTy).Contents (Elt Ideal)) (x7 : (⟨S128, .f32⟩ : BufTy).Contents (Elt Ideal))
    (p : Fin 800000) (h : Fin 8) (d : Fin 16) :
    Read.val_main_v21 (F := Ideal) x0 x2 x6 x7 (ix3 p h d)
      = Spec.lin (fun a k => x0 (ix2 a k)) (fun k j => x6 (ix2 k j)) (fun j => x7 (ix1 j)) (Spec.row (x2 (ix1 p))) (Spec.lane h d) := by
  unfold Read.val_main_v21
  rw [gather_read, v20_wrap, v9_eq_v4, row_eq]
  exact v4_lin x0 x6 x7 _ h d

/-- Queries gathered at the destination words. -/
theorem v28_read (x1 : (⟨S50000x128, .f32⟩ : BufTy).Contents (Elt Ideal)) (x3 : (⟨S800000, .i32⟩ : BufTy).Contents (Elt Ideal))
    (x4 : (⟨S128x128, .f32⟩ : BufTy).Contents (Elt Ideal)) (x5 : (⟨S128, .f32⟩ : BufTy).Contents (Elt Ideal))
    (p : Fin 800000) (h : Fin 8) (d : Fin 16) :
    Read.val_main_v28 (F := Ideal) x1 x3 x4 x5 (ix3 p h d)
      = (Spec.lin (fun a k => x1 (ix2 a k)) (fun k j => x4 (ix2 k j)) (fun j => x5 (ix1 j))) (Spec.row (x3 (ix1 p))) (Spec.lane h d) := by
  unfold Read.val_main_v28
  rw [gather_read, v27_eq_v20, v20_wrap, row_eq]
  exact v4_lin x1 x4 x5 _ h d

/-- Values gathered at the source words. -/
theorem v42_read (x0 : (⟨S50000x128, .f32⟩ : BufTy).Contents (Elt Ideal)) (x2 : (⟨S800000, .i32⟩ : BufTy).Contents (Elt Ideal))
    (x8 : (⟨S128x128, .f32⟩ : BufTy).Contents (Elt Ideal)) (x9 : (⟨S128, .f32⟩ : BufTy).Contents (Elt Ideal))
    (p : Fin 800000) (h : Fin 8) (d : Fin 16) :
    Read.val_main_v42 (F := Ideal) x0 x2 x8 x9 (ix3 p h d)
      = (Spec.lin (fun a k => x0 (ix2 a k)) (fun k j => x8 (ix2 k j)) (fun j => x9 (ix1 j))) (Spec.row (x2 (ix1 p))) (Spec.lane h d) := by
  unfold Read.val_main_v42
  rw [gather_read, v41_eq_v20, v20_wrap, v14_eq_v4, row_eq]
  exact v4_lin x0 x8 x9 _ h d

theorem idx31_eq (p : Fin 800000) (h : Fin 8) : Read.idx_main_v31 (ix3 p h (0 : Fin 1)) = ix2 p h :=
  funext fun a => Fin.ext (by match a with | ⟨0, _⟩ => rfl | ⟨1, _⟩ => rfl)

theorem idx30_eq (p : Fin 800000) (h : Fin 8) (k : Fin 16) : Read.idx_main_v30 (ix2 p h) k = ix3 p h k :=
  funext fun a => Fin.ext (by match a with | ⟨0, _⟩ => rfl | ⟨1, _⟩ => rfl | ⟨2, _⟩ => rfl)

/-- The exponentiated, clipped, quartered head product of an edge is its score. -/
theorem v35_score (x0 x1 : (⟨S50000x128, .f32⟩ : BufTy).Contents (Elt Ideal)) (x2 x3 : (⟨S800000, .i32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (p : Fin 800000) (h : Fin 8) :
    Read.val_main_v35 (F := Ideal) x0 x1 x2 x3 x4 x5 x6 x7 (ix3 p h (0 : Fin 1))
      = Spec.score (Spec.lin (fun a k => x0 (ix2 a k)) (fun k j => x6 (ix2 k j)) (fun j => x7 (ix1 j))) (Spec.lin (fun a k => x1 (ix2 a k)) (fun k j => x4 (ix2 k j)) (fun j => x5 (ix1 j))) (x2 (ix1 p)) (x3 (ix1 p)) h := by
  rw [Read.val_main_v35_apply, Read.val_main_v34_apply, Read.val_main_call0_v4_apply, Read.val_main_call0_v3_apply,
    Read.val_main_cst_5_apply, Read.val_main_call0_v2_apply, Read.val_main_call0_v1_apply, Read.val_main_call0_v0_apply,
    Read.val_main_cst_4_apply, Read.val_main_v33_apply, Read.val_main_v32_apply, Read.val_main_cst_3_apply,
    Read.val_main_v31_apply, idx31_eq, Read.val_main_v30_apply, Read.val_main_cst_apply]
  simp only [idx30_eq, Read.val_main_v29_apply, v21_read, v28_read, Ideal.ofBits_def, Ideal.mulf_def, Ideal.hostDivf_def,
    Ideal.maximumf_def, Ideal.minimumf_def, Ideal.hostUnary_exp_def, Ideal.ofBits_zero_f32]
  rfl

/-- The lane scatter-add of the program read at (r, h, d). -/
theorem scatter16_read (x : (⟨S50000x8x16, .f32⟩ : BufTy).Contents (Elt Ideal)) (idx : (⟨S800000x1, .i32⟩ : BufTy).Contents (Elt Ideal))
    (upd : (⟨S800000x8x16, .f32⟩ : BufTy).Contents (Elt Ideal)) (r : Fin 50000) (h : Fin 8) (d : Fin 16) :
    Host.scatterAdd (F := Ideal) (φ := .f32) scatter_S50000x8x16_S800000x1_S800000x8x16_12_0_0_1 x idx upd (ix3 r h d)
      = x (ix3 r h d) + ∑ p : Fin 800000, if (idx (ix2 p (0 : Fin 1))).toInt = (r.val : Int) then upd (ix3 p h d) else 0 :=
  Cert.LibRows3.rowScatterAdd3_apply (n := 50000) (e := 800000) (a := 8) (b := 16) (w := 32)
    Facts₀.scatter_S50000x8x16_S800000x1_S800000x8x16_12_0_0_1_wf x idx upd r h d

/-- The head scatter-add of the program read at (r, h, 0). -/
theorem scatter1_read (x : (⟨S50000x8x1, .f32⟩ : BufTy).Contents (Elt Ideal)) (idx : (⟨S800000x1, .i32⟩ : BufTy).Contents (Elt Ideal))
    (upd : (⟨S800000x8x1, .f32⟩ : BufTy).Contents (Elt Ideal)) (r : Fin 50000) (h : Fin 8) (d : Fin 1) :
    Host.scatterAdd (F := Ideal) (φ := .f32) scatter_S50000x8x1_S800000x1_S800000x8x1_12_0_0_1 x idx upd (ix3 r h d)
      = x (ix3 r h d) + ∑ p : Fin 800000, if (idx (ix2 p (0 : Fin 1))).toInt = (r.val : Int) then upd (ix3 p h d) else 0 :=
  Cert.LibRows3.rowScatterAdd3_apply (n := 50000) (e := 800000) (a := 8) (b := 1) (w := 32)
    Facts₀.scatter_S50000x8x1_S800000x1_S800000x8x1_12_0_0_1_wf x idx upd r h d

theorem col46_idx_eq (p : Fin 800000) : Read.idx_main_v46 (ix2 p (0 : Fin 1)) = ix1 p :=
  funext fun a => Fin.ext (by match a with | ⟨0, _⟩ => rfl)

theorem col49_idx_eq (p : Fin 800000) : Read.idx_main_v49 (ix2 p (0 : Fin 1)) = ix1 p :=
  funext fun a => Fin.ext (by match a with | ⟨0, _⟩ => rfl)

theorem idx43_eq (p : Fin 800000) (h : Fin 8) (d : Fin 16) : Read.idx_main_v43 (ix3 p h d) = ix3 p h (0 : Fin 1) :=
  funext fun a => Fin.ext (by match a with | ⟨0, _⟩ => rfl | ⟨1, _⟩ => rfl | ⟨2, _⟩ => rfl)

theorem idx51_eq (n : Fin 50000) (h : Fin 8) (d : Fin 16) : Read.idx_main_v51 (ix3 n h d) = ix3 n h (0 : Fin 1) :=
  funext fun a => Fin.ext (by match a with | ⟨0, _⟩ => rfl | ⟨1, _⟩ => rfl | ⟨2, _⟩ => rfl)

/-- The numerator: the score-weighted value rows summed over the edges whose destination word is n. -/
theorem v47_read (x0 x1 : (⟨S50000x128, .f32⟩ : BufTy).Contents (Elt Ideal)) (x2 x3 : (⟨S800000, .i32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (n : Fin 50000) (h : Fin 8) (d : Fin 16) :
    Read.val_main_v47 (F := Ideal) x0 x1 x2 x3 x4 x5 x6 x7 x8 x9 (ix3 n h d)
      = 0 + ∑ e : Fin 800000, if (x3 (ix1 e)).toInt = (n.val : Int)
          then Spec.score (Spec.lin (fun a k => x0 (ix2 a k)) (fun k j => x6 (ix2 k j)) (fun j => x7 (ix1 j))) (Spec.lin (fun a k => x1 (ix2 a k)) (fun k j => x4 (ix2 k j)) (fun j => x5 (ix1 j))) (x2 (ix1 e)) (x3 (ix1 e)) h * (Spec.lin (fun a k => x0 (ix2 a k)) (fun k j => x8 (ix2 k j)) (fun j => x9 (ix1 j))) (Spec.row (x2 (ix1 e))) (Spec.lane h d)
          else 0 := by
  unfold Read.val_main_v47
  rw [scatter16_read, Read.val_main_v45_apply, Read.val_main_cst_8_apply]
  simp only [Read.val_main_v46_apply, col46_idx_eq, Read.val_main_v44_apply, Read.val_main_v43_apply, idx43_eq, v35_score, v42_read,
    Ideal.ofBits_def, Ideal.mulf_def, Ideal.ofBits_zero_f32]

/-- The denominator: the scores summed over the same edges. -/
theorem v50_read (x0 x1 : (⟨S50000x128, .f32⟩ : BufTy).Contents (Elt Ideal)) (x2 x3 : (⟨S800000, .i32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (n : Fin 50000) (h : Fin 8) :
    Read.val_main_v50 (F := Ideal) x0 x1 x2 x3 x4 x5 x6 x7 (ix3 n h (0 : Fin 1))
      = 0 + ∑ e : Fin 800000, if (x3 (ix1 e)).toInt = (n.val : Int)
          then Spec.score (Spec.lin (fun a k => x0 (ix2 a k)) (fun k j => x6 (ix2 k j)) (fun j => x7 (ix1 j))) (Spec.lin (fun a k => x1 (ix2 a k)) (fun k j => x4 (ix2 k j)) (fun j => x5 (ix1 j))) (x2 (ix1 e)) (x3 (ix1 e)) h
          else 0 := by
  unfold Read.val_main_v50
  rw [scatter1_read, Read.val_main_v48_apply, Read.val_main_cst_9_apply]
  simp only [Read.val_main_v49_apply, col49_idx_eq, v35_score, Ideal.ofBits_def, Ideal.ofBits_zero_f32]

/-- The reference's result at (n, h, d) is out of the projected keys, queries and values. -/
theorem result_apply (x0 x1 : (⟨S50000x128, .f32⟩ : BufTy).Contents (Elt Ideal)) (x2 x3 : (⟨S800000, .i32⟩ : BufTy).Contents (Elt Ideal))
    (x4 : (⟨S128x128, .f32⟩ : BufTy).Contents (Elt Ideal)) (x5 : (⟨S128, .f32⟩ : BufTy).Contents (Elt Ideal))
    (x6 : (⟨S128x128, .f32⟩ : BufTy).Contents (Elt Ideal)) (x7 : (⟨S128, .f32⟩ : BufTy).Contents (Elt Ideal))
    (x8 : (⟨S128x128, .f32⟩ : BufTy).Contents (Elt Ideal)) (x9 : (⟨S128, .f32⟩ : BufTy).Contents (Elt Ideal))
    (n : Fin 50000) (h : Fin 8) (d : Fin 16) :
    Cert.ReferenceIdeal.Read.val_main_v52 (F := Ideal) x0 x1 x2 x3 x4 x5 x6 x7 x8 x9 (ix3 n h d)
      = Spec.out
          (Spec.lin (fun a k => x0 (ix2 a k)) (fun k j => x6 (ix2 k j)) (fun j => x7 (ix1 j)))
          (Spec.lin (fun a k => x1 (ix2 a k)) (fun k j => x4 (ix2 k j)) (fun j => x5 (ix1 j)))
          (Spec.lin (fun a k => x0 (ix2 a k)) (fun k j => x8 (ix2 k j)) (fun j => x9 (ix1 j)))
          (fun e => x2 (ix1 e)) (fun e => x3 (ix1 e)) n h d := by
  rw [Read.val_main_v52_apply, Read.val_main_v51_apply, idx51_eq, v47_read, v50_read, Ideal.hostDivf_def]
  rfl

end Cert.ReferenceIdeal.RefValue

end
-- ==== Proof.PreSrc.lean ====
/-
  What the precondition says of the source words: its last conjunct is the conjunction over all edges of
  -50000 ≤ src e and src e < 50000 (signed), so under it every source word is a valid index.
-/
import proofs.«420706_j65360812310777_1_alg».proof.Pre_finite_inputs
import proofs.«420706_j65360812310777_1_alg».proof.Proof.Gen.Pre_finite_inputs
import proofs.«420706_j65360812310777_1_alg».proof.Proof.Spec
import proofs.«420706_j65360812310777_1_alg».proof.Proof.SpecLaws
import Idealize.ShloMosaic.Lib.ValueIdx
import Idealize.ShloMosaic.Lib.ReduceAll
import Idealize.ShloMosaic.Lib.StableHlo.Predicate

set_option maxRecDepth 16384

noncomputable section

open scoped BigOperators

namespace Cert.Pre_finite_inputs.PreSrc

open Cert.Pre_finite_inputs Cert.Pre_finite_inputs.Facts
open Idealize.ShloMosaic Idealize.ShloMosaic.ValueIdx

variable {F : FTy → Type} [FloatOps F]

/-- The last part of the precondition is a conjunction whose second conjunct is the conjunction, over all edges, of the
    two signed bounds -50000 ≤ src e and src e < 50000 (the scalar bounds broadcast over the edges read the scalar at
    every edge). When the part is 1, so is that conjunct, hence so is its element at every edge, and a word within these
    bounds is a valid index. -/
theorem part2_src (a2 : IVec S800000 32) (a9 : FVec F S128 .f32) (v33 : IVec S_ 1)
    (h : Cert.Pre_finite_inputs.fn_part2 (F := F) a2 a9 v33 ix0 = 1#1) (e : Fin 800000) :
    Spec.inRange (a2 (ix1 e)) := by
  -- a rank-0 result has one index
  haveI : Subsingleton S_.Idx := ⟨fun a b => (eq_ix0 a).trans (eq_ix0 b).symm⟩
  unfold Cert.Pre_finite_inputs.fn_part2 at h
  -- the outermost conjunction: its second conjunct is the conjunction over all edges
  have h44 := (IntOp.andi_eq_one.1 h).2
  -- a conjunction over all edges that is 1 is 1 at edge e
  have he := Host.reduce_andi_all _ _ _ _ _ h44 (ix1 e)
  -- the element at edge e is the conjunction of the two signed comparisons
  obtain ⟨hge, hlt⟩ := IntOp.andi_eq_one.1 he
  -- the word 4294917296 read signed is -50000
  have h0 : -50000 ≤ (a2 (ix1 e)).toInt := IntOp.cmpi_sge.1 hge
  have h1 : (a2 (ix1 e)).toInt < 50000 := IntOp.cmpi_slt.1 hlt
  exact Spec.inRange_of_bounds _ h0 h1

/-- Under the precondition every source word is a valid index. -/
theorem src_inRange (a0 a1 : FVec F S50000x128 .f32) (a2 a3 : IVec S800000 32) (a4 : FVec F S128x128 .f32) (a5 : FVec F S128 .f32)
    (a6 : FVec F S128x128 .f32) (a7 : FVec F S128 .f32) (a8 : FVec F S128x128 .f32) (a9 : FVec F S128 .f32)
    (h : Cert.Pre_finite_inputs.fn (F := F) a0 a1 a2 a3 a4 a5 a6 a7 a8 a9 = fun _ => 1#1) (e : Fin 800000) :
    Spec.inRange (a2 (ix1 e)) := by
  -- the precondition at its one index is its last part applied to the source words
  have h0 := congrFun h ix0
  unfold Cert.Pre_finite_inputs.fn Cert.Pre_finite_inputs.fn_part1 at h0
  exact part2_src a2 a9 _ h0 e

end Cert.Pre_finite_inputs.PreSrc

end
-- ==== Proof.lean ====
/-
  The certificate of a tiled graph-attention kernel against its plain reference.

  Both programs project node features to queries, keys and values (h · W + b), score every edge by the exponential
  of the clipped, quartered per-head dot product of the source node's keys with the destination node's queries, and
  give each node, per head and lane, the score-weighted sum of its incoming edges' source values divided by the sum
  of those scores. The tiled program projects keys and values in one pass over a joined weight, gathers rows with a
  fill value for words outside the table, and forms the per-head sums and their spread back over the lanes as
  products with a 0/1 grouping matrix; the reference indexes directly (an out-of-range word is clamped by its
  gather). Over the extended reals the two results are one function of the arguments when every source word is a
  valid index, which the precondition states; an edge whose destination word names no node is dropped by both
  scatter sums, so the destination words need no such condition.

  The three frames: the two tiled programs' are the generated frame certificates, the reference's is its generated
  run with the result dropped. The idealization ledger is empty. The value claim joins the tiled program's run,
  re-posted with its result named, to the reference's run through Spec.out.
-/
import proofs.«420706_j65360812310777_1_alg».proof.Defs
import proofs.«420706_j65360812310777_1_alg».proof.Proof.Gen.Kernel
import proofs.«420706_j65360812310777_1_alg».proof.Proof.Gen.Kernel.Skeleton
import proofs.«420706_j65360812310777_1_alg».proof.Proof.Gen.Kernel.Launch
import proofs.«420706_j65360812310777_1_alg».proof.Proof.Gen.Kernel.Points
import proofs.«420706_j65360812310777_1_alg».proof.Proof.Gen.Kernel.Frame
import proofs.«420706_j65360812310777_1_alg».proof.Proof.Gen.KernelIdeal
import proofs.«420706_j65360812310777_1_alg».proof.Proof.Gen.KernelIdeal.Skeleton
import proofs.«420706_j65360812310777_1_alg».proof.Proof.Gen.KernelIdeal.Launch
import proofs.«420706_j65360812310777_1_alg».proof.Proof.Gen.KernelIdeal.Points
import proofs.«420706_j65360812310777_1_alg».proof.Proof.Gen.KernelIdeal.Frame
import proofs.«420706_j65360812310777_1_alg».proof.Proof.Gen.ReferenceIdeal
import proofs.«420706_j65360812310777_1_alg».proof.Proof.Gen.ReferenceIdeal.Run
import proofs.«420706_j65360812310777_1_alg».proof.Proof.Gen.ReferenceIdeal.Read
import proofs.«420706_j65360812310777_1_alg».proof.Proof.Gen.Pre_finite_inputs
import proofs.«420706_j65360812310777_1_alg».proof.Proof.KRun
import proofs.«420706_j65360812310777_1_alg».proof.Proof.KValue
import proofs.«420706_j65360812310777_1_alg».proof.Proof.RefValue
import proofs.«420706_j65360812310777_1_alg».proof.Proof.PreSrc
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The value claim: the tiled program's result array and the reference's are Spec.out of the same projections of
    the same arguments, index by index. -/
theorem algebraic : Cert.algebraic_KernelIdeal_ReferenceIdeal := by
  intro m ρ m' ρ' hpre hagree
  refine ⟨fun c => Cert.KernelIdeal.Gen.W10 (F := Ideal) m ρ c (Proc.devRef .tc Cert.KernelIdeal.main_v21),
    Cert.KernelIdeal.KRun.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq]
  obtain ⟨h0, h1, h2, h3, h4, h5, h6, h7, h8, h9⟩ := hagree c
  rw [h0, h1, h2, h3, h4, h5, h6, h7, h8, h9]
  have hsrc : ∀ e : Fin 800000, Spec.inRange (Cert.KernelIdeal.KHost.a2 m c (ix1 e)) := fun e =>
    Cert.Pre_finite_inputs.PreSrc.src_inRange (F := Ideal) _ _ _ _ _ _ _ _ _ _ (hpre c) e
  funext i
  rw [eq_ix3 i]
  refine (Cert.ReferenceIdeal.RefValue.result_apply _ _ _ _ _ _ _ _ _ _ (i 0) (i 1) (i 2)).trans ?_
  exact (Cert.KernelIdeal.KHost.value m ρ c hsrc (i 0) (i 1) (i 2)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
